-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x32 : Shape := ⟨2, ![2048, 32]⟩
abbrev S2048x2048 : Shape := ⟨2, ![2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x2048x1024 .f32) (main_arg1 : FVec F S2048x32 .f32) (main_arg2 : FVec F S2048x32 .f32) (main_arg3 : FVec F S2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S2048x32 .f32 := Host.absf main_arg2
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_v13 main_v16
-- ==== Kernel.lean ====
abbrev S2x2048x1024 : Shape := ⟨3, ![2, 2048, 1024]⟩
abbrev S2048x32 : Shape := ⟨2, ![2048, 32]⟩
abbrev S2048x2048 : Shape := ⟨2, ![2048, 2048]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x3072 : Shape := ⟨2, ![1, 3072]⟩
abbrev S1x1024 : Shape := ⟨2, ![1, 1024]⟩
abbrev S2x16x2048x64 : Shape := ⟨4, ![2, 16, 2048, 64]⟩
abbrev S1x512x1024 : Shape := ⟨3, ![1, 512, 1024]⟩
abbrev S512x32 : Shape := ⟨2, ![512, 32]⟩
abbrev S1x16x512x64 : Shape := ⟨4, ![1, 16, 512, 64]⟩
abbrev S512x1024 : Shape := ⟨2, ![512, 1024]⟩
abbrev S512x3072 : Shape := ⟨2, ![512, 3072]⟩
abbrev S512x64 : Shape := ⟨2, ![512, 64]⟩
abbrev S1x1x512x64 : Shape := ⟨4, ![1, 1, 512, 64]⟩
abbrev S1x16x256x64 : Shape := ⟨4, ![1, 16, 256, 64]⟩
abbrev S1x16x2048x64 : Shape := ⟨4, ![1, 16, 2048, 64]⟩
abbrev S256x2048 : Shape := ⟨2, ![256, 2048]⟩
abbrev S1x256x1024 : Shape := ⟨3, ![1, 256, 1024]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S256 : Shape := ⟨1, ![256]⟩
abbrev S256x1 : Shape := ⟨2, ![256, 1]⟩
abbrev S256x1024 : Shape := ⟨2, ![256, 1024]⟩

abbrev nBuf : Space → Nat
  | .hbm => 22
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2048x32, .f32⟩
  | .hbm, ⟨2, _⟩ => ⟨S2048x32, .f32⟩
  | .hbm, ⟨3, _⟩ => ⟨S2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S3072x1024, .f32⟩
  | .hbm, ⟨13, _⟩ => ⟨S3072x1024, .bf16⟩
  | .hbm, ⟨14, _⟩ => ⟨S3072, .f32⟩
  | .hbm, ⟨15, _⟩ => ⟨S1x3072, .f32⟩
  | .hbm, ⟨16, _⟩ => ⟨S1024x1024, .bf16⟩
  | .hbm, ⟨17, _⟩ => ⟨S1x1024, .f32⟩
  | .hbm, ⟨18, _⟩ => ⟨S2x16x2048x64, .bf16⟩
  | .hbm, ⟨19, _⟩ => ⟨S2x16x2048x64, .bf16⟩
  | .hbm, ⟨20, _⟩ => ⟨S2x16x2048x64, .bf16⟩
  | .hbm, ⟨21, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x3072, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1x16x512x64, .bf16⟩
  | .local _ .vmem, ⟨9, _⟩ => ⟨S1x16x512x64, .bf16⟩
  | .local _ .vmem, ⟨10, _⟩ => ⟨S1x16x512x64, .bf16⟩
  | .local _ .vmem, ⟨11, _⟩ => ⟨S1x16x512x64, .bf16⟩
  | .local _ .vmem, ⟨12, _⟩ => ⟨S1x16x512x64, .bf16⟩
  | .local _ .vmem, ⟨13, _⟩ => ⟨S1x16x512x64, .bf16⟩
  | .local _ .vmem, ⟨14, _⟩ => ⟨S1x16x256x64, .bf16⟩
  | .local _ .vmem, ⟨15, _⟩ => ⟨S1x16x256x64, .bf16⟩
  | .local _ .vmem, ⟨16, _⟩ => ⟨S1x16x2048x64, .bf16⟩
  | .local _ .vmem, ⟨17, _⟩ => ⟨S1x16x2048x64, .bf16⟩
  | .local _ .vmem, ⟨18, _⟩ => ⟨S1x16x2048x64, .bf16⟩
  | .local _ .vmem, ⟨19, _⟩ => ⟨S1x16x2048x64, .bf16⟩
  | .local _ .vmem, ⟨20, _⟩ => ⟨S256x2048, .f32⟩
  | .local _ .vmem, ⟨21, _⟩ => ⟨S256x2048, .f32⟩
  | .local _ .vmem, ⟨22, _⟩ => ⟨S1024x1024, .bf16⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x32_S512x32_0_0 : ∀ a, (![0, 0] : Fin 2 → Nat) a + S512x32.size a ≤ S512x32.size a
  h_S512x32 : 0 < S512x32.numel
  slices_S512x3072_o0_0_S512x64 : S512x3072.Slices ![0, 0] S512x64
  slices_S512x3072_o0_1024_S512x64 : S512x3072.Slices ![0, 1024] S512x64
  slices_S512x3072_o0_2048_S512x64 : S512x3072.Slices ![0, 2048] S512x64
  slices_S512x64_o0_0_S512x32 : S512x64.Slices ![0, 0] S512x32
  slices_S512x64_o0_32_S512x32 : S512x64.Slices ![0, 32] S512x32
  concatenates_S512x32_S512x32_S512x64_d1 : Shape.Concatenates [S512x32, S512x32] S512x64 1
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  slices_S512x3072_o0_64_S512x64 : S512x3072.Slices ![0, 64] S512x64
  slices_S512x3072_o0_1088_S512x64 : S512x3072.Slices ![0, 1088] S512x64
  slices_S512x3072_o0_2112_S512x64 : S512x3072.Slices ![0, 2112] S512x64
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  slices_S512x3072_o0_128_S512x64 : S512x3072.Slices ![0, 128] S512x64
  slices_S512x3072_o0_1152_S512x64 : S512x3072.Slices ![0, 1152] S512x64
  slices_S512x3072_o0_2176_S512x64 : S512x3072.Slices ![0, 2176] S512x64
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  slices_S512x3072_o0_192_S512x64 : S512x3072.Slices ![0, 192] S512x64
  slices_S512x3072_o0_1216_S512x64 : S512x3072.Slices ![0, 1216] S512x64
  slices_S512x3072_o0_2240_S512x64 : S512x3072.Slices ![0, 2240] S512x64
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  slices_S512x3072_o0_256_S512x64 : S512x3072.Slices ![0, 256] S512x64
  slices_S512x3072_o0_1280_S512x64 : S512x3072.Slices ![0, 1280] S512x64
  slices_S512x3072_o0_2304_S512x64 : S512x3072.Slices ![0, 2304] S512x64
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  slices_S512x3072_o0_320_S512x64 : S512x3072.Slices ![0, 320] S512x64
  slices_S512x3072_o0_1344_S512x64 : S512x3072.Slices ![0, 1344] S512x64
  slices_S512x3072_o0_2368_S512x64 : S512x3072.Slices ![0, 2368] S512x64
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  slices_S512x3072_o0_384_S512x64 : S512x3072.Slices ![0, 384] S512x64
  slices_S512x3072_o0_1408_S512x64 : S512x3072.Slices ![0, 1408] S512x64
  slices_S512x3072_o0_2432_S512x64 : S512x3072.Slices ![0, 2432] S512x64
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  slices_S512x3072_o0_448_S512x64 : S512x3072.Slices ![0, 448] S512x64
  slices_S512x3072_o0_1472_S512x64 : S512x3072.Slices ![0, 1472] S512x64
  slices_S512x3072_o0_2496_S512x64 : S512x3072.Slices ![0, 2496] S512x64
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  slices_S512x3072_o0_512_S512x64 : S512x3072.Slices ![0, 512] S512x64
  slices_S512x3072_o0_1536_S512x64 : S512x3072.Slices ![0, 1536] S512x64
  slices_S512x3072_o0_2560_S512x64 : S512x3072.Slices ![0, 2560] S512x64
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  slices_S512x3072_o0_576_S512x64 : S512x3072.Slices ![0, 576] S512x64
  slices_S512x3072_o0_1600_S512x64 : S512x3072.Slices ![0, 1600] S512x64
  slices_S512x3072_o0_2624_S512x64 : S512x3072.Slices ![0, 2624] S512x64
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  slices_S512x3072_o0_640_S512x64 : S512x3072.Slices ![0, 640] S512x64
  slices_S512x3072_o0_1664_S512x64 : S512x3072.Slices ![0, 1664] S512x64
  slices_S512x3072_o0_2688_S512x64 : S512x3072.Slices ![0, 2688] S512x64
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  slices_S512x3072_o0_704_S512x64 : S512x3072.Slices ![0, 704] S512x64
  slices_S512x3072_o0_1728_S512x64 : S512x3072.Slices ![0, 1728] S512x64
  slices_S512x3072_o0_2752_S512x64 : S512x3072.Slices ![0, 2752] S512x64
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  slices_S512x3072_o0_768_S512x64 : S512x3072.Slices ![0, 768] S512x64
  slices_S512x3072_o0_1792_S512x64 : S512x3072.Slices ![0, 1792] S512x64
  slices_S512x3072_o0_2816_S512x64 : S512x3072.Slices ![0, 2816] S512x64
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  slices_S512x3072_o0_832_S512x64 : S512x3072.Slices ![0, 832] S512x64
  slices_S512x3072_o0_1856_S512x64 : S512x3072.Slices ![0, 1856] S512x64
  slices_S512x3072_o0_2880_S512x64 : S512x3072.Slices ![0, 2880] S512x64
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  slices_S512x3072_o0_896_S512x64 : S512x3072.Slices ![0, 896] S512x64
  slices_S512x3072_o0_1920_S512x64 : S512x3072.Slices ![0, 1920] S512x64
  slices_S512x3072_o0_2944_S512x64 : S512x3072.Slices ![0, 2944] S512x64
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  slices_S512x3072_o0_960_S512x64 : S512x3072.Slices ![0, 960] S512x64
  slices_S512x3072_o0_1984_S512x64 : S512x3072.Slices ![0, 1984] S512x64
  slices_S512x3072_o0_3008_S512x64 : S512x3072.Slices ![0, 3008] S512x64
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  inb_S256x2048_S256x2048_0_0 : ∀ a, (![0, 0] : Fin 2 → Nat) a + S256x2048.size a ≤ S256x2048.size a
  h_S256x2048 : 0 < S256x2048.numel
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  inb_S1x16x2048x64_S1x1x2048x64_0_0_0_0 : ∀ a, (![0, 0, 0, 0] : Fin 4 → Nat) a + S1x1x2048x64.size a ≤ S1x16x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S1x16x256x64_S1x1x256x64_0_1_0_0 : ∀ a, (![0, 1, 0, 0] : Fin 4 → Nat) a + S1x1x256x64.size a ≤ S1x16x256x64.size a
  inb_S1x16x2048x64_S1x1x2048x64_0_1_0_0 : ∀ a, (![0, 1, 0, 0] : Fin 4 → Nat) a + S1x1x2048x64.size a ≤ S1x16x2048x64.size a
  inb_S1x16x256x64_S1x1x256x64_0_2_0_0 : ∀ a, (![0, 2, 0, 0] : Fin 4 → Nat) a + S1x1x256x64.size a ≤ S1x16x256x64.size a
  inb_S1x16x2048x64_S1x1x2048x64_0_2_0_0 : ∀ a, (![0, 2, 0, 0] : Fin 4 → Nat) a + S1x1x2048x64.size a ≤ S1x16x2048x64.size a
  inb_S1x16x256x64_S1x1x256x64_0_3_0_0 : ∀ a, (![0, 3, 0, 0] : Fin 4 → Nat) a + S1x1x256x64.size a ≤ S1x16x256x64.size a
  inb_S1x16x2048x64_S1x1x2048x64_0_3_0_0 : ∀ a, (![0, 3, 0, 0] : Fin 4 → Nat) a + S1x1x2048x64.size a ≤ S1x16x2048x64.size a
  inb_S1x16x256x64_S1x1x256x64_0_4_0_0 : ∀ a, (![0, 4, 0, 0] : Fin 4 → Nat) a + S1x1x256x64.size a ≤ S1x16x256x64.size a
  inb_S1x16x2048x64_S1x1x2048x64_0_4_0_0 : ∀ a, (![0, 4, 0, 0] : Fin 4 → Nat) a + S1x1x2048x64.size a ≤ S1x16x2048x64.size a
  inb_S1x16x256x64_S1x1x256x64_0_5_0_0 : ∀ a, (![0, 5, 0, 0] : Fin 4 → Nat) a + S1x1x256x64.size a ≤ S1x16x256x64.size a
  inb_S1x16x2048x64_S1x1x2048x64_0_5_0_0 : ∀ a, (![0, 5, 0, 0] : Fin 4 → Nat) a + S1x1x2048x64.size a ≤ S1x16x2048x64.size a
  inb_S1x16x256x64_S1x1x256x64_0_6_0_0 : ∀ a, (![0, 6, 0, 0] : Fin 4 → Nat) a + S1x1x256x64.size a ≤ S1x16x256x64.size a
  inb_S1x16x2048x64_S1x1x2048x64_0_6_0_0 : ∀ a, (![0, 6, 0, 0] : Fin 4 → Nat) a + S1x1x2048x64.size a ≤ S1x16x2048x64.size a
  inb_S1x16x256x64_S1x1x256x64_0_7_0_0 : ∀ a, (![0, 7, 0, 0] : Fin 4 → Nat) a + S1x1x256x64.size a ≤ S1x16x256x64.size a
  inb_S1x16x2048x64_S1x1x2048x64_0_7_0_0 : ∀ a, (![0, 7, 0, 0] : Fin 4 → Nat) a + S1x1x2048x64.size a ≤ S1x16x2048x64.size a
  inb_S1x16x256x64_S1x1x256x64_0_8_0_0 : ∀ a, (![0, 8, 0, 0] : Fin 4 → Nat) a + S1x1x256x64.size a ≤ S1x16x256x64.size a
  inb_S1x16x2048x64_S1x1x2048x64_0_8_0_0 : ∀ a, (![0, 8, 0, 0] : Fin 4 → Nat) a + S1x1x2048x64.size a ≤ S1x16x2048x64.size a
  inb_S1x16x256x64_S1x1x256x64_0_9_0_0 : ∀ a, (![0, 9, 0, 0] : Fin 4 → Nat) a + S1x1x256x64.size a ≤ S1x16x256x64.size a
  inb_S1x16x2048x64_S1x1x2048x64_0_9_0_0 : ∀ a, (![0, 9, 0, 0] : Fin 4 → Nat) a + S1x1x2048x64.size a ≤ S1x16x2048x64.size a
  inb_S1x16x256x64_S1x1x256x64_0_10_0_0 : ∀ a, (![0, 10, 0, 0] : Fin 4 → Nat) a + S1x1x256x64.size a ≤ S1x16x256x64.size a
  inb_S1x16x2048x64_S1x1x2048x64_0_10_0_0 : ∀ a, (![0, 10, 0, 0] : Fin 4 → Nat) a + S1x1x2048x64.size a ≤ S1x16x2048x64.size a
  inb_S1x16x256x64_S1x1x256x64_0_11_0_0 : ∀ a, (![0, 11, 0, 0] : Fin 4 → Nat) a + S1x1x256x64.size a ≤ S1x16x256x64.size a
  inb_S1x16x2048x64_S1x1x2048x64_0_11_0_0 : ∀ a, (![0, 11, 0, 0] : Fin 4 → Nat) a + S1x1x2048x64.size a ≤ S1x16x2048x64.size a
  inb_S1x16x256x64_S1x1x256x64_0_12_0_0 : ∀ a, (![0, 12, 0, 0] : Fin 4 → Nat) a + S1x1x256x64.size a ≤ S1x16x256x64.size a
  inb_S1x16x2048x64_S1x1x2048x64_0_12_0_0 : ∀ a, (![0, 12, 0, 0] : Fin 4 → Nat) a + S1x1x2048x64.size a ≤ S1x16x2048x64.size a
  inb_S1x16x256x64_S1x1x256x64_0_13_0_0 : ∀ a, (![0, 13, 0, 0] : Fin 4 → Nat) a + S1x1x256x64.size a ≤ S1x16x256x64.size a
  inb_S1x16x2048x64_S1x1x2048x64_0_13_0_0 : ∀ a, (![0, 13, 0, 0] : Fin 4 → Nat) a + S1x1x2048x64.size a ≤ S1x16x2048x64.size a
  inb_S1x16x256x64_S1x1x256x64_0_14_0_0 : ∀ a, (![0, 14, 0, 0] : Fin 4 → Nat) a + S1x1x256x64.size a ≤ S1x16x256x64.size a
  inb_S1x16x2048x64_S1x1x2048x64_0_14_0_0 : ∀ a, (![0, 14, 0, 0] : Fin 4 → Nat) a + S1x1x2048x64.size a ≤ S1x16x2048x64.size a
  inb_S1x16x256x64_S1x1x256x64_0_15_0_0 : ∀ a, (![0, 15, 0, 0] : Fin 4 → Nat) a + S1x1x256x64.size a ≤ S1x16x256x64.size a
  inb_S1x16x2048x64_S1x1x2048x64_0_15_0_0 : ∀ a, (![0, 15, 0, 0] : Fin 4 → Nat) a + S1x1x2048x64.size a ≤ S1x16x2048x64.size a
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S3072x1024_S512x3072_1_1_0_0_n_n_wf : DotDims.WF S512x1024 S3072x1024 S512x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S2048x32.size a
  hwx0_3 : ∀ i : grid0.Coords, EltTy.bits .f32 = 32 ∨ (Rect.block (s := S2048x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S2048x32.size a
  hwx0_4 : ∀ i : grid0.Coords, EltTy.bits .f32 = 32 ∨ (Rect.block (s := S2048x32) S512x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .bf16 = 32 ∨ (Rect.block (s := S2x16x2048x64) S1x16x512x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x64.size a ≤ S2x16x2048x64.size a
  hwx0_6 : ∀ i : grid0.Coords, EltTy.bits .bf16 = 32 ∨ (Rect.block (s := S2x16x2048x64) S1x16x512x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x512x64.size a ≤ S2x16x2048x64.size a
  hwx0_7 : ∀ i : grid0.Coords, EltTy.bits .bf16 = 32 ∨ (Rect.block (s := S2x16x2048x64) S1x16x512x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x64.size a ≤ S2x16x2048x64.size a
  hwx1_0 : ∀ i : grid1.Coords, EltTy.bits .bf16 = 32 ∨ (Rect.block (s := S2x16x2048x64) S1x16x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x2048x64.size a ≤ S2x16x2048x64.size a
  hwx1_1 : ∀ i : grid1.Coords, EltTy.bits .bf16 = 32 ∨ (Rect.block (s := S2x16x2048x64) S1x16x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x2048x64.size a ≤ S2x16x2048x64.size a
  hwx1_2 : ∀ i : grid1.Coords, EltTy.bits .bf16 = 32 ∨ (Rect.block (s := S2x16x2048x64) S1x16x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S2x2048x1024.size a
  hwx1_6 : ∀ i : grid1.Coords, EltTy.bits .f32 = 32 ∨ (Rect.block (s := S2x2048x1024) S1x256x1024.size (cc1_transform_6 i) (hinb1_6 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x16x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x16x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x16x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_0) S1x16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x16x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x16x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S2048x32 : Shape := ⟨2, ![2048, 32]⟩
abbrev S2048x2048 : Shape := ⟨2, ![2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x32 : Shape := ⟨4, ![2, 16, 2048, 32]⟩
abbrev S1x1x2048x32 : Shape := ⟨4, ![1, 1, 2048, 32]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x32, .f32⟩
  | .hbm, ⟨2, _⟩ => ⟨S2048x32, .f32⟩
  | .hbm, ⟨3, _⟩ => ⟨S2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x16x2048x32, .f32⟩
  | .hbm, ⟨19, _⟩ => ⟨S2x16x2048x32, .f32⟩
  | .hbm, ⟨20, _⟩ => ⟨S1x1x2048x32, .f32⟩
  | .hbm, ⟨21, _⟩ => ⟨S1x1x2048x32, .f32⟩
  | .hbm, ⟨22, _⟩ => ⟨S2x16x2048x32, .f32⟩
  | .hbm, ⟨23, _⟩ => ⟨S2x16x2048x32, .f32⟩
  | .hbm, ⟨24, _⟩ => ⟨S2x16x2048x32, .f32⟩
  | .hbm, ⟨25, _⟩ => ⟨S2x16x2048x32, .f32⟩
  | .hbm, ⟨26, _⟩ => ⟨S2x16x2048x32, .f32⟩
  | .hbm, ⟨27, _⟩ => ⟨S2x16x2048x32, .f32⟩
  | .hbm, ⟨28, _⟩ => ⟨S2x16x2048x32, .f32⟩
  | .hbm, ⟨29, _⟩ => ⟨S2x16x2048x32, .f32⟩
  | .hbm, ⟨30, _⟩ => ⟨S2x16x2048x32, .f32⟩
  | .hbm, ⟨31, _⟩ => ⟨S2x16x2048x32, .f32⟩
  | .hbm, ⟨32, _⟩ => ⟨S2x16x2048x64, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x16x64, .f32⟩
  | .hbm, ⟨38, _⟩ => ⟨S2x16x2048x64, .f32⟩
  | .hbm, ⟨39, _⟩ => ⟨S2x16x2048x32, .f32⟩
  | .hbm, ⟨40, _⟩ => ⟨S2x16x2048x32, .f32⟩
  | .hbm, ⟨41, _⟩ => ⟨S1x1x2048x32, .f32⟩
  | .hbm, ⟨42, _⟩ => ⟨S1x1x2048x32, .f32⟩
  | .hbm, ⟨43, _⟩ => ⟨S2x16x2048x32, .f32⟩
  | .hbm, ⟨44, _⟩ => ⟨S2x16x2048x32, .f32⟩
  | .hbm, ⟨45, _⟩ => ⟨S2x16x2048x32, .f32⟩
  | .hbm, ⟨46, _⟩ => ⟨S2x16x2048x32, .f32⟩
  | .hbm, ⟨47, _⟩ => ⟨S2x16x2048x32, .f32⟩
  | .hbm, ⟨48, _⟩ => ⟨S2x16x2048x32, .f32⟩
  | .hbm, ⟨49, _⟩ => ⟨S2x16x2048x32, .f32⟩
  | .hbm, ⟨50, _⟩ => ⟨S2x16x2048x32, .f32⟩
  | .hbm, ⟨51, _⟩ => ⟨S2x16x2048x32, .f32⟩
  | .hbm, ⟨52, _⟩ => ⟨S2x16x2048x32, .f32⟩
  | .hbm, ⟨53, _⟩ => ⟨S2x16x2048x64, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S2x2048x16x64, .f32⟩
  | .hbm, ⟨59, _⟩ => ⟨S2x16x2048x64, .f32⟩
  | .hbm, ⟨60, _⟩ => ⟨S2x16x2048x2048, .f32⟩
  | .hbm, ⟨61, _⟩ => ⟨S_, .f32⟩
  | .hbm, ⟨62, _⟩ => ⟨S2x16x2048x2048, .f32⟩
  | .hbm, ⟨63, _⟩ => ⟨S2x16x2048x2048, .f32⟩
  | .hbm, ⟨64, _⟩ => ⟨S1x1x2048x2048, .f32⟩
  | .hbm, ⟨65, _⟩ => ⟨S2x16x2048x2048, .f32⟩
  | .hbm, ⟨66, _⟩ => ⟨S2x16x2048x2048, .f32⟩
  | .hbm, ⟨67, _⟩ => ⟨S_, .f32⟩
  | .hbm, ⟨68, _⟩ => ⟨S2x16x2048, .f32⟩
  | .hbm, ⟨69, _⟩ => ⟨S_, .f32⟩
  | .hbm, ⟨70, _⟩ => ⟨S2x16x2048, .f32⟩
  | .hbm, ⟨71, _⟩ => ⟨S2x16x2048, .f32⟩
  | .hbm, ⟨72, _⟩ => ⟨S2x16x2048x1, .f32⟩
  | .hbm, ⟨73, _⟩ => ⟨S2x16x2048x2048, .f32⟩
  | .hbm, ⟨74, _⟩ => ⟨S2x16x2048x2048, .f32⟩
  | .hbm, ⟨75, _⟩ => ⟨S2x16x2048x2048, .f32⟩
  | .hbm, ⟨76, _⟩ => ⟨S_, .f32⟩
  | .hbm, ⟨77, _⟩ => ⟨S2x16x2048, .f32⟩
  | .hbm, ⟨78, _⟩ => ⟨S2x16x2048x1, .f32⟩
  | .hbm, ⟨79, _⟩ => ⟨S2x16x2048x2048, .f32⟩
  | .hbm, ⟨80, _⟩ => ⟨S2x16x2048x2048, .f32⟩
  | .hbm, ⟨81, _⟩ => ⟨S2x16x2048x64, .f32⟩
  | .hbm, ⟨82, _⟩ => ⟨S2x2048x16x64, .f32⟩
  | .hbm, ⟨83, _⟩ => ⟨S2x2048x1024, .f32⟩
  | .hbm, ⟨84, _⟩ => ⟨S2x2048x1024, .f32⟩
  | .hbm, ⟨85, _⟩ => ⟨S1x1x1024, .f32⟩
  | .hbm, ⟨86, _⟩ => ⟨S2x2048x1024, .f32⟩
  | .hbm, ⟨87, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_0 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_2 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  slices_S2x16x2048x64_S2x16x2048x32_0_0_0_0 : S2x16x2048x64.Slices ![0, 0, 0, 0] S2x16x2048x32
  slices_S2x16x2048x64_S2x16x2048x32_0_0_0_32 : S2x16x2048x64.Slices ![0, 0, 0, 32] S2x16x2048x32
  bcast_S2048x32_S1x1x2048x32_2_3 : S2048x32.BroadcastsInDim S1x1x2048x32 (![2, 3] : Fin 2 → Fin S1x1x2048x32.rank)
  bcast_S1x1x2048x32_S2x16x2048x32_0_1_2_3 : S1x1x2048x32.BroadcastsInDim S2x16x2048x32 (![0, 1, 2, 3] : Fin 4 → Fin S2x16x2048x32.rank)
  concatenates_S2x16x2048x32_S2x16x2048x32_S2x16x2048x64_d3 : Shape.Concatenates [S2x16x2048x32, S2x16x2048x32] S2x16x2048x64 3
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsQkvRun.lean ====
/-
  The projection-and-rotation body (the first pallas_call) on whole blocks. It reads five blocks — 512 rows of the
  input, the three weight matrices stacked, the three biases stacked, and the rows' cosines and sines — and leaves
  them as they were; whatever the three output blocks held, each ends overwritten by sixteen stored rectangles, one
  per head: the rotated queries, the rotated keys, and the values of those 512 rows.
-/
import proofs.«400326_j61744449847642_3_alg».proof.Proof.Gen.Kernel.Launch
import proofs.«400326_j61744449847642_3_alg».proof.Proof.Gen.Kernel.Skeleton
import proofs.«400326_j61744449847642_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The rectangles the body stores into the three output blocks (queries, keys, values), last first, together with:
    from whole buffers holding the five input blocks, the body terminates without a fault, the input blocks
    unchanged and each output block overwritten by exactly its rectangles. -/
noncomputable def kernelRun0 (c : Dev nD) (i : grid0.Coords)
    (arg2 : Memref sig .tc .vmem S1x512x1024 .f32) (harg2 : arg2.IsWhole)
    (arg3 : Memref sig .tc .vmem S3072x1024 .bf16) (harg3 : arg3.IsWhole)
    (arg4 : Memref sig .tc .vmem S1x3072 .f32) (harg4 : arg4.IsWhole)
    (arg5 : Memref sig .tc .vmem S512x32 .f32) (harg5 : arg5.IsWhole)
    (arg6 : Memref sig .tc .vmem S512x32 .f32) (harg6 : arg6.IsWhole)
    (arg7 : Memref sig .tc .vmem S1x16x512x64 .bf16) (harg7 : arg7.IsWhole)
    (arg8 : Memref sig .tc .vmem S1x16x512x64 .bf16) (harg8 : arg8.IsWhole)
    (arg9 : Memref sig .tc .vmem S1x16x512x64 .bf16) (harg9 : arg9.IsWhole)
    (x0 : Vec F S1x512x1024 .f32) (x1 : Vec F S3072x1024 .bf16) (x2 : Vec F S1x3072 .f32)
    (x3 : Vec F S512x32 .f32) (x4 : Vec F S512x32 .f32) :
    Σ' (L5 : List (View.Piece (Elt F) S1x16x512x64 .bf16)) (L6 : List (View.Piece (Elt F) S1x16x512x64 .bf16)),
      { L7 : List (View.Piece (Elt F) S1x16x512x64 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ (∃ d, owns (c : Thread nD τ) arg7 fullShare d) ∗ (∃ d, owns (c : Thread nD τ) arg8 fullShare d)
            ∗ (∃ d, owns (c : Thread nD τ) arg9 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E
              (cc0__qkv_rope_kernel i arg2 harg2 arg3 harg3 arg4 harg4 arg5 harg5 arg6 harg6 arg7 harg7 arg8 harg8 arg9 harg9) K } := by
  refine ⟨?_, ?_, ?_, fun E K => ?run⟩
  case run =>
    simp only [cc0__qkv_rope_kernel_eq_skeleton]; unfold cc0__qkv_rope_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.Kernel.Frm

end
-- ==== Proof.BitsQkvData.lean ====
/-
  The first pallas_call (projections and rotation) as a pipeline: what each window's block is at a grid point, that
  every input buffer holds its block whenever the body runs, and that the body at any point takes these to the same
  input blocks and the three output blocks at their stored rectangles.
-/
import proofs.«400326_j61744449847642_3_alg».proof.Proof.BitsQkvRun
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, whether fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, whether fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, whether fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, whether fetched there or kept from the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, and that it is a whole buffer. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x512x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x512x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x512x64 .bf16 := win0_7.stage (cfg0.slots t 7)
abbrev hs0_7 (t : Fin cfg0.N) : (ms0_7 t).IsWhole := hstage0_7 ((cfg0.slots t 7).cast nbuf0_7)

/-- One staging buffer of output window 5, through which its contents are stated. -/
abbrev VO0_5 : View sig .tc .vmem S1x16x512x64 .bf16 := (Memref.whole cc0_stg5_0 : Memref sig .tc .vmem S1x16x512x64 .bf16).view

omit V in
/-- The rectangles stored into output window 5's block tile it, so every index of the block lies in one. -/
theorem cover0_5 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) (y : S1x16x512x64.Idx) :
    ∃ pc ∈ (kernelRun0 c i arg2 harg2 arg3 harg3 arg4 harg4 arg5 harg5 arg6 harg6 arg7 harg7 arg8 harg8 arg9 harg9 x0 x1 x2 x3 x4).1, y ∈ pc.1.set :=
  View.cover_of_tiledL (kernelRun0 c i arg2 harg2 arg3 harg3 arg4 harg4 arg5 harg5 arg6 harg6 arg7 harg7 arg8 harg8 arg9 harg9 x0 x1 x2 x3 x4).1 S1x1x512x64.size (by sl_kernel_rfl) y

omit V in
/-- What the body leaves in output window 5's block: its stored rectangles read back. -/
def out0_5 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) : Vec F S1x16x512x64 .bf16 :=
  VO0_5.read (Elt F) (VO0_5.writes (Elt F) VO0_5.junk (kernelRun0 c i arg2 harg2 arg3 harg3 arg4 harg4 arg5 harg5 arg6 harg6 arg7 harg7 arg8 harg8 arg9 harg9 x0 x1 x2 x3 x4).1)

/-- One staging buffer of output window 6, through which its contents are stated. -/
abbrev VO0_6 : View sig .tc .vmem S1x16x512x64 .bf16 := (Memref.whole cc0_stg6_0 : Memref sig .tc .vmem S1x16x512x64 .bf16).view

omit V in
/-- The rectangles stored into output window 6's block tile it, so every index of the block lies in one. -/
theorem cover0_6 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) (y : S1x16x512x64.Idx) :
    ∃ pc ∈ (kernelRun0 c i arg2 harg2 arg3 harg3 arg4 harg4 arg5 harg5 arg6 harg6 arg7 harg7 arg8 harg8 arg9 harg9 x0 x1 x2 x3 x4).2.1, y ∈ pc.1.set :=
  View.cover_of_tiledL (kernelRun0 c i arg2 harg2 arg3 harg3 arg4 harg4 arg5 harg5 arg6 harg6 arg7 harg7 arg8 harg8 arg9 harg9 x0 x1 x2 x3 x4).2.1 S1x1x512x64.size (by sl_kernel_rfl) y

omit V in
/-- What the body leaves in output window 6's block: its stored rectangles read back. -/
def out0_6 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) : Vec F S1x16x512x64 .bf16 :=
  VO0_6.read (Elt F) (VO0_6.writes (Elt F) VO0_6.junk (kernelRun0 c i arg2 harg2 arg3 harg3 arg4 harg4 arg5 harg5 arg6 harg6 arg7 harg7 arg8 harg8 arg9 harg9 x0 x1 x2 x3 x4).2.1)

/-- One staging buffer of output window 7, through which its contents are stated. -/
abbrev VO0_7 : View sig .tc .vmem S1x16x512x64 .bf16 := (Memref.whole cc0_stg7_0 : Memref sig .tc .vmem S1x16x512x64 .bf16).view

omit V in
/-- The rectangles stored into output window 7's block tile it, so every index of the block lies in one. -/
theorem cover0_7 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) (y : S1x16x512x64.Idx) :
    ∃ pc ∈ (kernelRun0 c i arg2 harg2 arg3 harg3 arg4 harg4 arg5 harg5 arg6 harg6 arg7 harg7 arg8 harg8 arg9 harg9 x0 x1 x2 x3 x4).2.2.1, y ∈ pc.1.set :=
  View.cover_of_tiledL (kernelRun0 c i arg2 harg2 arg3 harg3 arg4 harg4 arg5 harg5 arg6 harg6 arg7 harg7 arg8 harg8 arg9 harg9 x0 x1 x2 x3 x4).2.2.1 S1x1x512x64.size (by sl_kernel_rfl) y

omit V in
/-- What the body leaves in output window 7's block: its stored rectangles read back. -/
def out0_7 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) : Vec F S1x16x512x64 .bf16 :=
  VO0_7.read (Elt F) (VO0_7.writes (Elt F) VO0_7.junk (kernelRun0 c i arg2 harg2 arg3 harg3 arg4 harg4 arg5 harg5 arg6 harg6 arg7 harg7 arg8 harg8 arg9 harg9 x0 x1 x2 x3 x4).2.2.1)

/-- The pipeline's proof data on core `c`: the arrays as the region finds them; after the body at point `t` each input
    buffer at its block and each output buffer at what the body stores from the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 2000000 in
/-- The body at any point: the input buffers hold their blocks, so the body's run applies; each output buffer ends at
    its stored rectangles read back, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold out0_5 out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _)
  isplitl [H6]
  · unfold owns; iexists _; isplitr
    swap; · iexact H6
    ipureintro; exact View.read_writes_of_cover _ _ _ _ _ (cover0_6 c _ _ _ _ _ _ _ _ _ _ _ _ _ _ _ _ _ _ _ _ _ _)
  unfold owns; iexists _; isplitr
  swap; · iexact H7
  ipureintro; exact View.read_writes_of_cover _ _ _ _ _ (cover0_7 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.BitsAttnRun.lean ====
/-
  The attention-and-projection body (the second pallas_call) on whole blocks. It reads six blocks — the queries,
  keys and values of the sixteen heads, the additive mask's rows, the output weights and the bias — and leaves
  them as they were; whatever the output block held, it ends overwritten by one stored rectangle, the whole
  block: the sixteen heads' normalised products laid side by side, multiplied by the output weights, plus the bias.
-/
import proofs.«400326_j61744449847642_3_alg».proof.Proof.Gen.Kernel.Launch
import proofs.«400326_j61744449847642_3_alg».proof.Proof.Gen.Kernel.Skeleton
import proofs.«400326_j61744449847642_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The rectangles the body stores into the output block, last first, together with: from whole buffers holding the
    six input blocks, the body terminates without a fault, the input blocks unchanged and the output block
    overwritten by exactly those rectangles. -/
noncomputable def kernelRun1 (c : Dev nD) (i : grid1.Coords)
    (arg2 : Memref sig .tc .vmem S1x16x256x64 .bf16) (harg2 : arg2.IsWhole)
    (arg3 : Memref sig .tc .vmem S1x16x2048x64 .bf16) (harg3 : arg3.IsWhole)
    (arg4 : Memref sig .tc .vmem S1x16x2048x64 .bf16) (harg4 : arg4.IsWhole)
    (arg5 : Memref sig .tc .vmem S256x2048 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x256x1024 .f32) (harg8 : arg8.IsWhole)
    (x0 : Vec F S1x16x256x64 .bf16) (x1 : Vec F S1x16x2048x64 .bf16) (x2 : Vec F S1x16x2048x64 .bf16)
    (x3 : Vec F S256x2048 .f32) (x4 : Vec F S1024x1024 .bf16) (x5 : Vec F S1x1024 .f32) :
    { L6 : List (View.Piece (Elt F) S1x256x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)) -∗ K ⟨⟩))
          ⊢ wp frame (wpE (defs₀ (F := F)) Variants.none c none) E
              (cc1__attn_wo_kernel i arg2 harg2 arg3 harg3 arg4 harg4 arg5 harg5 arg6 harg6 arg7 harg7 arg8 harg8) K } := by
  refine ⟨?_, fun E K => ?run⟩
  case run =>
    simp only [cc1__attn_wo_kernel_eq_skeleton]; unfold cc1__attn_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Frm

end
-- ==== Proof.BitsAttnData.lean ====
/-
  The second pallas_call (attention and output projection) as a pipeline: what each window's block is at a grid
  point, that every input buffer holds its block whenever the body runs, and that the body at any point takes these
  to the same input blocks and the output block at its stored rectangle.
-/
import proofs.«400326_j61744449847642_3_alg».proof.Proof.BitsAttnRun
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, whether fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, whether fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, whether fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, whether fetched there or kept from the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, whether fetched there or kept from the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, and that it is a whole buffer. -/
abbrev ms1_0 (t : Fin cfg1.N) : Memref sig .tc .vmem S1x16x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)

/-- One staging buffer of output window 6, through which its contents are stated. -/
abbrev VO1_6 : View sig .tc .vmem S1x256x1024 .f32 := (Memref.whole cc1_stg6_0 : Memref sig .tc .vmem S1x256x1024 .f32).view

omit V in
/-- The rectangles stored into output window 6's block tile it, so every index of the block lies in one. -/
theorem cover1_6 (c : Dev nD) (i : grid1.Coords) (arg2 : Memref sig .tc .vmem S1x16x256x64 .bf16) (harg2 : arg2.IsWhole) (arg3 : Memref sig .tc .vmem S1x16x2048x64 .bf16) (harg3 : arg3.IsWhole) (arg4 : Memref sig .tc .vmem S1x16x2048x64 .bf16) (harg4 : arg4.IsWhole) (arg5 : Memref sig .tc .vmem S256x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole)
    (x0 : Vec F S1x16x256x64 .bf16) (x1 : Vec F S1x16x2048x64 .bf16) (x2 : Vec F S1x16x2048x64 .bf16) (x3 : Vec F S256x2048 .f32) (x4 : Vec F S1024x1024 .bf16) (x5 : Vec F S1x1024 .f32) (y : S1x256x1024.Idx) :
    ∃ pc ∈ (kernelRun1 c i arg2 harg2 arg3 harg3 arg4 harg4 arg5 harg5 arg6 harg6 arg7 harg7 arg8 harg8 x0 x1 x2 x3 x4 x5).1, y ∈ pc.1.set :=
  View.cover_of_tiledL (kernelRun1 c i arg2 harg2 arg3 harg3 arg4 harg4 arg5 harg5 arg6 harg6 arg7 harg7 arg8 harg8 x0 x1 x2 x3 x4 x5).1 S1x256x1024.size (by sl_kernel_rfl) y

omit V in
/-- What the body leaves in output window 6's block: its stored rectangles read back. -/
def out1_6 (c : Dev nD) (i : grid1.Coords) (arg2 : Memref sig .tc .vmem S1x16x256x64 .bf16) (harg2 : arg2.IsWhole) (arg3 : Memref sig .tc .vmem S1x16x2048x64 .bf16) (harg3 : arg3.IsWhole) (arg4 : Memref sig .tc .vmem S1x16x2048x64 .bf16) (harg4 : arg4.IsWhole) (arg5 : Memref sig .tc .vmem S256x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole)
    (x0 : Vec F S1x16x256x64 .bf16) (x1 : Vec F S1x16x2048x64 .bf16) (x2 : Vec F S1x16x2048x64 .bf16) (x3 : Vec F S256x2048 .f32) (x4 : Vec F S1024x1024 .bf16) (x5 : Vec F S1x1024 .f32) : Vec F S1x256x1024 .f32 :=
  VO1_6.read (Elt F) (VO1_6.writes (Elt F) VO1_6.junk (kernelRun1 c i arg2 harg2 arg3 harg3 arg4 harg4 arg5 harg5 arg6 harg6 arg7 harg7 arg8 harg8 x0 x1 x2 x3 x4 x5).1)

/-- The pipeline's proof data on core `c`: the arrays as the region finds them; after the body at point `t` each input
    buffer at its block and each output buffer at what the body stores from the point's input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 2000000 in
/-- The body at any point: the input buffers hold their blocks, so the body's run applies; each output buffer ends at
    its stored rectangles read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.BitsMainRun.lean ====
/-
  The whole run of @main: six host operations, then the two pallas_calls. The unscoped buffers' contents are followed
  from the launch memory through the host operations and through what each pipeline leaves in its arrays; every
  weakly fair execution terminates without a fault with every unscoped buffer at the last of these contents. The twelve
  arguments are written by nothing on the way, so they end as launched, and the result buffer ends at what the second
  pipeline's write-backs leave.
-/
import proofs.«400326_j61744449847642_3_alg».proof.Proof.BitsQkvData
import proofs.«400326_j61744449847642_3_alg».proof.Proof.BitsAttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the six host operations (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second pallas_call, which is entered from the first one's exit contents. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no host operation writes one, and a pipeline only reads it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 3).trans (((dat0 (V1 m ρ) c).arrAt_in 3 rfl _).trans (A_eq0 (V1 m ρ) c 3))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 4).trans (((dat0 (V1 m ρ) c).arrAt_in 4 rfl _).trans (A_eq0 (V1 m ρ) c 4))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 3).trans (((dat1 (V2 m ρ) c).arrAt_in 3 rfl _).trans (A_eq1 (V2 m ρ) c 3))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl

/-! ## The proof data family and the thread state -/

abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m ρ c) ∗ ∃ r, prngReg c r)

/-! ## The pallas_calls as segments -/

set_option backward.isDefEq.respectTransparency.types false in
/-- Pallas_call 0 as a segment of the run: entered with every unscoped buffer at the contents before it, left with them
    at the contents after it. Its windows' arrays are split out of the unscoped buffers and put back at what the
    pipeline leaves; the generator register rides through the region's invariant; the core owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of the run: entered with every unscoped buffer at the contents before it, left with them
    at the contents after it. Its windows' arrays are split out of the unscoped buffers and put back at what the
    pipeline leaves; the generator register rides through the region's invariant; the core owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of @main terminates without a fault, and in every
    final memory each unscoped buffer holds the final contents `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c)⟩) (run_all m ρ)

/-- The result buffer ends at what the second pipeline's write-backs leave in its output array. -/
theorem result_eq : θ_run defs (onTc (τ := τ) (main (F := F))) ⟨m, fun _ => 0, ρ⟩ (fun r => ∀ c : Dev nD,
      r.2.mem ((c.tc : Thread nD τ).loc main_v7) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v7 (by decide))).trans (W3_arr m ρ c 6),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c)⟩) (run_all m ρ)

end Cert.Kernel.Frm

end
-- ==== Proof.IdealQkvRun.lean ====
/-
  The projection-and-rotation body (the first pallas_call) on whole blocks. It reads five blocks — 512 rows of the
  input, the three weight matrices stacked, the three biases stacked, and the rows' cosines and sines — and leaves
  them as they were; whatever the three output blocks held, each ends overwritten by sixteen stored rectangles, one
  per head: the rotated queries, the rotated keys, and the values of those 512 rows.
-/
import proofs.«400326_j61744449847642_3_alg».proof.Proof.Gen.KernelIdeal.Launch
import proofs.«400326_j61744449847642_3_alg».proof.Proof.Gen.KernelIdeal.Skeleton
import proofs.«400326_j61744449847642_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The rectangles the body stores into the three output blocks (queries, keys, values), last first, together with:
    from whole buffers holding the five input blocks, the body terminates without a fault, the input blocks
    unchanged and each output block overwritten by exactly its rectangles. -/
noncomputable def kernelRun0 (c : Dev nD) (i : grid0.Coords)
    (arg2 : Memref sig .tc .vmem S1x512x1024 .f32) (harg2 : arg2.IsWhole)
    (arg3 : Memref sig .tc .vmem S3072x1024 .bf16) (harg3 : arg3.IsWhole)
    (arg4 : Memref sig .tc .vmem S1x3072 .f32) (harg4 : arg4.IsWhole)
    (arg5 : Memref sig .tc .vmem S512x32 .f32) (harg5 : arg5.IsWhole)
    (arg6 : Memref sig .tc .vmem S512x32 .f32) (harg6 : arg6.IsWhole)
    (arg7 : Memref sig .tc .vmem S1x16x512x64 .bf16) (harg7 : arg7.IsWhole)
    (arg8 : Memref sig .tc .vmem S1x16x512x64 .bf16) (harg8 : arg8.IsWhole)
    (arg9 : Memref sig .tc .vmem S1x16x512x64 .bf16) (harg9 : arg9.IsWhole)
    (x0 : Vec F S1x512x1024 .f32) (x1 : Vec F S3072x1024 .bf16) (x2 : Vec F S1x3072 .f32)
    (x3 : Vec F S512x32 .f32) (x4 : Vec F S512x32 .f32) :
    Σ' (L5 : List (View.Piece (Elt F) S1x16x512x64 .bf16)) (L6 : List (View.Piece (Elt F) S1x16x512x64 .bf16)),
      { L7 : List (View.Piece (Elt F) S1x16x512x64 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ (∃ d, owns (c : Thread nD τ) arg7 fullShare d) ∗ (∃ d, owns (c : Thread nD τ) arg8 fullShare d)
            ∗ (∃ d, owns (c : Thread nD τ) arg9 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E
              (cc0__qkv_rope_kernel i arg2 harg2 arg3 harg3 arg4 harg4 arg5 harg5 arg6 harg6 arg7 harg7 arg8 harg8 arg9 harg9) K } := by
  refine ⟨?_, ?_, ?_, fun E K => ?run⟩
  case run =>
    simp only [cc0__qkv_rope_kernel_eq_skeleton]; unfold cc0__qkv_rope_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.KernelIdeal.Frm

end
-- ==== Proof.IdealQkvData.lean ====
/-
  The first pallas_call (projections and rotation) as a pipeline: what each window's block is at a grid point, that
  every input buffer holds its block whenever the body runs, and that the body at any point takes these to the same
  input blocks and the three output blocks at their stored rectangles.
-/
import proofs.«400326_j61744449847642_3_alg».proof.Proof.IdealQkvRun
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, whether fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, whether fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, whether fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, whether fetched there or kept from the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, and that it is a whole buffer. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x512x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x512x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x512x64 .bf16 := win0_7.stage (cfg0.slots t 7)
abbrev hs0_7 (t : Fin cfg0.N) : (ms0_7 t).IsWhole := hstage0_7 ((cfg0.slots t 7).cast nbuf0_7)

/-- One staging buffer of output window 5, through which its contents are stated. -/
abbrev VO0_5 : View sig .tc .vmem S1x16x512x64 .bf16 := (Memref.whole cc0_stg5_0 : Memref sig .tc .vmem S1x16x512x64 .bf16).view

omit V in
/-- The rectangles stored into output window 5's block tile it, so every index of the block lies in one. -/
theorem cover0_5 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) (y : S1x16x512x64.Idx) :
    ∃ pc ∈ (kernelRun0 c i arg2 harg2 arg3 harg3 arg4 harg4 arg5 harg5 arg6 harg6 arg7 harg7 arg8 harg8 arg9 harg9 x0 x1 x2 x3 x4).1, y ∈ pc.1.set :=
  View.cover_of_tiledL (kernelRun0 c i arg2 harg2 arg3 harg3 arg4 harg4 arg5 harg5 arg6 harg6 arg7 harg7 arg8 harg8 arg9 harg9 x0 x1 x2 x3 x4).1 S1x1x512x64.size (by sl_kernel_rfl) y

omit V in
/-- What the body leaves in output window 5's block: its stored rectangles read back. -/
def out0_5 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) : Vec F S1x16x512x64 .bf16 :=
  VO0_5.read (Elt F) (VO0_5.writes (Elt F) VO0_5.junk (kernelRun0 c i arg2 harg2 arg3 harg3 arg4 harg4 arg5 harg5 arg6 harg6 arg7 harg7 arg8 harg8 arg9 harg9 x0 x1 x2 x3 x4).1)

/-- One staging buffer of output window 6, through which its contents are stated. -/
abbrev VO0_6 : View sig .tc .vmem S1x16x512x64 .bf16 := (Memref.whole cc0_stg6_0 : Memref sig .tc .vmem S1x16x512x64 .bf16).view

omit V in
/-- The rectangles stored into output window 6's block tile it, so every index of the block lies in one. -/
theorem cover0_6 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) (y : S1x16x512x64.Idx) :
    ∃ pc ∈ (kernelRun0 c i arg2 harg2 arg3 harg3 arg4 harg4 arg5 harg5 arg6 harg6 arg7 harg7 arg8 harg8 arg9 harg9 x0 x1 x2 x3 x4).2.1, y ∈ pc.1.set :=
  View.cover_of_tiledL (kernelRun0 c i arg2 harg2 arg3 harg3 arg4 harg4 arg5 harg5 arg6 harg6 arg7 harg7 arg8 harg8 arg9 harg9 x0 x1 x2 x3 x4).2.1 S1x1x512x64.size (by sl_kernel_rfl) y

omit V in
/-- What the body leaves in output window 6's block: its stored rectangles read back. -/
def out0_6 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) : Vec F S1x16x512x64 .bf16 :=
  VO0_6.read (Elt F) (VO0_6.writes (Elt F) VO0_6.junk (kernelRun0 c i arg2 harg2 arg3 harg3 arg4 harg4 arg5 harg5 arg6 harg6 arg7 harg7 arg8 harg8 arg9 harg9 x0 x1 x2 x3 x4).2.1)

/-- One staging buffer of output window 7, through which its contents are stated. -/
abbrev VO0_7 : View sig .tc .vmem S1x16x512x64 .bf16 := (Memref.whole cc0_stg7_0 : Memref sig .tc .vmem S1x16x512x64 .bf16).view

omit V in
/-- The rectangles stored into output window 7's block tile it, so every index of the block lies in one. -/
theorem cover0_7 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) (y : S1x16x512x64.Idx) :
    ∃ pc ∈ (kernelRun0 c i arg2 harg2 arg3 harg3 arg4 harg4 arg5 harg5 arg6 harg6 arg7 harg7 arg8 harg8 arg9 harg9 x0 x1 x2 x3 x4).2.2.1, y ∈ pc.1.set :=
  View.cover_of_tiledL (kernelRun0 c i arg2 harg2 arg3 harg3 arg4 harg4 arg5 harg5 arg6 harg6 arg7 harg7 arg8 harg8 arg9 harg9 x0 x1 x2 x3 x4).2.2.1 S1x1x512x64.size (by sl_kernel_rfl) y

omit V in
/-- What the body leaves in output window 7's block: its stored rectangles read back. -/
def out0_7 (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec F S1x512x1024 .f32) (x1 : Vec F S3072x1024 .bf16) (x2 : Vec F S1x3072 .f32) (x3 : Vec F S512x32 .f32) (x4 : Vec F S512x32 .f32) : Vec F S1x16x512x64 .bf16 :=
  VO0_7.read (Elt F) (VO0_7.writes (Elt F) VO0_7.junk (kernelRun0 c i arg2 harg2 arg3 harg3 arg4 harg4 arg5 harg5 arg6 harg6 arg7 harg7 arg8 harg8 arg9 harg9 x0 x1 x2 x3 x4).2.2.1)

/-- The pipeline's proof data on core `c`: the arrays as the region finds them; after the body at point `t` each input
    buffer at its block and each output buffer at what the body stores from the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 2000000 in
/-- The body at any point: the input buffers hold their blocks, so the body's run applies; each output buffer ends at
    its stored rectangles read back, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold out0_5 out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _)
  isplitl [H6]
  · unfold owns; iexists _; isplitr
    swap; · iexact H6
    ipureintro; exact View.read_writes_of_cover _ _ _ _ _ (cover0_6 c _ _ _ _ _ _ _ _ _ _ _ _ _ _ _ _ _ _ _ _ _ _)
  unfold owns; iexists _; isplitr
  swap; · iexact H7
  ipureintro; exact View.read_writes_of_cover _ _ _ _ _ (cover0_7 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.IdealAttnRun.lean ====
/-
  The attention-and-projection body (the second pallas_call) on whole blocks. It reads six blocks — the queries,
  keys and values of the sixteen heads, the additive mask's rows, the output weights and the bias — and leaves
  them as they were; whatever the output block held, it ends overwritten by one stored rectangle, the whole
  block: the sixteen heads' normalised products laid side by side, multiplied by the output weights, plus the bias.
-/
import proofs.«400326_j61744449847642_3_alg».proof.Proof.Gen.KernelIdeal.Launch
import proofs.«400326_j61744449847642_3_alg».proof.Proof.Gen.KernelIdeal.Skeleton
import proofs.«400326_j61744449847642_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The rectangles the body stores into the output block, last first, together with: from whole buffers holding the
    six input blocks, the body terminates without a fault, the input blocks unchanged and the output block
    overwritten by exactly those rectangles. -/
noncomputable def kernelRun1 (c : Dev nD) (i : grid1.Coords)
    (arg2 : Memref sig .tc .vmem S1x16x256x64 .bf16) (harg2 : arg2.IsWhole)
    (arg3 : Memref sig .tc .vmem S1x16x2048x64 .bf16) (harg3 : arg3.IsWhole)
    (arg4 : Memref sig .tc .vmem S1x16x2048x64 .bf16) (harg4 : arg4.IsWhole)
    (arg5 : Memref sig .tc .vmem S256x2048 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x256x1024 .f32) (harg8 : arg8.IsWhole)
    (x0 : Vec F S1x16x256x64 .bf16) (x1 : Vec F S1x16x2048x64 .bf16) (x2 : Vec F S1x16x2048x64 .bf16)
    (x3 : Vec F S256x2048 .f32) (x4 : Vec F S1024x1024 .bf16) (x5 : Vec F S1x1024 .f32) :
    { L6 : List (View.Piece (Elt F) S1x256x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)) -∗ K ⟨⟩))
          ⊢ wp frame (wpE (defs₀ (F := F)) Variants.none c none) E
              (cc1__attn_wo_kernel i arg2 harg2 arg3 harg3 arg4 harg4 arg5 harg5 arg6 harg6 arg7 harg7 arg8 harg8) K } := by
  refine ⟨?_, fun E K => ?run⟩
  case run =>
    simp only [cc1__attn_wo_kernel_eq_skeleton]; unfold cc1__attn_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Frm

end
-- ==== Proof.IdealAttnData.lean ====
/-
  The second pallas_call (attention and output projection) as a pipeline: what each window's block is at a grid
  point, that every input buffer holds its block whenever the body runs, and that the body at any point takes these
  to the same input blocks and the output block at its stored rectangle.
-/
import proofs.«400326_j61744449847642_3_alg».proof.Proof.IdealAttnRun
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, whether fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, whether fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, whether fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, whether fetched there or kept from the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, whether fetched there or kept from the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, and that it is a whole buffer. -/
abbrev ms1_0 (t : Fin cfg1.N) : Memref sig .tc .vmem S1x16x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)

/-- One staging buffer of output window 6, through which its contents are stated. -/
abbrev VO1_6 : View sig .tc .vmem S1x256x1024 .f32 := (Memref.whole cc1_stg6_0 : Memref sig .tc .vmem S1x256x1024 .f32).view

omit V in
/-- The rectangles stored into output window 6's block tile it, so every index of the block lies in one. -/
theorem cover1_6 (c : Dev nD) (i : grid1.Coords) (arg2 : Memref sig .tc .vmem S1x16x256x64 .bf16) (harg2 : arg2.IsWhole) (arg3 : Memref sig .tc .vmem S1x16x2048x64 .bf16) (harg3 : arg3.IsWhole) (arg4 : Memref sig .tc .vmem S1x16x2048x64 .bf16) (harg4 : arg4.IsWhole) (arg5 : Memref sig .tc .vmem S256x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole)
    (x0 : Vec F S1x16x256x64 .bf16) (x1 : Vec F S1x16x2048x64 .bf16) (x2 : Vec F S1x16x2048x64 .bf16) (x3 : Vec F S256x2048 .f32) (x4 : Vec F S1024x1024 .bf16) (x5 : Vec F S1x1024 .f32) (y : S1x256x1024.Idx) :
    ∃ pc ∈ (kernelRun1 c i arg2 harg2 arg3 harg3 arg4 harg4 arg5 harg5 arg6 harg6 arg7 harg7 arg8 harg8 x0 x1 x2 x3 x4 x5).1, y ∈ pc.1.set :=
  View.cover_of_tiledL (kernelRun1 c i arg2 harg2 arg3 harg3 arg4 harg4 arg5 harg5 arg6 harg6 arg7 harg7 arg8 harg8 x0 x1 x2 x3 x4 x5).1 S1x256x1024.size (by sl_kernel_rfl) y

omit V in
/-- What the body leaves in output window 6's block: its stored rectangles read back. -/
def out1_6 (c : Dev nD) (i : grid1.Coords) (arg2 : Memref sig .tc .vmem S1x16x256x64 .bf16) (harg2 : arg2.IsWhole) (arg3 : Memref sig .tc .vmem S1x16x2048x64 .bf16) (harg3 : arg3.IsWhole) (arg4 : Memref sig .tc .vmem S1x16x2048x64 .bf16) (harg4 : arg4.IsWhole) (arg5 : Memref sig .tc .vmem S256x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole)
    (x0 : Vec F S1x16x256x64 .bf16) (x1 : Vec F S1x16x2048x64 .bf16) (x2 : Vec F S1x16x2048x64 .bf16) (x3 : Vec F S256x2048 .f32) (x4 : Vec F S1024x1024 .bf16) (x5 : Vec F S1x1024 .f32) : Vec F S1x256x1024 .f32 :=
  VO1_6.read (Elt F) (VO1_6.writes (Elt F) VO1_6.junk (kernelRun1 c i arg2 harg2 arg3 harg3 arg4 harg4 arg5 harg5 arg6 harg6 arg7 harg7 arg8 harg8 x0 x1 x2 x3 x4 x5).1)

/-- The pipeline's proof data on core `c`: the arrays as the region finds them; after the body at point `t` each input
    buffer at its block and each output buffer at what the body stores from the point's input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 2000000 in
/-- The body at any point: the input buffers hold their blocks, so the body's run applies; each output buffer ends at
    its stored rectangles read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.IdealMainRun.lean ====
/-
  The whole run of @main: six host operations, then the two pallas_calls. The unscoped buffers' contents are followed
  from the launch memory through the host operations and through what each pipeline leaves in its arrays; every
  weakly fair execution terminates without a fault with every unscoped buffer at the last of these contents. The twelve
  arguments are written by nothing on the way, so they end as launched, and the result buffer ends at what the second
  pipeline's write-backs leave.
-/
import proofs.«400326_j61744449847642_3_alg».proof.Proof.IdealQkvData
import proofs.«400326_j61744449847642_3_alg».proof.Proof.IdealAttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the six host operations (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second pallas_call, which is entered from the first one's exit contents. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no host operation writes one, and a pipeline only reads it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 3).trans (((dat0 (V1 m ρ) c).arrAt_in 3 rfl _).trans (A_eq0 (V1 m ρ) c 3))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 4).trans (((dat0 (V1 m ρ) c).arrAt_in 4 rfl _).trans (A_eq0 (V1 m ρ) c 4))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 3).trans (((dat1 (V2 m ρ) c).arrAt_in 3 rfl _).trans (A_eq1 (V2 m ρ) c 3))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl

/-! ## The proof data family and the thread state -/

abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m ρ c) ∗ ∃ r, prngReg c r)

/-! ## The pallas_calls as segments -/

set_option backward.isDefEq.respectTransparency.types false in
/-- Pallas_call 0 as a segment of the run: entered with every unscoped buffer at the contents before it, left with them
    at the contents after it. Its windows' arrays are split out of the unscoped buffers and put back at what the
    pipeline leaves; the generator register rides through the region's invariant; the core owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of the run: entered with every unscoped buffer at the contents before it, left with them
    at the contents after it. Its windows' arrays are split out of the unscoped buffers and put back at what the
    pipeline leaves; the generator register rides through the region's invariant; the core owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of @main terminates without a fault, and in every
    final memory each unscoped buffer holds the final contents `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c)⟩) (run_all m ρ)

/-- The result buffer ends at what the second pipeline's write-backs leave in its output array. -/
theorem result_eq : θ_run defs (onTc (τ := τ) (main (F := F))) ⟨m, fun _ => 0, ρ⟩ (fun r => ∀ c : Dev nD,
      r.2.mem ((c.tc : Thread nD τ).loc main_v7) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v7 (by decide))).trans (W3_arr m ρ c 6),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c)⟩) (run_all m ρ)

end Cert.KernelIdeal.Frm

end
-- ==== Proof.Spec.lean ====
/-
  What the two programs compute, index by index, over the extended reals.

  Inputs: x[2, 2048, 1024]; the rows' cosines and sines, [2048, 32] each; an additive mask [2048, 2048]; four
  weight matrices [1024, 1024] with their biases [1024]. Sixteen heads of width 64 cut the 1024 columns.

  A projection of row (b, s) against a weight matrix is y n = Σ_d x[b, s, d] · W[n, d] + bias n. Within a head its
  64 entries are rotated in two halves: for j < 32, lo j = y₁·cos − y₂·sin and hi j = y₁·sin + y₂·cos, where y₁, y₂
  are the entries j and 32 + j of the head. The score of query row s against key row t is
  (Σ_d q[s, d] · k[t, d]) · (1/8) + mask[s, t]; e t = exp (score t − max score) and l = Σ_t e t.
  The head's output is stated in the two forms the two programs use: (Σ_t e t · v[t, j]) / l, and Σ_t (e t / l) · v[t, j].
  The result is Σ_d o[b, s, d] · Wo[n, d] + bo n, with o the heads' outputs side by side.
-/
import Idealize.ShloMosaic.PureOps.Ideal
import Idealize.ShloMosaic.Lib.ValueIdx

noncomputable section

namespace Cert.Spec

open Idealize.ShloMosaic Idealize.ShloMosaic.ValueIdx

/-- Arrays of extended reals over literal shapes. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal
abbrev A4 (a b c d : Nat) : Type := (⟨4, ![a, b, c, d]⟩ : Shape).Idx → EReal

/-- Column `h · 64 + j` of the 1024: lane `j` of head `h`. -/
def col (h : Fin 16) (j : Fin 64) : Fin 1024 := ⟨h.val * 64 + j.val, by omega⟩
/-- The head a column lies in, and its lane there. -/
def headOf (d : Fin 1024) : Fin 16 := ⟨d.val / 64, by omega⟩
def laneOf (d : Fin 1024) : Fin 64 := ⟨d.val % 64, by omega⟩
/-- The two halves of a head's 64 lanes. -/
def lo (j : Fin 32) : Fin 64 := ⟨j.val, by omega⟩
def hi (j : Fin 32) : Fin 64 := ⟨32 + j.val, by omega⟩

/-- The scale 1/8 and the maximum's starting value −∞, as the words both programs print. -/
def scale : EReal := Ideal.ofBits .f32 0x3E000000#32
def negInf : EReal := Ideal.ofBits .f32 0xFF800000#32

/-- A linear projection of row `(b, s)` at column `n`. -/
def proj (x : A3 2 2048 1024) (W : A2 1024 1024) (bias : A1 1024) (b : Fin 2) (s : Fin 2048) (n : Fin 1024) : EReal :=
  (∑ d : Fin 1024, x (ix3 b s d) * W (ix2 n d)) + bias (ix1 n)

/-- The rotation of a head's 64 entries `y` by the row's cosines and sines. -/
def rot (y : Fin 64 → EReal) (cs sn : Fin 32 → EReal) (j : Fin 64) : EReal :=
  if h : j.val < 32 then y (lo ⟨j.val, h⟩) * cs ⟨j.val, h⟩ - y (hi ⟨j.val, h⟩) * sn ⟨j.val, h⟩
  else y (lo ⟨j.val - 32, by omega⟩) * sn ⟨j.val - 32, by omega⟩ + y (hi ⟨j.val - 32, by omega⟩) * cs ⟨j.val - 32, by omega⟩

/-- Rotated projection (queries, keys) and plain projection (values), laid out [2, 16, 2048, 64]. -/
def rotProj (x : A3 2 2048 1024) (cos sin : A2 2048 32) (W : A2 1024 1024) (bias : A1 1024) : A4 2 16 2048 64 :=
  fun i => rot (fun j => proj x W bias (i 0) (i 2) (col (i 1) j)) (fun j => cos (ix2 (i 2) j)) (fun j => sin (ix2 (i 2) j)) (i 3)
def plainProj (x : A3 2 2048 1024) (W : A2 1024 1024) (bias : A1 1024) : A4 2 16 2048 64 :=
  fun i => proj x W bias (i 0) (i 2) (col (i 1) (i 3))

/-- The score of query row `s` against key row `t` in head `(b, h)`. -/
def score (q k : A4 2 16 2048 64) (mask : A2 2048 2048) (b : Fin 2) (h : Fin 16) (s t : Fin 2048) : EReal :=
  (∑ d : Fin 64, q (ix4 b h s d) * k (ix4 b h t d)) * scale + mask (ix2 s t)

/-- A row's maximum from −∞, its exponentials over the maximum, and their sum. -/
def rowMax (f : Fin 2048 → EReal) : EReal := (Finset.univ : Finset (Fin 2048)).fold max negInf f
def expo (f : Fin 2048 → EReal) (t : Fin 2048) : EReal := Ideal.exp (f t - rowMax f)
def denom (f : Fin 2048 → EReal) : EReal := ∑ t : Fin 2048, expo f t

/-- A head's output at row `s`, lane `j`: the weighted sum divided by the normaliser … -/
def headSumThenDiv (q k v : A4 2 16 2048 64) (mask : A2 2048 2048) (b : Fin 2) (h : Fin 16) (s : Fin 2048) (j : Fin 64) : EReal :=
  Ideal.div (∑ t : Fin 2048, expo (score q k mask b h s) t * v (ix4 b h t j)) (denom (score q k mask b h s))
/-- … and the sum of the normalised weights' products. -/
def headDivThenSum (q k v : A4 2 16 2048 64) (mask : A2 2048 2048) (b : Fin 2) (h : Fin 16) (s : Fin 2048) (j : Fin 64) : EReal :=
  ∑ t : Fin 2048, Ideal.div (expo (score q k mask b h s) t) (denom (score q k mask b h s)) * v (ix4 b h t j)

/-- The output projection of the heads' outputs laid side by side. -/
def outProj (head : Fin 2 → Fin 16 → Fin 2048 → Fin 64 → EReal) (Wo : A2 1024 1024) (bo : A1 1024) : A3 2 2048 1024 :=
  fun i => (∑ d : Fin 1024, head (i 0) (headOf d) (i 1) (laneOf d) * Wo (ix2 (i 2) d)) + bo (ix1 (i 2))

/-- The whole function, in the form the kernel computes … -/
def resultSumThenDiv (x : A3 2 2048 1024) (cos sin : A2 2048 32) (mask : A2 2048 2048)
    (Wq : A2 1024 1024) (bq : A1 1024) (Wk : A2 1024 1024) (bk : A1 1024) (Wv : A2 1024 1024) (bv : A1 1024)
    (Wo : A2 1024 1024) (bo : A1 1024) : A3 2 2048 1024 :=
  outProj (headSumThenDiv (rotProj x cos sin Wq bq) (rotProj x cos sin Wk bk) (plainProj x Wv bv) mask) Wo bo
/-- … and in the form the reference computes. -/
def resultDivThenSum (x : A3 2 2048 1024) (cos sin : A2 2048 32) (mask : A2 2048 2048)
    (Wq : A2 1024 1024) (bq : A1 1024) (Wk : A2 1024 1024) (bk : A1 1024) (Wv : A2 1024 1024) (bv : A1 1024)
    (Wo : A2 1024 1024) (bo : A1 1024) : A3 2 2048 1024 :=
  outProj (headDivThenSum (rotProj x cos sin Wq bq) (rotProj x cos sin Wk bk) (plainProj x Wv bv) mask) Wo bo

/-! ## The same quantities in the shapes the kernel passes through

The first pallas_call works against the three weight matrices stacked [3072, 1024] and the three biases stacked
[1, 3072]; each grid point sees a block of rows. The second sees 256 query rows of one batch entry against all keys. -/

/-- The three weight matrices stacked along their rows; the three biases stacked as one row; a bias as one row. -/
def stackW (Wq Wk Wv : A2 1024 1024) : A2 3072 1024 := fun i =>
  if h : (i 0).val < 1024 then Wq (ix2 ⟨(i 0).val, h⟩ (i 1))
  else if h2 : (i 0).val < 2048 then Wk (ix2 ⟨(i 0).val - 1024, by omega⟩ (i 1))
  else Wv (ix2 ⟨(i 0).val - 2048, by have : (i 0).val < 3072 := (i 0).isLt; omega⟩ (i 1))
def stackB (bq bk bv : A1 1024) : A2 1 3072 := fun i =>
  if h : (i 1).val < 1024 then bq (ix1 ⟨(i 1).val, h⟩)
  else if h2 : (i 1).val < 2048 then bk (ix1 ⟨(i 1).val - 1024, by omega⟩)
  else bv (ix1 ⟨(i 1).val - 2048, by have : (i 1).val < 3072 := (i 1).isLt; omega⟩)
def rowOf (bo : A1 1024) : A2 1 1024 := fun i => bo (ix1 (i 1))

/-- Column `part · 1024 + h · 64 + j` of the 3072: lane `j` of head `h` in the queries' (0), keys' (1) or values' (2) third. -/
def col3 (part : Fin 3) (h : Fin 16) (j : Fin 64) : Fin 3072 := ⟨part.val * 1024 + h.val * 64 + j.val, by omega⟩

/-- A projection against the stacked weights, over the whole arrays … -/
def proj3 (x : A3 2 2048 1024) (W : A2 3072 1024) (bias : A2 1 3072) (b : Fin 2) (s : Fin 2048) (n : Fin 3072) : EReal :=
  (∑ d : Fin 1024, x (ix3 b s d) * W (ix2 n d)) + bias (ix2 0 n)
def rotProj3 (x : A3 2 2048 1024) (cos sin : A2 2048 32) (W : A2 3072 1024) (bias : A2 1 3072) (part : Fin 3) : A4 2 16 2048 64 :=
  fun i => rot (fun j => proj3 x W bias (i 0) (i 2) (col3 part (i 1) j)) (fun j => cos (ix2 (i 2) j)) (fun j => sin (ix2 (i 2) j)) (i 3)
def plainProj3 (x : A3 2 2048 1024) (W : A2 3072 1024) (bias : A2 1 3072) (part : Fin 3) : A4 2 16 2048 64 :=
  fun i => proj3 x W bias (i 0) (i 2) (col3 part (i 1) (i 3))

/-- … and over one block of 512 rows. -/
def projBlk (x : A3 1 512 1024) (W : A2 3072 1024) (bias : A2 1 3072) (r : Fin 512) (n : Fin 3072) : EReal :=
  (∑ d : Fin 1024, x (ix3 0 r d) * W (ix2 n d)) + bias (ix2 0 n)
def rotBlk (x : A3 1 512 1024) (W : A2 3072 1024) (bias : A2 1 3072) (cs sn : A2 512 32) (part : Fin 3) : A4 1 16 512 64 :=
  fun y => rot (fun j => projBlk x W bias (y 2) (col3 part (y 1) j)) (fun j => cs (ix2 (y 2) j)) (fun j => sn (ix2 (y 2) j)) (y 3)
def plainBlk (x : A3 1 512 1024) (W : A2 3072 1024) (bias : A2 1 3072) (part : Fin 3) : A4 1 16 512 64 :=
  fun y => projBlk x W bias (y 2) (col3 part (y 1) (y 3))

/-- The attention of 256 query rows of one batch entry, head by head, then the output projection: over one block … -/
def scoreBlk (xq : A4 1 16 256 64) (xk : A4 1 16 2048 64) (xm : A2 256 2048) (h : Fin 16) (r : Fin 256) (t : Fin 2048) : EReal :=
  (∑ d : Fin 64, xq (ix4 0 h r d) * xk (ix4 0 h t d)) * scale + xm (ix2 r t)
def headBlk (xq : A4 1 16 256 64) (xk xv : A4 1 16 2048 64) (xm : A2 256 2048) (h : Fin 16) (r : Fin 256) (j : Fin 64) : EReal :=
  Ideal.div (∑ t : Fin 2048, expo (scoreBlk xq xk xm h r) t * xv (ix4 0 h t j)) (denom (scoreBlk xq xk xm h r))
def attnBlk (xq : A4 1 16 256 64) (xk xv : A4 1 16 2048 64) (xm : A2 256 2048) (xw : A2 1024 1024) (xb : A2 1 1024) : A3 1 256 1024 :=
  fun y => (∑ d : Fin 1024, headBlk xq xk xv xm (headOf d) (y 1) (laneOf d) * xw (ix2 (y 2) d)) + xb (ix2 0 (y 2))

/-- … and over the whole arrays. -/
def attnArr (q k v : A4 2 16 2048 64) (mask : A2 2048 2048) (wo : A2 1024 1024) (bo : A2 1 1024) : A3 2 2048 1024 :=
  fun i => (∑ d : Fin 1024, headSumThenDiv q k v mask (i 0) (headOf d) (i 1) (laneOf d) * wo (ix2 (i 2) d)) + bo (ix2 0 (i 2))

/-- An extended real that is a real number. -/
def IsFin (a : EReal) : Prop := a ≠ ⊥ ∧ a ≠ ⊤

end Cert.Spec

end
-- ==== Proof.QkvBlock.lean ====
/-
  What the first pallas_call's body stores into its three output blocks, as functions of its five input blocks at the
  ideal values: the rotated queries, the rotated keys and the values of the block's 512 rows, head by head.
-/
import proofs.«400326_j61744449847642_3_alg».proof.Proof.IdealQkvData
import proofs.«400326_j61744449847642_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.Val

open Idealize.ShloMosaic Idealize.ShloMosaic.TcCoe Idealize.ShloMosaic.ValueIdx Idealize.SL.Sem
open Cert.Spec
open Idealize.ShloMosaic.Pipeline (Dat)
open Cert.KernelIdeal Cert.KernelIdeal.Gen Cert.KernelIdeal.Frm

namespace QkvBlock

/-! ## The projection: one row of the block against one row of the stacked weights -/

theorem lhs_qkv_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_qkv_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_qkv_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_qkv_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The product into a zero accumulator at row `r`, column `n`: the sum over the 1024 shared coordinates. -/
theorem qkv_matmul_apply (a : FVec Ideal S512x1024 .bf16) (w : FVec Ideal S3072x1024 .bf16) (r : Fin 512) (n : Fin 3072) :
    matmul dot_S512x1024_S3072x1024_S512x3072_1_1_0_0_n_n none a w (constant (F := Ideal) S512x3072 .f32 0x00000000#32) (ix2 r n)
      = ∑ d : Fin 1024, a (ix2 r d) * w (ix2 n d) := by
  simp only [matmul]
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 r n) ((ValueIdx.contrEquiv1 dot_S512x1024_S3072x1024_S512x3072_1_1_0_0_n_n 1024 rfl rfl).symm k) = ix2 r k := funext fun a => Fin.ext (by
    match a with
    | ⟨0, _⟩ => exact lhs_qkv_0 _ _
    | ⟨1, _⟩ => exact (lhs_qkv_1 _ _).trans hk)
  have er : dot_S512x1024_S3072x1024_S512x3072_1_1_0_0_n_n.rhsIdx (ix2 r n) ((ValueIdx.contrEquiv1 dot_S512x1024_S3072x1024_S512x3072_1_1_0_0_n_n 1024 rfl rfl).symm k) = ix2 n k := funext fun a => Fin.ext (by
    match a with
    | ⟨0, _⟩ => exact rhs_qkv_0 _ _
    | ⟨1, _⟩ => exact (rhs_qkv_1 _ _).trans hk)
  rw [el, er]

/-- The whole projection of the block's 512 rows against the stacked weights, bias added, at row `r`, column `n`. -/
theorem proj_apply (x0 : Vec Ideal S1x512x1024 .f32) (x1 : Vec Ideal S3072x1024 .bf16) (x2 : Vec Ideal S1x3072 .f32)
    (r : Fin 512) (n : Fin 3072) :
    k0_pay3 (F := Ideal) x0 x1 x2 (ix2 r n) = projBlk x0 x1 x2 r n := by
  unfold k0_pay3 projBlk
  refine (addf_apply _ _ _).trans ?_
  refine congrArg₂ (· + ·) ?_ ?_
  · refine (qkv_matmul_apply _ _ r n).trans ?_
    refine Finset.sum_congr rfl fun d _ => ?_
    refine congrArg₂ (· * ·) ?_ ?_
    · refine (truncf_apply (ψ := .bf16) _ bitsLt_bf16_f32 _).trans ?_
      exact shapeCast_apply _ _ _ (ix3 0 r d) (by
        rw [Shape.rowMajor_val_three, Shape.rowMajor_val_two]
        show (0 * 512 + r.val) * 1024 + d.val = r.val * 1024 + d.val
        omega)
    · exact congrFun (shapeCast_self _ _) _
  · refine (broadcastTo_apply _ _ _ (ix2 0 n) (fun a => match a with
      | ⟨0, _⟩ => by show 0 = if (1 : Nat) = 1 then 0 else r.val; rw [if_pos rfl]
      | ⟨1, _⟩ => by show n.val = if (3072 : Nat) = 1 then 0 else n.val; rw [if_neg (by decide)])).trans ?_
    exact congrFun (shapeCast_self _ _) _

/-! ## One head's 64 columns of the projection: rotated (queries, keys) or as they are (values)

Each is a function of the whole projection [512, 3072], the head's first column, and (for the rotation) the rows'
cosines and sines, stated for any number format; every stored rectangle's value is one of the two. -/

section Heads
variable {F : FTy → Type} [FloatOps F]

/-- Columns `off 1 … off 1 + 63` of the projection `y`, rotated in two halves by the rows' cosines and sines. -/
def rotHead (y : FVec F S512x3072 .f32) (off : Fin 2 → Nat) (hs : S512x3072.Slices off S512x64)
    (cs sn : Vec F S512x32 .f32) : FVec F S1x1x512x64 .bf16 :=
  shapeCast S1x1x512x64
    (truncf .bf16
      (concatenate S512x64 1
        [⟨S512x32, subf
            (mulf (extractStridedSlice S512x32 ![0, 0] (extractStridedSlice S512x64 off y hs) slices_S512x64_o0_0_S512x32) cs)
            (mulf (extractStridedSlice S512x32 ![0, 32] (extractStridedSlice S512x64 off y hs) slices_S512x64_o0_32_S512x32) sn)⟩,
         ⟨S512x32, addf
            (mulf (extractStridedSlice S512x32 ![0, 0] (extractStridedSlice S512x64 off y hs) slices_S512x64_o0_0_S512x32) sn)
            (mulf (extractStridedSlice S512x32 ![0, 32] (extractStridedSlice S512x64 off y hs) slices_S512x64_o0_32_S512x32) cs)⟩]
        concatenates_S512x32_S512x32_S512x64_d1)
      bitsLt_bf16_f32)
    shapeCasts_S512x64_S1x1x512x64

/-- Columns `off 1 … off 1 + 63` of the projection `y`, as they are. -/
def plainHead (y : FVec F S512x3072 .f32) (off : Fin 2 → Nat) (hs : S512x3072.Slices off S512x64) :
    FVec F S1x1x512x64 .bf16 :=
  shapeCast S1x1x512x64 (truncf .bf16 (extractStridedSlice S512x64 off y hs) bitsLt_bf16_f32) shapeCasts_S512x64_S1x1x512x64

end Heads

/-- A half (lanes `d … d + 31`) of a head's columns (`c … c + 63`) of the projection, at row `r`, lane `j`. -/
theorem slice2_apply (y : FVec Ideal S512x3072 .f32) (off : Fin 2 → Nat) (hs : S512x3072.Slices off S512x64)
    (o2 : Fin 2 → Nat) (hs2 : S512x64.Slices o2 S512x32) (c d : Nat) (ho0 : off 0 = 0) (ho1 : off 1 = c)
    (h20 : o2 0 = 0) (h21 : o2 1 = d) (hd : d + 32 ≤ 64) (hc : c + 64 ≤ 3072) (r : Fin 512) (j : Fin 32) :
    extractStridedSlice S512x32 o2 (extractStridedSlice S512x64 off y hs) hs2 (ix2 r j)
      = y (ix2 r ⟨c + (d + j.val), by omega⟩) := by
  refine (extractStridedSlice_apply o2 _ hs2 (ix2 r j) (ix2 r ⟨d + j.val, by omega⟩) (fun a => match a with
    | ⟨0, _⟩ => by show r.val = o2 0 + r.val; omega
    | ⟨1, _⟩ => by show d + j.val = o2 1 + j.val; omega)).trans ?_
  exact extractStridedSlice_apply off y hs (ix2 r ⟨d + j.val, by omega⟩) (ix2 r ⟨c + (d + j.val), by omega⟩) (fun a => match a with
    | ⟨0, _⟩ => by show r.val = off 0 + r.val; omega
    | ⟨1, _⟩ => by show c + (d + j.val) = off 1 + (d + j.val); omega)

/-- The rotated head at row `r`, lane `j`: the rotation of the head's 64 entries of the projection's row. -/
theorem rotHead_apply (y : FVec Ideal S512x3072 .f32) (off : Fin 2 → Nat) (hs : S512x3072.Slices off S512x64)
    (cs sn : FVec Ideal S512x32 .f32) (c : Nat) (ho0 : off 0 = 0) (ho1 : off 1 = c) (hc : c + 64 ≤ 3072)
    (r : Fin 512) (j : Fin 64) :
    rotHead y off hs cs sn (ix4 0 0 r j)
      = rot (fun j' => y (ix2 r ⟨c + j'.val, by have := j'.isLt; omega⟩)) (fun j' => cs (ix2 r j')) (fun j' => sn (ix2 r j')) j := by
  unfold rotHead
  refine (shapeCast_apply _ _ (ix4 0 0 r j) (ix2 r j) (by
      rw [Shape.rowMajor_val_two, Shape.rowMajor_val_four]
      show r.val * 64 + j.val = ((0 * 1 + 0) * 512 + r.val) * 64 + j.val
      omega)).trans ?_
  refine (truncf_apply (ψ := .bf16) _ bitsLt_bf16_f32 _).trans ?_
  unfold rot
  by_cases hj : j.val < 32
  · rw [dif_pos hj]
    refine (concatenate_pair_apply_left (1 : Fin S512x64.rank) _ _ concatenates_S512x32_S512x32_S512x64_d1 (ix2 r j) rfl
      (ix2 r ⟨j.val, hj⟩) (fun b => match b with | ⟨0, _⟩ => rfl | ⟨1, _⟩ => rfl)).trans ?_
    refine (subf_apply _ _ _).trans ?_
    refine congrArg₂ (· - ·) ?_ ?_
    · refine (mulf_apply _ _ _).trans ?_
      refine congrArg₂ (· * ·) ?_ rfl
      refine (slice2_apply y off hs _ _ c 0 ho0 ho1 rfl rfl (by omega) hc r ⟨j.val, hj⟩).trans ?_
      exact congrArg y (congrArg (ix2 r) (Fin.ext (by show c + (0 + j.val) = c + j.val; omega)))
    · refine (mulf_apply _ _ _).trans ?_
      refine congrArg₂ (· * ·) ?_ rfl
      refine (slice2_apply y off hs _ _ c 32 ho0 ho1 rfl rfl (by omega) hc r ⟨j.val, hj⟩).trans ?_
      exact congrArg y (congrArg (ix2 r) (Fin.ext (by show c + (32 + j.val) = c + (32 + j.val); rfl)))
  · rw [dif_neg hj]
    have hj64 : j.val < 64 := j.isLt
    refine (concatenate_pair_apply_right (1 : Fin S512x64.rank) _ _ concatenates_S512x32_S512x32_S512x64_d1 (ix2 r j) rfl rfl
      (ix2 r ⟨j.val - 32, by omega⟩)
      (fun b => match b with | ⟨0, _⟩ => fun _ => rfl | ⟨1, _⟩ => fun hne => absurd (Fin.ext rfl) hne)
      (by show (j.val - 32) + 32 = j.val; omega)).trans ?_
    refine (addf_apply _ _ _).trans ?_
    refine congrArg₂ (· + ·) ?_ ?_
    · refine (mulf_apply _ _ _).trans ?_
      refine congrArg₂ (· * ·) ?_ rfl
      refine (slice2_apply y off hs _ _ c 0 ho0 ho1 rfl rfl (by omega) hc r ⟨j.val - 32, by omega⟩).trans ?_
      exact congrArg y (congrArg (ix2 r) (Fin.ext (by show c + (0 + (j.val - 32)) = c + (j.val - 32); omega)))
    · refine (mulf_apply _ _ _).trans ?_
      refine congrArg₂ (· * ·) ?_ rfl
      refine (slice2_apply y off hs _ _ c 32 ho0 ho1 rfl rfl (by omega) hc r ⟨j.val - 32, by omega⟩).trans ?_
      exact congrArg y (congrArg (ix2 r) (Fin.ext (by show c + (32 + (j.val - 32)) = c + (32 + (j.val - 32)); rfl)))

/-- The plain head at row `r`, lane `j`: the projection's row at the head's column. -/
theorem plainHead_apply (y : FVec Ideal S512x3072 .f32) (off : Fin 2 → Nat) (hs : S512x3072.Slices off S512x64)
    (c : Nat) (ho0 : off 0 = 0) (ho1 : off 1 = c) (hc : c + 64 ≤ 3072) (r : Fin 512) (j : Fin 64) :
    plainHead y off hs (ix4 0 0 r j) = y (ix2 r ⟨c + j.val, by have := j.isLt; omega⟩) := by
  unfold plainHead
  refine (shapeCast_apply _ _ (ix4 0 0 r j) (ix2 r j) (by
      rw [Shape.rowMajor_val_two, Shape.rowMajor_val_four]
      show r.val * 64 + j.val = ((0 * 1 + 0) * 512 + r.val) * 64 + j.val
      omega)).trans ?_
  refine (truncf_apply (ψ := .bf16) _ bitsLt_bf16_f32 _).trans ?_
  exact extractStridedSlice_apply off y hs (ix2 r j) (ix2 r ⟨c + j.val, by have := j.isLt; omega⟩) (fun a => match a with
    | ⟨0, _⟩ => by show r.val = off 0 + r.val; omega
    | ⟨1, _⟩ => by show c + j.val = off 1 + j.val; omega)

/-! ## A stored rectangle's value is the block's function under it -/

/-- A rotated head against the block's rotated projection at any index with the head's number, the row and the lane. -/
theorem rot_at (x0 : Vec Ideal S1x512x1024 .f32) (x1 : Vec Ideal S3072x1024 .bf16) (x2 : Vec Ideal S1x3072 .f32)
    (x3 x4 : Vec Ideal S512x32 .f32) (part : Fin 3) (off : Fin 2 → Nat) (hs : S512x3072.Slices off S512x64)
    (c : Nat) (ho0 : off 0 = 0) (ho1 : off 1 = c) (x : S1x1x512x64.Idx) (y : S1x16x512x64.Idx)
    (hc : c = part.val * 1024 + (y 1).val * 64) (h2 : (y 2).val = (x 2).val) (h3 : (y 3).val = (x 3).val) :
    rotHead (k0_pay3 (F := Ideal) x0 x1 x2) off hs x3 x4 x = rotBlk x0 x1 x2 x3 x4 part y := by
  obtain ⟨a, b, r, j, rfl⟩ : ∃ (a : Fin 1) (b : Fin 1) (r : Fin 512) (j : Fin 64), x = ix4 a b r j :=
    ⟨x 0, x 1, x 2, x 3, eq_ix4 x⟩
  obtain ⟨a', h, r', j', rfl⟩ : ∃ (a' : Fin 1) (h : Fin 16) (r' : Fin 512) (j' : Fin 64), y = ix4 a' h r' j' :=
    ⟨y 0, y 1, y 2, y 3, eq_ix4 y⟩
  obtain rfl : a = 0 := Subsingleton.elim _ _
  obtain rfl : b = 0 := Subsingleton.elim _ _
  obtain rfl : r = r' := (Fin.ext h2).symm
  obtain rfl : j = j' := (Fin.ext h3).symm
  have hp : part.val < 3 := part.isLt
  have hh : h.val < 16 := h.isLt
  have hc' : c = part.val * 1024 + h.val * 64 := hc
  refine (rotHead_apply _ off hs x3 x4 c ho0 ho1 (by omega) r j).trans ?_
  unfold rotBlk
  show rot _ _ _ j = rot (fun k => projBlk x0 x1 x2 r (col3 part h k)) (fun k => x3 (ix2 r k)) (fun k => x4 (ix2 r k)) j
  congr 1
  funext k
  refine (proj_apply x0 x1 x2 r _).trans ?_
  exact congrArg (projBlk x0 x1 x2 r) (Fin.ext (by show c + k.val = part.val * 1024 + h.val * 64 + k.val; omega))

/-- The same under the rectangle at head `h` of the output block: its local index `x` sits at (0, h, row, lane). -/
theorem rot_piece (x0 : Vec Ideal S1x512x1024 .f32) (x1 : Vec Ideal S3072x1024 .bf16) (x2 : Vec Ideal S1x3072 .f32)
    (x3 x4 : Vec Ideal S512x32 .f32) (part : Fin 3) (h : Nat) (off : Fin 2 → Nat) (hs : S512x3072.Slices off S512x64)
    (ho0 : off 0 = 0) (ho1 : off 1 = part.val * 1024 + h * 64)
    (inb : ∀ a, (![0, h, 0, 0] : Fin 4 → Nat) a + (![1, 1, 512, 64] : Fin 4 → Nat) a ≤ S1x16x512x64.size a)
    (x : S1x1x512x64.Idx) :
    rotHead (k0_pay3 (F := Ideal) x0 x1 x2) off hs x3 x4 x
      = rotBlk x0 x1 x2 x3 x4 part ((Rect.unit (s := S1x16x512x64) ![0, h, 0, 0] ![1, 1, 512, 64] inb).emb x) :=
  rot_at x0 x1 x2 x3 x4 part off hs _ ho0 ho1 x _
    (by have h1 : (x 1).val < 1 := (x 1).isLt
        show part.val * 1024 + h * 64 = part.val * 1024 + (h + 1 * (x 1).val) * 64
        omega)
    (by show 0 + 1 * (x 2).val = (x 2).val; omega)
    (by show 0 + 1 * (x 3).val = (x 3).val; omega)

/-- A plain head against the block's projection at any index with the head's number, the row and the lane. -/
theorem plain_at (x0 : Vec Ideal S1x512x1024 .f32) (x1 : Vec Ideal S3072x1024 .bf16) (x2 : Vec Ideal S1x3072 .f32)
    (part : Fin 3) (off : Fin 2 → Nat) (hs : S512x3072.Slices off S512x64)
    (c : Nat) (ho0 : off 0 = 0) (ho1 : off 1 = c) (x : S1x1x512x64.Idx) (y : S1x16x512x64.Idx)
    (hc : c = part.val * 1024 + (y 1).val * 64) (h2 : (y 2).val = (x 2).val) (h3 : (y 3).val = (x 3).val) :
    plainHead (k0_pay3 (F := Ideal) x0 x1 x2) off hs x = plainBlk x0 x1 x2 part y := by
  obtain ⟨a, b, r, j, rfl⟩ : ∃ (a : Fin 1) (b : Fin 1) (r : Fin 512) (j : Fin 64), x = ix4 a b r j :=
    ⟨x 0, x 1, x 2, x 3, eq_ix4 x⟩
  obtain ⟨a', h, r', j', rfl⟩ : ∃ (a' : Fin 1) (h : Fin 16) (r' : Fin 512) (j' : Fin 64), y = ix4 a' h r' j' :=
    ⟨y 0, y 1, y 2, y 3, eq_ix4 y⟩
  obtain rfl : a = 0 := Subsingleton.elim _ _
  obtain rfl : b = 0 := Subsingleton.elim _ _
  obtain rfl : r = r' := (Fin.ext h2).symm
  obtain rfl : j = j' := (Fin.ext h3).symm
  have hp : part.val < 3 := part.isLt
  have hh : h.val < 16 := h.isLt
  have hc' : c = part.val * 1024 + h.val * 64 := hc
  refine (plainHead_apply _ off hs c ho0 ho1 (by omega) r j).trans ?_
  refine (proj_apply x0 x1 x2 r _).trans ?_
  unfold plainBlk
  exact congrArg (projBlk x0 x1 x2 r) (Fin.ext (by show c + j.val = part.val * 1024 + h.val * 64 + j.val; omega))

/-- The same under the rectangle at head `h` of the output block. -/
theorem plain_piece (x0 : Vec Ideal S1x512x1024 .f32) (x1 : Vec Ideal S3072x1024 .bf16) (x2 : Vec Ideal S1x3072 .f32)
    (part : Fin 3) (h : Nat) (off : Fin 2 → Nat) (hs : S512x3072.Slices off S512x64)
    (ho0 : off 0 = 0) (ho1 : off 1 = part.val * 1024 + h * 64)
    (inb : ∀ a, (![0, h, 0, 0] : Fin 4 → Nat) a + (![1, 1, 512, 64] : Fin 4 → Nat) a ≤ S1x16x512x64.size a)
    (x : S1x1x512x64.Idx) :
    plainHead (k0_pay3 (F := Ideal) x0 x1 x2) off hs x
      = plainBlk x0 x1 x2 part ((Rect.unit (s := S1x16x512x64) ![0, h, 0, 0] ![1, 1, 512, 64] inb).emb x) :=
  plain_at x0 x1 x2 part off hs _ ho0 ho1 x _
    (by have h1 : (x 1).val < 1 := (x 1).isLt
        show part.val * 1024 + h * 64 = part.val * 1024 + (h + 1 * (x 1).val) * 64
        omega)
    (by show 0 + 1 * (x 2).val = (x 2).val; omega)
    (by show 0 + 1 * (x 3).val = (x 3).val; omega)

/-- The zero offsets of a whole-buffer read, at ranks two and three. -/
theorem hz2 : (![0, 0] : Fin 2 → Nat) = fun _ => 0 := funext fun a => by fin_cases a <;> rfl
theorem hz3 : (![0, 0, 0] : Fin 3 → Nat) = fun _ => 0 := funext fun a => by fin_cases a <;> rfl

end QkvBlock

open QkvBlock

/-! ## The three output blocks

Each block [1, 16, 512, 64] is written as sixteen rectangles [1, 1, 512, 64], head `h`'s at offset (0, h, 0, 0).
The queries' rectangle of head `h` is the rotated head at columns `h · 64` of the projection, the keys' the rotated
head at columns `1024 + h · 64`, the values' the plain head at columns `2048 + h · 64`; so each block is, at every
index, the block's rotated or plain projection of the matching third of the stacked weights. -/

theorem out0_5_eq (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec Ideal S1x512x1024 .f32) (x1 : Vec Ideal S3072x1024 .bf16) (x2 : Vec Ideal S1x3072 .f32) (x3 : Vec Ideal S512x32 .f32) (x4 : Vec Ideal S512x32 .f32) :
    out0_5 (F := Ideal) c i arg2 harg2 arg3 harg3 arg4 harg4 arg5 harg5 arg6 harg6 arg7 harg7 arg8 harg8 arg9 harg9 x0 x1 x2 x3 x4 = rotBlk x0 x1 x2 x3 x4 0 := by
  funext y
  unfold out0_5
  rw [View.read_writes_eq_canon _ _ _ (cover0_5 c i arg2 harg2 arg3 harg3 arg4 harg4 arg5 harg5 arg6 harg6 arg7 harg7 arg8 harg8 arg9 harg9 x0 x1 x2 x3 x4)]
  refine View.canon_apply_of_pieces (rotBlk x0 x1 x2 x3 x4 0) _ ?_ y (cover0_5 c i arg2 harg2 arg3 harg3 arg4 harg4 arg5 harg5 arg6 harg6 arg7 harg7 arg8 harg8 arg9 harg9 x0 x1 x2 x3 x4 y)
  unfold kernelRun0; dsimp only; sl_unfold_words
  simp only [View.readAt_eq_ld, harg2.read_unread, harg3.read_unread, harg4.read_unread, harg5.read_unread,
    harg6.read_unread, View.ld_unit_zero (S := S1x512x1024) hz3, View.ld_unit_zero (S := S3072x1024) hz2,
    View.ld_unit_zero (S := S1x3072) hz2, View.ld_unit_zero (S := S512x32) hz2]
  intro pc hpc x
  rcases List.mem_cons.mp hpc with rfl | hpc
  · exact rot_piece x0 x1 x2 x3 x4 0 15 ![0, 960] slices_S512x3072_o0_960_S512x64 rfl rfl inb_S1x16x512x64_S1x1x512x64_0_15_0_0 x
  rcases List.mem_cons.mp hpc with rfl | hpc
  · exact rot_piece x0 x1 x2 x3 x4 0 14 ![0, 896] slices_S512x3072_o0_896_S512x64 rfl rfl inb_S1x16x512x64_S1x1x512x64_0_14_0_0 x
  rcases List.mem_cons.mp hpc with rfl | hpc
  · exact rot_piece x0 x1 x2 x3 x4 0 13 ![0, 832] slices_S512x3072_o0_832_S512x64 rfl rfl inb_S1x16x512x64_S1x1x512x64_0_13_0_0 x
  rcases List.mem_cons.mp hpc with rfl | hpc
  · exact rot_piece x0 x1 x2 x3 x4 0 12 ![0, 768] slices_S512x3072_o0_768_S512x64 rfl rfl inb_S1x16x512x64_S1x1x512x64_0_12_0_0 x
  rcases List.mem_cons.mp hpc with rfl | hpc
  · exact rot_piece x0 x1 x2 x3 x4 0 11 ![0, 704] slices_S512x3072_o0_704_S512x64 rfl rfl inb_S1x16x512x64_S1x1x512x64_0_11_0_0 x
  rcases List.mem_cons.mp hpc with rfl | hpc
  · exact rot_piece x0 x1 x2 x3 x4 0 10 ![0, 640] slices_S512x3072_o0_640_S512x64 rfl rfl inb_S1x16x512x64_S1x1x512x64_0_10_0_0 x
  rcases List.mem_cons.mp hpc with rfl | hpc
  · exact rot_piece x0 x1 x2 x3 x4 0 9 ![0, 576] slices_S512x3072_o0_576_S512x64 rfl rfl inb_S1x16x512x64_S1x1x512x64_0_9_0_0 x
  rcases List.mem_cons.mp hpc with rfl | hpc
  · exact rot_piece x0 x1 x2 x3 x4 0 8 ![0, 512] slices_S512x3072_o0_512_S512x64 rfl rfl inb_S1x16x512x64_S1x1x512x64_0_8_0_0 x
  rcases List.mem_cons.mp hpc with rfl | hpc
  · exact rot_piece x0 x1 x2 x3 x4 0 7 ![0, 448] slices_S512x3072_o0_448_S512x64 rfl rfl inb_S1x16x512x64_S1x1x512x64_0_7_0_0 x
  rcases List.mem_cons.mp hpc with rfl | hpc
  · exact rot_piece x0 x1 x2 x3 x4 0 6 ![0, 384] slices_S512x3072_o0_384_S512x64 rfl rfl inb_S1x16x512x64_S1x1x512x64_0_6_0_0 x
  rcases List.mem_cons.mp hpc with rfl | hpc
  · exact rot_piece x0 x1 x2 x3 x4 0 5 ![0, 320] slices_S512x3072_o0_320_S512x64 rfl rfl inb_S1x16x512x64_S1x1x512x64_0_5_0_0 x
  rcases List.mem_cons.mp hpc with rfl | hpc
  · exact rot_piece x0 x1 x2 x3 x4 0 4 ![0, 256] slices_S512x3072_o0_256_S512x64 rfl rfl inb_S1x16x512x64_S1x1x512x64_0_4_0_0 x
  rcases List.mem_cons.mp hpc with rfl | hpc
  · exact rot_piece x0 x1 x2 x3 x4 0 3 ![0, 192] slices_S512x3072_o0_192_S512x64 rfl rfl inb_S1x16x512x64_S1x1x512x64_0_3_0_0 x
  rcases List.mem_cons.mp hpc with rfl | hpc
  · exact rot_piece x0 x1 x2 x3 x4 0 2 ![0, 128] slices_S512x3072_o0_128_S512x64 rfl rfl inb_S1x16x512x64_S1x1x512x64_0_2_0_0 x
  rcases List.mem_cons.mp hpc with rfl | hpc
  · exact rot_piece x0 x1 x2 x3 x4 0 1 ![0, 64] slices_S512x3072_o0_64_S512x64 rfl rfl inb_S1x16x512x64_S1x1x512x64_0_1_0_0 x
  rcases List.mem_cons.mp hpc with rfl | hpc
  · exact rot_piece x0 x1 x2 x3 x4 0 0 ![0, 0] slices_S512x3072_o0_0_S512x64 rfl rfl inb_S1x16x512x64_S1x1x512x64_0_0_0_0 x
  exact absurd hpc List.not_mem_nil

theorem out0_6_eq (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec Ideal S1x512x1024 .f32) (x1 : Vec Ideal S3072x1024 .bf16) (x2 : Vec Ideal S1x3072 .f32) (x3 : Vec Ideal S512x32 .f32) (x4 : Vec Ideal S512x32 .f32) :
    out0_6 (F := Ideal) c i arg2 harg2 arg3 harg3 arg4 harg4 arg5 harg5 arg6 harg6 arg7 harg7 arg8 harg8 arg9 harg9 x0 x1 x2 x3 x4 = rotBlk x0 x1 x2 x3 x4 1 := by
  funext y
  unfold out0_6
  rw [View.read_writes_eq_canon _ _ _ (cover0_6 c i arg2 harg2 arg3 harg3 arg4 harg4 arg5 harg5 arg6 harg6 arg7 harg7 arg8 harg8 arg9 harg9 x0 x1 x2 x3 x4)]
  refine View.canon_apply_of_pieces (rotBlk x0 x1 x2 x3 x4 1) _ ?_ y (cover0_6 c i arg2 harg2 arg3 harg3 arg4 harg4 arg5 harg5 arg6 harg6 arg7 harg7 arg8 harg8 arg9 harg9 x0 x1 x2 x3 x4 y)
  unfold kernelRun0; dsimp only; sl_unfold_words
  simp only [View.readAt_eq_ld, harg2.read_unread, harg3.read_unread, harg4.read_unread, harg5.read_unread,
    harg6.read_unread, View.ld_unit_zero (S := S1x512x1024) hz3, View.ld_unit_zero (S := S3072x1024) hz2,
    View.ld_unit_zero (S := S1x3072) hz2, View.ld_unit_zero (S := S512x32) hz2]
  intro pc hpc x
  rcases List.mem_cons.mp hpc with rfl | hpc
  · exact rot_piece x0 x1 x2 x3 x4 1 15 ![0, 1984] slices_S512x3072_o0_1984_S512x64 rfl rfl inb_S1x16x512x64_S1x1x512x64_0_15_0_0 x
  rcases List.mem_cons.mp hpc with rfl | hpc
  · exact rot_piece x0 x1 x2 x3 x4 1 14 ![0, 1920] slices_S512x3072_o0_1920_S512x64 rfl rfl inb_S1x16x512x64_S1x1x512x64_0_14_0_0 x
  rcases List.mem_cons.mp hpc with rfl | hpc
  · exact rot_piece x0 x1 x2 x3 x4 1 13 ![0, 1856] slices_S512x3072_o0_1856_S512x64 rfl rfl inb_S1x16x512x64_S1x1x512x64_0_13_0_0 x
  rcases List.mem_cons.mp hpc with rfl | hpc
  · exact rot_piece x0 x1 x2 x3 x4 1 12 ![0, 1792] slices_S512x3072_o0_1792_S512x64 rfl rfl inb_S1x16x512x64_S1x1x512x64_0_12_0_0 x
  rcases List.mem_cons.mp hpc with rfl | hpc
  · exact rot_piece x0 x1 x2 x3 x4 1 11 ![0, 1728] slices_S512x3072_o0_1728_S512x64 rfl rfl inb_S1x16x512x64_S1x1x512x64_0_11_0_0 x
  rcases List.mem_cons.mp hpc with rfl | hpc
  · exact rot_piece x0 x1 x2 x3 x4 1 10 ![0, 1664] slices_S512x3072_o0_1664_S512x64 rfl rfl inb_S1x16x512x64_S1x1x512x64_0_10_0_0 x
  rcases List.mem_cons.mp hpc with rfl | hpc
  · exact rot_piece x0 x1 x2 x3 x4 1 9 ![0, 1600] slices_S512x3072_o0_1600_S512x64 rfl rfl inb_S1x16x512x64_S1x1x512x64_0_9_0_0 x
  rcases List.mem_cons.mp hpc with rfl | hpc
  · exact rot_piece x0 x1 x2 x3 x4 1 8 ![0, 1536] slices_S512x3072_o0_1536_S512x64 rfl rfl inb_S1x16x512x64_S1x1x512x64_0_8_0_0 x
  rcases List.mem_cons.mp hpc with rfl | hpc
  · exact rot_piece x0 x1 x2 x3 x4 1 7 ![0, 1472] slices_S512x3072_o0_1472_S512x64 rfl rfl inb_S1x16x512x64_S1x1x512x64_0_7_0_0 x
  rcases List.mem_cons.mp hpc with rfl | hpc
  · exact rot_piece x0 x1 x2 x3 x4 1 6 ![0, 1408] slices_S512x3072_o0_1408_S512x64 rfl rfl inb_S1x16x512x64_S1x1x512x64_0_6_0_0 x
  rcases List.mem_cons.mp hpc with rfl | hpc
  · exact rot_piece x0 x1 x2 x3 x4 1 5 ![0, 1344] slices_S512x3072_o0_1344_S512x64 rfl rfl inb_S1x16x512x64_S1x1x512x64_0_5_0_0 x
  rcases List.mem_cons.mp hpc with rfl | hpc
  · exact rot_piece x0 x1 x2 x3 x4 1 4 ![0, 1280] slices_S512x3072_o0_1280_S512x64 rfl rfl inb_S1x16x512x64_S1x1x512x64_0_4_0_0 x
  rcases List.mem_cons.mp hpc with rfl | hpc
  · exact rot_piece x0 x1 x2 x3 x4 1 3 ![0, 1216] slices_S512x3072_o0_1216_S512x64 rfl rfl inb_S1x16x512x64_S1x1x512x64_0_3_0_0 x
  rcases List.mem_cons.mp hpc with rfl | hpc
  · exact rot_piece x0 x1 x2 x3 x4 1 2 ![0, 1152] slices_S512x3072_o0_1152_S512x64 rfl rfl inb_S1x16x512x64_S1x1x512x64_0_2_0_0 x
  rcases List.mem_cons.mp hpc with rfl | hpc
  · exact rot_piece x0 x1 x2 x3 x4 1 1 ![0, 1088] slices_S512x3072_o0_1088_S512x64 rfl rfl inb_S1x16x512x64_S1x1x512x64_0_1_0_0 x
  rcases List.mem_cons.mp hpc with rfl | hpc
  · exact rot_piece x0 x1 x2 x3 x4 1 0 ![0, 1024] slices_S512x3072_o0_1024_S512x64 rfl rfl inb_S1x16x512x64_S1x1x512x64_0_0_0_0 x
  exact absurd hpc List.not_mem_nil

theorem out0_7_eq (c : Dev nD) (i : grid0.Coords) (arg2 : Memref sig .tc .vmem S1x512x1024 .f32) (harg2 : arg2.IsWhole) (arg3 : Memref sig .tc .vmem S3072x1024 .bf16) (harg3 : arg3.IsWhole) (arg4 : Memref sig .tc .vmem S1x3072 .f32) (harg4 : arg4.IsWhole) (arg5 : Memref sig .tc .vmem S512x32 .f32) (harg5 : arg5.IsWhole) (arg6 : Memref sig .tc .vmem S512x32 .f32) (harg6 : arg6.IsWhole) (arg7 : Memref sig .tc .vmem S1x16x512x64 .bf16) (harg7 : arg7.IsWhole) (arg8 : Memref sig .tc .vmem S1x16x512x64 .bf16) (harg8 : arg8.IsWhole) (arg9 : Memref sig .tc .vmem S1x16x512x64 .bf16) (harg9 : arg9.IsWhole)
    (x0 : Vec Ideal S1x512x1024 .f32) (x1 : Vec Ideal S3072x1024 .bf16) (x2 : Vec Ideal S1x3072 .f32) (x3 : Vec Ideal S512x32 .f32) (x4 : Vec Ideal S512x32 .f32) :
    out0_7 (F := Ideal) c i arg2 harg2 arg3 harg3 arg4 harg4 arg5 harg5 arg6 harg6 arg7 harg7 arg8 harg8 arg9 harg9 x0 x1 x2 x3 x4 = plainBlk x0 x1 x2 2 := by
  funext y
  unfold out0_7
  rw [View.read_writes_eq_canon _ _ _ (cover0_7 c i arg2 harg2 arg3 harg3 arg4 harg4 arg5 harg5 arg6 harg6 arg7 harg7 arg8 harg8 arg9 harg9 x0 x1 x2 x3 x4)]
  refine View.canon_apply_of_pieces (plainBlk x0 x1 x2 2) _ ?_ y (cover0_7 c i arg2 harg2 arg3 harg3 arg4 harg4 arg5 harg5 arg6 harg6 arg7 harg7 arg8 harg8 arg9 harg9 x0 x1 x2 x3 x4 y)
  unfold kernelRun0; dsimp only; sl_unfold_words
  simp only [View.readAt_eq_ld, harg2.read_unread, harg3.read_unread, harg4.read_unread, harg5.read_unread,
    harg6.read_unread, View.ld_unit_zero (S := S1x512x1024) hz3, View.ld_unit_zero (S := S3072x1024) hz2,
    View.ld_unit_zero (S := S1x3072) hz2, View.ld_unit_zero (S := S512x32) hz2]
  intro pc hpc x
  rcases List.mem_cons.mp hpc with rfl | hpc
  · exact plain_piece x0 x1 x2 2 15 ![0, 3008] slices_S512x3072_o0_3008_S512x64 rfl rfl inb_S1x16x512x64_S1x1x512x64_0_15_0_0 x
  rcases List.mem_cons.mp hpc with rfl | hpc
  · exact plain_piece x0 x1 x2 2 14 ![0, 2944] slices_S512x3072_o0_2944_S512x64 rfl rfl inb_S1x16x512x64_S1x1x512x64_0_14_0_0 x
  rcases List.mem_cons.mp hpc with rfl | hpc
  · exact plain_piece x0 x1 x2 2 13 ![0, 2880] slices_S512x3072_o0_2880_S512x64 rfl rfl inb_S1x16x512x64_S1x1x512x64_0_13_0_0 x
  rcases List.mem_cons.mp hpc with rfl | hpc
  · exact plain_piece x0 x1 x2 2 12 ![0, 2816] slices_S512x3072_o0_2816_S512x64 rfl rfl inb_S1x16x512x64_S1x1x512x64_0_12_0_0 x
  rcases List.mem_cons.mp hpc with rfl | hpc
  · exact plain_piece x0 x1 x2 2 11 ![0, 2752] slices_S512x3072_o0_2752_S512x64 rfl rfl inb_S1x16x512x64_S1x1x512x64_0_11_0_0 x
  rcases List.mem_cons.mp hpc with rfl | hpc
  · exact plain_piece x0 x1 x2 2 10 ![0, 2688] slices_S512x3072_o0_2688_S512x64 rfl rfl inb_S1x16x512x64_S1x1x512x64_0_10_0_0 x
  rcases List.mem_cons.mp hpc with rfl | hpc
  · exact plain_piece x0 x1 x2 2 9 ![0, 2624] slices_S512x3072_o0_2624_S512x64 rfl rfl inb_S1x16x512x64_S1x1x512x64_0_9_0_0 x
  rcases List.mem_cons.mp hpc with rfl | hpc
  · exact plain_piece x0 x1 x2 2 8 ![0, 2560] slices_S512x3072_o0_2560_S512x64 rfl rfl inb_S1x16x512x64_S1x1x512x64_0_8_0_0 x
  rcases List.mem_cons.mp hpc with rfl | hpc
  · exact plain_piece x0 x1 x2 2 7 ![0, 2496] slices_S512x3072_o0_2496_S512x64 rfl rfl inb_S1x16x512x64_S1x1x512x64_0_7_0_0 x
  rcases List.mem_cons.mp hpc with rfl | hpc
  · exact plain_piece x0 x1 x2 2 6 ![0, 2432] slices_S512x3072_o0_2432_S512x64 rfl rfl inb_S1x16x512x64_S1x1x512x64_0_6_0_0 x
  rcases List.mem_cons.mp hpc with rfl | hpc
  · exact plain_piece x0 x1 x2 2 5 ![0, 2368] slices_S512x3072_o0_2368_S512x64 rfl rfl inb_S1x16x512x64_S1x1x512x64_0_5_0_0 x
  rcases List.mem_cons.mp hpc with rfl | hpc
  · exact plain_piece x0 x1 x2 2 4 ![0, 2304] slices_S512x3072_o0_2304_S512x64 rfl rfl inb_S1x16x512x64_S1x1x512x64_0_4_0_0 x
  rcases List.mem_cons.mp hpc with rfl | hpc
  · exact plain_piece x0 x1 x2 2 3 ![0, 2240] slices_S512x3072_o0_2240_S512x64 rfl rfl inb_S1x16x512x64_S1x1x512x64_0_3_0_0 x
  rcases List.mem_cons.mp hpc with rfl | hpc
  · exact plain_piece x0 x1 x2 2 2 ![0, 2176] slices_S512x3072_o0_2176_S512x64 rfl rfl inb_S1x16x512x64_S1x1x512x64_0_2_0_0 x
  rcases List.mem_cons.mp hpc with rfl | hpc
  · exact plain_piece x0 x1 x2 2 1 ![0, 2112] slices_S512x3072_o0_2112_S512x64 rfl rfl inb_S1x16x512x64_S1x1x512x64_0_1_0_0 x
  rcases List.mem_cons.mp hpc with rfl | hpc
  · exact plain_piece x0 x1 x2 2 0 ![0, 2048] slices_S512x3072_o0_2048_S512x64 rfl rfl inb_S1x16x512x64_S1x1x512x64_0_0_0_0 x
  exact absurd hpc List.not_mem_nil

end Cert.Val

end
-- ==== Proof.QkvArray.lean ====
/-
  The three arrays the first pallas_call leaves (queries, keys, values, laid out [2, 16, 2048, 64]) as whole-array
  functions of the arrays it reads: grid point (b, s) writes rows 512·s … 512·s + 511 of batch entry b, and these
  blocks cover each array.
-/
import proofs.«400326_j61744449847642_3_alg».proof.Proof.QkvBlock
import Idealize.ShloMosaic.Lib.Pipeline.Value

set_option maxRecDepth 16384

noncomputable section

namespace Cert.Val

open Idealize.ShloMosaic Idealize.ShloMosaic.TcCoe Idealize.ShloMosaic.ValueIdx Idealize.SL.Sem
open Cert.Spec
open Idealize.ShloMosaic.Pipeline (Dat)
open Cert.KernelIdeal Cert.KernelIdeal.Gen Cert.KernelIdeal.Frm

/-! ## A block of 512 rows against the whole arrays -/

/-- When a block holds the inputs, cosines and sines of its rows, the rotated projection of the block at a head, row
    and lane is the rotated projection of the whole arrays at that head, the row's place in the array, and that lane. -/
theorem rotBlk_eq_rotProj3 (x : A3 2 2048 1024) (cos sin : A2 2048 32) (W : A2 3072 1024) (bias : A2 1 3072) (part : Fin 3)
    (xb : A3 1 512 1024) (cs sn : A2 512 32)
    (y : (⟨4, ![1, 16, 512, 64]⟩ : Shape).Idx) (i : (⟨4, ![2, 16, 2048, 64]⟩ : Shape).Idx)
    (hx : ∀ d : Fin 1024, xb (ix3 0 (y 2) d) = x (ix3 (i 0) (i 2) d))
    (hcs : ∀ j : Fin 32, cs (ix2 (y 2) j) = cos (ix2 (i 2) j))
    (hsn : ∀ j : Fin 32, sn (ix2 (y 2) j) = sin (ix2 (i 2) j))
    (h1 : i 1 = y 1) (h3 : i 3 = y 3) :
    rotBlk xb W bias cs sn part y = rotProj3 x cos sin W bias part i := by
  have e1 : (fun j => projBlk xb W bias (y 2) (col3 part (y 1) j)) = fun j => proj3 x W bias (i 0) (i 2) (col3 part (y 1) j) := by
    funext j
    unfold projBlk proj3
    exact congrArg (· + bias (ix2 0 (col3 part (y 1) j))) (Finset.sum_congr rfl fun d _ => by rw [hx d])
  have e2 : (fun j => cs (ix2 (y 2) j)) = fun j => cos (ix2 (i 2) j) := funext hcs
  have e3 : (fun j => sn (ix2 (y 2) j)) = fun j => sin (ix2 (i 2) j) := funext hsn
  show rot (fun j => projBlk xb W bias (y 2) (col3 part (y 1) j)) (fun j => cs (ix2 (y 2) j)) (fun j => sn (ix2 (y 2) j)) (y 3)
    = rot (fun j => proj3 x W bias (i 0) (i 2) (col3 part (i 1) j)) (fun j => cos (ix2 (i 2) j)) (fun j => sin (ix2 (i 2) j)) (i 3)
  rw [e1, e2, e3, h1, h3]

/-- The same for the projection that is not rotated. -/
theorem plainBlk_eq_plainProj3 (x : A3 2 2048 1024) (W : A2 3072 1024) (bias : A2 1 3072) (part : Fin 3)
    (xb : A3 1 512 1024)
    (y : (⟨4, ![1, 16, 512, 64]⟩ : Shape).Idx) (i : (⟨4, ![2, 16, 2048, 64]⟩ : Shape).Idx)
    (hx : ∀ d : Fin 1024, xb (ix3 0 (y 2) d) = x (ix3 (i 0) (i 2) d))
    (h1 : i 1 = y 1) (h3 : i 3 = y 3) :
    plainBlk xb W bias part y = plainProj3 x W bias part i := by
  show projBlk xb W bias (y 2) (col3 part (y 1) (y 3)) = proj3 x W bias (i 0) (i 2) (col3 part (i 1) (i 3))
  rw [h1, h3]
  unfold projBlk proj3
  exact congrArg (· + bias (ix2 0 (col3 part (y 1) (y 3)))) (Finset.sum_congr rfl fun d _ => by rw [hx d])

/-! ## Which block each window sees at a grid point -/

/-- The block index of every input window at every grid point, decided over the eight points: point t is batch entry
    t / 4 and row block t % 4; the stacked weights and biases are one block. -/
theorem idx_in : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0 :=
  (by decide +kernel : ∀ t : Fin grid0.N, _)

/-- The block index of the queries' window: batch entry t / 4, all heads, row block t % 4, all lanes. -/
theorem idx_q : ∀ t : Fin cfg0.N,
    win0_5.index t (0 : Fin 4) = t.val / 4 ∧ win0_5.index t (1 : Fin 4) = 0 ∧ win0_5.index t (2 : Fin 4) = t.val % 4 ∧ win0_5.index t (3 : Fin 4) = 0 :=
  (by decide +kernel : ∀ t : Fin grid0.N, _)

/-- The keys' window moves the same way. -/
theorem idx_k : ∀ t : Fin cfg0.N,
    win0_6.index t (0 : Fin 4) = t.val / 4 ∧ win0_6.index t (1 : Fin 4) = 0 ∧ win0_6.index t (2 : Fin 4) = t.val % 4 ∧ win0_6.index t (3 : Fin 4) = 0 :=
  (by decide +kernel : ∀ t : Fin grid0.N, _)

/-- The values' window moves the same way. -/
theorem idx_v : ∀ t : Fin cfg0.N,
    win0_7.index t (0 : Fin 4) = t.val / 4 ∧ win0_7.index t (1 : Fin 4) = 0 ∧ win0_7.index t (2 : Fin 4) = t.val % 4 ∧ win0_7.index t (3 : Fin 4) = 0 :=
  (by decide +kernel : ∀ t : Fin grid0.N, _)

section Blocks

variable (V : (c : Dev nD) → (b : Ref sig .tc) → Buf (Elt Ideal) ((c : Thread nD τ).loc b))

/-- The stacked weights are seen whole at every point. -/
theorem weights_whole (c : Dev nD) (t : Fin cfg0.N) : (iblk0 V c 1 t : A2 3072 1024) = (V c main_v1 : A2 3072 1024) := by
  obtain ⟨-, -, -, e0, e1, -⟩ := idx_in t
  funext k
  show V c main_v1 (((cfg0.win 1).blk t).view.emb k) = V c main_v1 k
  refine congrArg _ (funext fun a => Fin.ext ?_)
  match a with
  | ⟨0, _⟩ => show win0_1.index t (0 : Fin 2) * 3072 + 1 * (k 0).val = (k 0).val; omega
  | ⟨1, _⟩ => show win0_1.index t (1 : Fin 2) * 1024 + 1 * (k 1).val = (k 1).val; omega

/-- The stacked biases are seen whole at every point. -/
theorem bias_whole (c : Dev nD) (t : Fin cfg0.N) : (iblk0 V c 2 t : A2 1 3072) = (V c main_v3 : A2 1 3072) := by
  obtain ⟨-, -, -, -, -, e0, e1, -⟩ := idx_in t
  funext k
  show V c main_v3 (((cfg0.win 2).blk t).view.emb k) = V c main_v3 k
  refine congrArg _ (funext fun a => Fin.ext ?_)
  match a with
  | ⟨0, _⟩ => show win0_2.index t (0 : Fin 2) * 1 + 1 * (k 0).val = (k 0).val; omega
  | ⟨1, _⟩ => show win0_2.index t (1 : Fin 2) * 3072 + 1 * (k 1).val = (k 1).val; omega

/-- The input block at point t is rows 512·(t % 4) … of batch entry t / 4. -/
theorem rows_x (c : Dev nD) (t : Fin cfg0.N) (r : Fin 512) (d : Fin 1024) (b : Fin 2) (s : Fin 2048)
    (hb : b.val = t.val / 4) (hs : s.val = t.val % 4 * 512 + r.val) :
    (iblk0 V c 0 t : A3 1 512 1024) (ix3 0 r d) = (V c main_arg0 : A3 2 2048 1024) (ix3 b s d) := by
  obtain ⟨e0, e1, e2, -⟩ := idx_in t
  show V c main_arg0 (((cfg0.win 0).blk t).view.emb (ix3 0 r d)) = V c main_arg0 (ix3 b s d)
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * d.val = d.val; omega

/-- The cosines' block at point t is rows 512·(t % 4) … of the table. -/
theorem rows_cos (c : Dev nD) (t : Fin cfg0.N) (r : Fin 512) (j : Fin 32) (s : Fin 2048)
    (hs : s.val = t.val % 4 * 512 + r.val) :
    (iblk0 V c 3 t : A2 512 32) (ix2 r j) = (V c main_arg1 : A2 2048 32) (ix2 s j) := by
  obtain ⟨-, -, -, -, -, -, -, e0, e1, -⟩ := idx_in t
  show V c main_arg1 (((cfg0.win 3).blk t).view.emb (ix2 r j)) = V c main_arg1 (ix2 s j)
  refine congrArg _ (funext fun a => Fin.ext ?_)
  match a with
  | ⟨0, _⟩ => show win0_3.index t (0 : Fin 2) * 512 + 1 * r.val = s.val; omega
  | ⟨1, _⟩ => show win0_3.index t (1 : Fin 2) * 32 + 1 * j.val = j.val; omega

/-- The sines' block likewise. -/
theorem rows_sin (c : Dev nD) (t : Fin cfg0.N) (r : Fin 512) (j : Fin 32) (s : Fin 2048)
    (hs : s.val = t.val % 4 * 512 + r.val) :
    (iblk0 V c 4 t : A2 512 32) (ix2 r j) = (V c main_arg2 : A2 2048 32) (ix2 s j) := by
  obtain ⟨-, -, -, -, -, -, -, -, -, e0, e1⟩ := idx_in t
  show V c main_arg2 (((cfg0.win 4).blk t).view.emb (ix2 r j)) = V c main_arg2 (ix2 s j)
  refine congrArg _ (funext fun a => Fin.ext ?_)
  match a with
  | ⟨0, _⟩ => show win0_4.index t (0 : Fin 2) * 512 + 1 * r.val = s.val; omega
  | ⟨1, _⟩ => show win0_4.index t (1 : Fin 2) * 32 + 1 * j.val = j.val; omega

/-! ## The queries -/

/-- What point t writes back to the queries' array is its block of the rotated projection of the whole arrays. -/
theorem flushed_q (c : Dev nD) (t : Fin cfg0.N) :
    (dat0 (F := Ideal) V c).flushed 5 t = ((cfg0.win 5).blk t).view.read (Elt Ideal) (rotProj3 (V c main_arg0) (V c main_arg1) (V c main_arg2) (V c main_v1) (V c main_v3) 0) := by
  show (cfg0.win 5).cut (grid0.coords t) ((dat0 V c).after 5 t) = _
  rw [after0_5, out0_5_eq, weights_whole, bias_whole]
  obtain ⟨e0, e1, e2, e3⟩ := idx_q t
  funext y
  show rotBlk (iblk0 V c 0 t) (V c main_v1) (V c main_v3) (iblk0 V c 3 t) (iblk0 V c 4 t) 0 ((cfg0.win 5).xinj (grid0.coords t) y)
    = rotProj3 (V c main_arg0) (V c main_arg1) (V c main_arg2) (V c main_v1) (V c main_v3) 0 (((cfg0.win 5).blk t).view.emb y)
  have h0 : ((((cfg0.win 5).blk t).view.emb y) 0).val = t.val / 4 := by
    show win0_5.index t (0 : Fin 4) * 1 + 1 * (y 0).val = _
    have : (y 0).val < 1 := (y 0).isLt
    omega
  have h2 : ((((cfg0.win 5).blk t).view.emb y) 2).val = t.val % 4 * 512 + (y 2).val := by
    show win0_5.index t (2 : Fin 4) * 512 + 1 * (y 2).val = _
    omega
  refine rotBlk_eq_rotProj3 _ _ _ _ _ _ _ _ _ _ _ (fun d => rows_x V c t _ d _ _ h0 h2) (fun j => rows_cos V c t _ j _ h2) (fun j => rows_sin V c t _ j _ h2) (Fin.ext ?_) (Fin.ext ?_)
  · show win0_5.index t (1 : Fin 4) * 16 + 1 * (y 1).val = (y 1).val; omega
  · show win0_5.index t (3 : Fin 4) * 64 + 1 * (y 3).val = (y 3).val; omega

/-- An index of the queries' array lies in point t's block iff each coordinate lies in the block's range on its axis. -/
theorem mem_blk_q (t : Fin cfg0.N) (i : S2x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole main_v6_0).slice (win0_5.rect t)).set ↔ _
  rw [View.set_slice_whole, Rect.mem_set_unit]
  exact Iff.rfl

/-- Row s of batch entry b lies in the block of point 4·b + s / 512: the blocks cover the queries' array. -/
theorem cover_q (i : S2x16x2048x64.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg0.N, t.val = (i 0).val * 4 + (i 2).val / 512 :=
    ⟨⟨(i 0).val * 4 + (i 2).val / 512, by show _ < 8; omega⟩, rfl⟩
  refine ⟨t, flush0_5 t, ?_⟩
  rw [mem_blk_q]
  obtain ⟨e0, e1, e2, e3⟩ := idx_q t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-! ## The keys -/

/-- What point t writes back to the keys' array is its block of the rotated projection against the keys' third of the
    stacked weights. -/
theorem flushed_k (c : Dev nD) (t : Fin cfg0.N) :
    (dat0 (F := Ideal) V c).flushed 6 t = ((cfg0.win 6).blk t).view.read (Elt Ideal) (rotProj3 (V c main_arg0) (V c main_arg1) (V c main_arg2) (V c main_v1) (V c main_v3) 1) := by
  show (cfg0.win 6).cut (grid0.coords t) ((dat0 V c).after 6 t) = _
  rw [after0_6, out0_6_eq, weights_whole, bias_whole]
  obtain ⟨e0, e1, e2, e3⟩ := idx_k t
  funext y
  show rotBlk (iblk0 V c 0 t) (V c main_v1) (V c main_v3) (iblk0 V c 3 t) (iblk0 V c 4 t) 1 ((cfg0.win 6).xinj (grid0.coords t) y)
    = rotProj3 (V c main_arg0) (V c main_arg1) (V c main_arg2) (V c main_v1) (V c main_v3) 1 (((cfg0.win 6).blk t).view.emb y)
  have h0 : ((((cfg0.win 6).blk t).view.emb y) 0).val = t.val / 4 := by
    show win0_6.index t (0 : Fin 4) * 1 + 1 * (y 0).val = _
    have : (y 0).val < 1 := (y 0).isLt
    omega
  have h2 : ((((cfg0.win 6).blk t).view.emb y) 2).val = t.val % 4 * 512 + (y 2).val := by
    show win0_6.index t (2 : Fin 4) * 512 + 1 * (y 2).val = _
    omega
  refine rotBlk_eq_rotProj3 _ _ _ _ _ _ _ _ _ _ _ (fun d => rows_x V c t _ d _ _ h0 h2) (fun j => rows_cos V c t _ j _ h2) (fun j => rows_sin V c t _ j _ h2) (Fin.ext ?_) (Fin.ext ?_)
  · show win0_6.index t (1 : Fin 4) * 16 + 1 * (y 1).val = (y 1).val; omega
  · show win0_6.index t (3 : Fin 4) * 64 + 1 * (y 3).val = (y 3).val; omega

/-- An index of the keys' array lies in point t's block iff each coordinate lies in the block's range on its axis. -/
theorem mem_blk_k (t : Fin cfg0.N) (i : S2x16x2048x64.Idx) :
    i ∈ ((cfg0.win 6).blk t).view.set ↔ ∀ a : Fin 4, win0_6.index t a * S1x16x512x64.size a ≤ (i a).val ∧ (i a).val < win0_6.index t a * S1x16x512x64.size a + S1x16x512x64.size a := by
  show i ∈ ((View.whole main_v6_1).slice (win0_6.rect t)).set ↔ _
  rw [View.set_slice_whole, Rect.mem_set_unit]
  exact Iff.rfl

/-- The blocks cover the keys' array. -/
theorem cover_k (i : S2x16x2048x64.Idx) : ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg0.N, t.val = (i 0).val * 4 + (i 2).val / 512 :=
    ⟨⟨(i 0).val * 4 + (i 2).val / 512, by show _ < 8; omega⟩, rfl⟩
  refine ⟨t, flush0_6 t, ?_⟩
  rw [mem_blk_k]
  obtain ⟨e0, e1, e2, e3⟩ := idx_k t
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 512 ≤ (i 2).val ∧ (i 2).val < win0_6.index t (2 : Fin 4) * 512 + 512; omega
  | ⟨3, _⟩ => show win0_6.index t (3 : Fin 4) * 64 ≤ (i 3).val ∧ (i 3).val < win0_6.index t (3 : Fin 4) * 64 + 64; omega

/-! ## The values -/

/-- What point t writes back to the values' array is its block of the plain projection against the values' third of
    the stacked weights. -/
theorem flushed_v (c : Dev nD) (t : Fin cfg0.N) :
    (dat0 (F := Ideal) V c).flushed 7 t = ((cfg0.win 7).blk t).view.read (Elt Ideal) (plainProj3 (V c main_arg0) (V c main_v1) (V c main_v3) 2) := by
  show (cfg0.win 7).cut (grid0.coords t) ((dat0 V c).after 7 t) = _
  rw [after0_7, out0_7_eq, weights_whole, bias_whole]
  obtain ⟨e0, e1, e2, e3⟩ := idx_v t
  funext y
  show plainBlk (iblk0 V c 0 t) (V c main_v1) (V c main_v3) 2 ((cfg0.win 7).xinj (grid0.coords t) y)
    = plainProj3 (V c main_arg0) (V c main_v1) (V c main_v3) 2 (((cfg0.win 7).blk t).view.emb y)
  have h0 : ((((cfg0.win 7).blk t).view.emb y) 0).val = t.val / 4 := by
    show win0_7.index t (0 : Fin 4) * 1 + 1 * (y 0).val = _
    have : (y 0).val < 1 := (y 0).isLt
    omega
  have h2 : ((((cfg0.win 7).blk t).view.emb y) 2).val = t.val % 4 * 512 + (y 2).val := by
    show win0_7.index t (2 : Fin 4) * 512 + 1 * (y 2).val = _
    omega
  refine plainBlk_eq_plainProj3 _ _ _ _ _ _ _ (fun d => rows_x V c t _ d _ _ h0 h2) (Fin.ext ?_) (Fin.ext ?_)
  · show win0_7.index t (1 : Fin 4) * 16 + 1 * (y 1).val = (y 1).val; omega
  · show win0_7.index t (3 : Fin 4) * 64 + 1 * (y 3).val = (y 3).val; omega

/-- An index of the values' array lies in point t's block iff each coordinate lies in the block's range on its axis. -/
theorem mem_blk_v (t : Fin cfg0.N) (i : S2x16x2048x64.Idx) :
    i ∈ ((cfg0.win 7).blk t).view.set ↔ ∀ a : Fin 4, win0_7.index t a * S1x16x512x64.size a ≤ (i a).val ∧ (i a).val < win0_7.index t a * S1x16x512x64.size a + S1x16x512x64.size a := by
  show i ∈ ((View.whole main_v6_2).slice (win0_7.rect t)).set ↔ _
  rw [View.set_slice_whole, Rect.mem_set_unit]
  exact Iff.rfl

/-- The blocks cover the values' array. -/
theorem cover_v (i : S2x16x2048x64.Idx) : ∃ t : Fin cfg0.N, (cfg0.win 7).flush t = true ∧ i ∈ ((cfg0.win 7).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg0.N, t.val = (i 0).val * 4 + (i 2).val / 512 :=
    ⟨⟨(i 0).val * 4 + (i 2).val / 512, by show _ < 8; omega⟩, rfl⟩
  refine ⟨t, flush0_7 t, ?_⟩
  rw [mem_blk_v]
  obtain ⟨e0, e1, e2, e3⟩ := idx_v t
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 512 ≤ (i 2).val ∧ (i 2).val < win0_7.index t (2 : Fin 4) * 512 + 512; omega
  | ⟨3, _⟩ => show win0_7.index t (3 : Fin 4) * 64 ≤ (i 3).val ∧ (i 3).val < win0_7.index t (3 : Fin 4) * 64 + 64; omega

end Blocks

/-! ## The three arrays after the region -/

theorem qkv_arr5 (V : (c : Dev nD) → (b : Ref sig .tc) → Buf (Elt Ideal) ((c : Thread nD τ).loc b)) (c : Dev nD) :
    (dat0 (F := Ideal) V c).arrAt 5 cfg0.N = rotProj3 (V c main_arg0) (V c main_arg1) (V c main_arg2) (V c main_v1) (V c main_v3) 0 := by
  exact (dat0 (F := Ideal) V c).arrAt_eq_of_cover 5 (rotProj3 (V c main_arg0) (V c main_arg1) (V c main_arg2) (V c main_v1) (V c main_v3) 0)
    (fun t _ => flushed_q V c t) cover_q

theorem qkv_arr6 (V : (c : Dev nD) → (b : Ref sig .tc) → Buf (Elt Ideal) ((c : Thread nD τ).loc b)) (c : Dev nD) :
    (dat0 (F := Ideal) V c).arrAt 6 cfg0.N = rotProj3 (V c main_arg0) (V c main_arg1) (V c main_arg2) (V c main_v1) (V c main_v3) 1 := by
  exact (dat0 (F := Ideal) V c).arrAt_eq_of_cover 6 (rotProj3 (V c main_arg0) (V c main_arg1) (V c main_arg2) (V c main_v1) (V c main_v3) 1)
    (fun t _ => flushed_k V c t) cover_k

theorem qkv_arr7 (V : (c : Dev nD) → (b : Ref sig .tc) → Buf (Elt Ideal) ((c : Thread nD τ).loc b)) (c : Dev nD) :
    (dat0 (F := Ideal) V c).arrAt 7 cfg0.N = plainProj3 (V c main_arg0) (V c main_v1) (V c main_v3) 2 := by
  exact (dat0 (F := Ideal) V c).arrAt_eq_of_cover 7 (plainProj3 (V c main_arg0) (V c main_v1) (V c main_v3) 2)
    (fun t _ => flushed_v V c t) cover_v

end Cert.Val

end
-- ==== Proof.AttnBlock.lean ====
/-
  What the second pallas_call's body stores into its output block, as a function of its six input blocks at the ideal
  values: per head the exponentials of the scores over the row maximum, their products with the values summed and
  divided by the exponentials' sum; the sixteen heads side by side, times the output weights, plus the bias.
-/
import proofs.«400326_j61744449847642_3_alg».proof.Proof.IdealAttnData
import proofs.«400326_j61744449847642_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.Val

open Idealize.ShloMosaic Idealize.ShloMosaic.TcCoe Idealize.ShloMosaic.ValueIdx Idealize.SL.Sem
open Cert.Spec
open Idealize.ShloMosaic.Pipeline (Dat)
open Cert.KernelIdeal Cert.KernelIdeal.Gen Cert.KernelIdeal.Frm

namespace AttnBlock

section Heads
variable {F : FTy → Type} [FloatOps F]

/-- One head's output block [256, 64] from the mask rows and the head's queries, keys and values: the scores
    q·kᵀ/8 + mask, their exponentials over the row maximum, the exponentials' products with the values summed over
    the keys, divided by the exponentials' row sum. -/
def headFn (xm : Vec F S256x2048 .f32) (q : Vec F S1x1x256x64 .bf16) (k v : Vec F S1x1x2048x64 .bf16) : FVec F S256x64 .f32 :=
  k1_pay3 (k1_pay1 (k1_pay37 xm q k)) (k1_pay2 (k1_pay36 v) (k1_pay1 (k1_pay37 xm q k)))

/-! The sixteen heads are written out one after another in the body; each is the same function of its own slices. -/

theorem head0_eq (xm : Vec F S256x2048 .f32) (q : Vec F S1x1x256x64 .bf16) (k v : Vec F S1x1x2048x64 .bf16) :
    k1_pay5 xm q k v = headFn xm q k v := rfl
theorem head1_eq (xm : Vec F S256x2048 .f32) (q : Vec F S1x1x256x64 .bf16) (k v : Vec F S1x1x2048x64 .bf16) :
    k1_pay8 xm (k1_pay6 q) (k1_pay7 k) v = headFn xm q k v := rfl
theorem head2_eq (xm : Vec F S256x2048 .f32) (q : Vec F S1x1x256x64 .bf16) (k v : Vec F S1x1x2048x64 .bf16) :
    k1_pay9 xm q k v = headFn xm q k v := rfl
theorem head3_eq (xm : Vec F S256x2048 .f32) (q : Vec F S1x1x256x64 .bf16) (k v : Vec F S1x1x2048x64 .bf16) :
    k1_pay10 xm q k v = headFn xm q k v := rfl
theorem head4_eq (xm : Vec F S256x2048 .f32) (q : Vec F S1x1x256x64 .bf16) (k v : Vec F S1x1x2048x64 .bf16) :
    k1_pay13 xm (k1_pay11 v) (k1_pay12 q k) = headFn xm q k v := rfl
theorem head5_eq (xm : Vec F S256x2048 .f32) (q : Vec F S1x1x256x64 .bf16) (k v : Vec F S1x1x2048x64 .bf16) :
    k1_pay14 xm q k v = headFn xm q k v := rfl
theorem head6_eq (xm : Vec F S256x2048 .f32) (q : Vec F S1x1x256x64 .bf16) (k v : Vec F S1x1x2048x64 .bf16) :
    k1_pay16 xm (k1_pay15 q) k v = headFn xm q k v := rfl
theorem head7_eq (xm : Vec F S256x2048 .f32) (q : Vec F S1x1x256x64 .bf16) (k v : Vec F S1x1x2048x64 .bf16) :
    k1_pay19 (k1_pay17 v) (k1_pay18 xm q k) = headFn xm q k v := rfl
theorem head8_eq (xm : Vec F S256x2048 .f32) (q : Vec F S1x1x256x64 .bf16) (k v : Vec F S1x1x2048x64 .bf16) :
    k1_pay20 xm q k v = headFn xm q k v := rfl
theorem head9_eq (xm : Vec F S256x2048 .f32) (q : Vec F S1x1x256x64 .bf16) (k v : Vec F S1x1x2048x64 .bf16) :
    k1_pay23 xm (k1_pay21 q) (k1_pay22 k) v = headFn xm q k v := rfl
theorem head10_eq (xm : Vec F S256x2048 .f32) (q : Vec F S1x1x256x64 .bf16) (k v : Vec F S1x1x2048x64 .bf16) :
    k1_pay28 (k1_pay24 v) (k1_pay26 xm q k) (k1_pay27 xm q k) (constant S256x64 .f32 0#32) = headFn xm q k v := rfl
theorem head11_eq (xm : Vec F S256x2048 .f32) (q : Vec F S1x1x256x64 .bf16) (k v : Vec F S1x1x2048x64 .bf16) :
    k1_pay29 xm q k v = headFn xm q k v := rfl
theorem head12_eq (xm : Vec F S256x2048 .f32) (q : Vec F S1x1x256x64 .bf16) (k v : Vec F S1x1x2048x64 .bf16) :
    k1_pay33 xm (k1_pay30 q) (k1_pay31 k) (k1_pay32 v) (constant S256x2048 .f32 0#32) = headFn xm q k v := rfl
theorem head13_eq (xm : Vec F S256x2048 .f32) (q : Vec F S1x1x256x64 .bf16) (k v : Vec F S1x1x2048x64 .bf16) :
    k1_pay34 xm q k v = headFn xm q k v := rfl
theorem head14_eq (xm : Vec F S256x2048 .f32) (q : Vec F S1x1x256x64 .bf16) (k v : Vec F S1x1x2048x64 .bf16) :
    k1_pay35 xm q k v = headFn xm q k v := rfl
theorem head15_eq (xm : Vec F S256x2048 .f32) (q : Vec F S1x1x256x64 .bf16) (k v : Vec F S1x1x2048x64 .bf16) :
    k1_pay3 (k1_pay1 (k1_pay37 xm q k)) (k1_pay2 (k1_pay36 v) (k1_pay1 (k1_pay37 xm q k))) = headFn xm q k v := rfl

end Heads

/-! ## Layout steps read at explicit coordinates -/

section Layout
variable {α : Type}

/-- A head's [1, 1, 256, 64] slice viewed [256, 64]: entry (r, d) is entry (0, 0, r, d). -/
theorem castQ_apply (q : S1x1x256x64.Idx → α) (r : Fin 256) (d : Fin 64) :
    shapeCast S256x64 q shapeCasts_S1x1x256x64_S256x64 (ix2 r d) = q (ix4 (0 : Fin 1) (0 : Fin 1) r d) :=
  shapeCast_apply q _ _ _ (by
    rw [Shape.rowMajor_val_four, Shape.rowMajor_val_two]
    show ((0 * 1 + 0) * 256 + r.val) * 64 + d.val = r.val * 64 + d.val
    omega)

/-- The same for the [1, 1, 2048, 64] slices of keys and values. -/
theorem castK_apply (k : S1x1x2048x64.Idx → α) (t : Fin 2048) (d : Fin 64) :
    shapeCast S2048x64 k shapeCasts_S1x1x2048x64_S2048x64 (ix2 t d) = k (ix4 (0 : Fin 1) (0 : Fin 1) t d) :=
  shapeCast_apply k _ _ _ (by
    rw [Shape.rowMajor_val_four, Shape.rowMajor_val_two]
    show ((0 * 1 + 0) * 2048 + t.val) * 64 + d.val = t.val * 64 + d.val
    omega)

/-- A row statistic [256] kept as a column [256, 1]: entry (r, 0) is entry r. -/
theorem castCol_apply (v : S256.Idx → α) (r : Fin 256) (u : Fin 1) :
    shapeCast S256x1 v shapeCasts_S256_S256x1 (ix2 r u) = v (ix1 r) :=
  shapeCast_apply v _ _ _ (by
    have hu : u.val = 0 := by omega
    rw [Shape.rowMajor_val_one, Shape.rowMajor_val_two]
    show r.val = r.val * 1 + u.val
    omega)

/-- The column spread over 2048 lanes: entry (r, t) is the column's entry (r, 0). -/
theorem bcastCol2048_apply (v : S256x1.Idx → α) (r : Fin 256) (t : Fin 2048) :
    broadcastTo S256x2048 v broadcasts_S256x1_S256x2048 (ix2 r t) = v (ix2 r (0 : Fin 1)) :=
  broadcastTo_apply v _ (ix2 r t) (ix2 r (0 : Fin 1)) fun a => by
    match a with
    | ⟨0, _⟩ => show r.val = if (256 : Nat) = 1 then 0 else r.val; rw [if_neg (by decide)]
    | ⟨1, _⟩ => show (0 : Nat) = if (1 : Nat) = 1 then 0 else t.val; rw [if_pos rfl]

/-- The column spread over 64 lanes. -/
theorem bcastCol64_apply (v : S256x1.Idx → α) (r : Fin 256) (j : Fin 64) :
    broadcastTo S256x64 v broadcasts_S256x1_S256x64 (ix2 r j) = v (ix2 r (0 : Fin 1)) :=
  broadcastTo_apply v _ (ix2 r j) (ix2 r (0 : Fin 1)) fun a => by
    match a with
    | ⟨0, _⟩ => show r.val = if (256 : Nat) = 1 then 0 else r.val; rw [if_neg (by decide)]
    | ⟨1, _⟩ => show (0 : Nat) = if (1 : Nat) = 1 then 0 else j.val; rw [if_pos rfl]

end Layout

/-! ## The two row reductions -/

/-- Row `r` of a [256, 2048] array with lane `t` put back is entry (r, t). -/
theorem liftRow (r : Fin 256) (t : Fin 2048) : reduces_S256x2048_S256.lift (ix1 r) t = ix2 r t :=
  funext fun a => Fin.ext (by match a with | ⟨0, _⟩ => rfl | ⟨1, _⟩ => rfl)

/-- The maximum over the lanes from −∞ is the row's maximum. -/
theorem rowMax_apply (s : FVec Ideal S256x2048 .f32) (r : Fin 256) :
    multiReduction (F := Ideal) .maximumf [1] S256 s 0xFF800000#32 reduces_S256x2048_S256 (.inl rfl) rfl (ix1 r)
      = rowMax (fun t => s (ix2 r t)) := by
  refine (Ideal.multiReduction_maximumf_single s 0xFF800000#32 reduces_S256x2048_S256 (.inl rfl) rfl (ix1 r)).trans ?_
  unfold rowMax negInf
  refine congrArg (fun f => (Finset.univ : Finset (Fin 2048)).fold max (Ideal.ofBits .f32 0xFF800000#32) f) ?_
  funext t
  exact congrArg s (liftRow r t)

/-- The sum over the lanes is the row's sum. -/
theorem rowSum_apply (e : FVec Ideal S256x2048 .f32) (r : Fin 256) :
    multiReduction (F := Ideal) .add [1] S256 e 0x00000000#32 reduces_S256x2048_S256 (.inl rfl) rfl (ix1 r)
      = ∑ t : Fin 2048, e (ix2 r t) := by
  refine (Ideal.multiReduction_add_single e 0x00000000#32 reduces_S256x2048_S256 (.inl rfl) rfl (ix1 r)).trans ?_
  exact Finset.sum_congr rfl fun t _ => congrArg e (liftRow r t)

/-! ## The three products, each into a zero accumulator, read at an index

Scores: rows of queries against rows of keys, both contracted on their lane axis. Weighted values: the exponentials'
lanes against the values' rows. Output: the heads' 1024 columns against the weights' columns. -/

theorem qk_lhs_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem qk_rhs_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Entry (r, t) of the scores' product is Σ_d a[r, d] · b[t, d]. -/
theorem matmulQK_apply (a : FVec Ideal S256x64 .bf16) (b : FVec Ideal S2048x64 .bf16) (r : Fin 256) (t : Fin 2048) :
    matmul dot_S256x64_S2048x64_S256x2048_1_1_0_0_n_n none a b (constant (F := Ideal) S256x2048 .f32 0x00000000#32) (ix2 r t)
      = ∑ d : Fin 64, a (ix2 r d) * b (ix2 t d) := by
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r t) ((contrEquiv1 dot_S256x64_S2048x64_S256x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S256x64_S2048x64_S256x2048_1_1_0_0_n_n.rhsIdx (ix2 r t) ((contrEquiv1 dot_S256x64_S2048x64_S256x2048_1_1_0_0_n_n 64 rfl rfl).symm k) = ix2 t k := funext fun a => Fin.ext (by
    match a with
    | ⟨0, _⟩ => exact qk_rhs_0 _ _
    | ⟨1, _⟩ => exact (qk_rhs_1 _ _).trans hk)
  rw [el, er]

theorem pv_lhs_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem pv_rhs_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem pv_rhs_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry (r, j) of the weighted values is Σ_t a[r, t] · b[t, j]. -/
theorem matmulPV_apply (a : FVec Ideal S256x2048 .bf16) (b : FVec Ideal S2048x64 .bf16) (r : Fin 256) (j : Fin 64) :
    matmul dot_S256x2048_S2048x64_S256x64_1_0_0_1_n_n none a b (constant (F := Ideal) S256x64 .f32 0x00000000#32) (ix2 r j)
      = ∑ t : Fin 2048, a (ix2 r t) * b (ix2 t j) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r j) ((contrEquiv1 dot_S256x2048_S2048x64_S256x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S256x2048_S2048x64_S256x64_1_0_0_1_n_n.rhsIdx (ix2 r j) ((contrEquiv1 dot_S256x2048_S2048x64_S256x64_1_0_0_1_n_n 2048 rfl rfl).symm k) = ix2 k j := funext fun a => Fin.ext (by
    match a with
    | ⟨0, _⟩ => exact (pv_rhs_0 _ _).trans hk
    | ⟨1, _⟩ => exact pv_rhs_1 _ _)
  rw [el, er]

theorem ow_lhs_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem ow_lhs_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem ow_rhs_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem ow_rhs_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Entry (r, n) of the output product is Σ_d a[r, d] · b[n, d]. -/
theorem matmulOW_apply (a : FVec Ideal S256x1024 .bf16) (b : FVec Ideal S1024x1024 .bf16) (r : Fin 256) (n : Fin 1024) :
    matmul dot_S256x1024_S1024x1024_S256x1024_1_1_0_0_n_n none a b (constant (F := Ideal) S256x1024 .f32 0x00000000#32) (ix2 r n)
      = ∑ d : Fin 1024, a (ix2 r d) * b (ix2 n d) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r n) ((contrEquiv1 dot_S256x1024_S1024x1024_S256x1024_1_1_0_0_n_n 1024 rfl rfl).symm k) = ix2 r k := funext fun a => Fin.ext (by
    match a with
    | ⟨0, _⟩ => exact ow_lhs_0 _ _
    | ⟨1, _⟩ => exact (ow_lhs_1 _ _).trans hk)
  have er : dot_S256x1024_S1024x1024_S256x1024_1_1_0_0_n_n.rhsIdx (ix2 r n) ((contrEquiv1 dot_S256x1024_S1024x1024_S256x1024_1_1_0_0_n_n 1024 rfl rfl).symm k) = ix2 n k := funext fun a => Fin.ext (by
    match a with
    | ⟨0, _⟩ => exact ow_rhs_0 _ _
    | ⟨1, _⟩ => exact (ow_rhs_1 _ _).trans hk)
  rw [el, er]

/-! ## One head, stage by stage, at the ideal values -/

/-- The scores: Σ_d q[r, d] · k[t, d], times 1/8, plus the mask. -/
theorem scoreStage_apply (xm : FVec Ideal S256x2048 .f32) (q : FVec Ideal S1x1x256x64 .bf16) (k : FVec Ideal S1x1x2048x64 .bf16)
    (r : Fin 256) (t : Fin 2048) :
    k1_pay37 (F := Ideal) xm q k (ix2 r t)
      = (∑ d : Fin 64, q (ix4 (0 : Fin 1) (0 : Fin 1) r d) * k (ix4 (0 : Fin 1) (0 : Fin 1) t d)) * scale + xm (ix2 r t) := by
  unfold k1_pay37
  refine congrArg (fun m => m * scale + xm (ix2 r t)) ?_
  refine (matmulQK_apply _ _ r t).trans ?_
  exact Finset.sum_congr rfl fun d _ => congrArg₂ (· * ·) (castQ_apply q r d) (castK_apply k t d)

/-- The exponentials of the scores over their row maximum. -/
theorem expStage_apply (s : FVec Ideal S256x2048 .f32) (r : Fin 256) (t : Fin 2048) :
    k1_pay1 (F := Ideal) s (ix2 r t) = expo (fun t' => s (ix2 r t')) t := by
  unfold k1_pay1 expo
  refine congrArg (fun m => Ideal.exp (s (ix2 r t) - m)) ?_
  refine (bcastCol2048_apply _ r t).trans ?_
  refine (castCol_apply _ r 0).trans ?_
  exact rowMax_apply s r

/-- A head's values [1, 1, 2048, 64] viewed [2048, 64]. -/
theorem valStage_apply (v : FVec Ideal S1x1x2048x64 .bf16) (t : Fin 2048) (j : Fin 64) :
    k1_pay36 (F := Ideal) v (ix2 t j) = v (ix4 (0 : Fin 1) (0 : Fin 1) t j) := by
  unfold k1_pay36
  exact castK_apply v t j

/-- The exponentials' products with the values, summed over the keys. -/
theorem numStage_apply (vv : FVec Ideal S2048x64 .bf16) (e : FVec Ideal S256x2048 .f32) (r : Fin 256) (j : Fin 64) :
    k1_pay2 (F := Ideal) vv e (ix2 r j) = ∑ t : Fin 2048, e (ix2 r t) * vv (ix2 t j) := by
  unfold k1_pay2
  exact matmulPV_apply _ vv r j

/-- The division by the exponentials' row sum. -/
theorem divStage_apply (e : FVec Ideal S256x2048 .f32) (num : FVec Ideal S256x64 .f32) (r : Fin 256) (j : Fin 64) :
    k1_pay3 (F := Ideal) e num (ix2 r j) = Ideal.div (num (ix2 r j)) (∑ t : Fin 2048, e (ix2 r t)) := by
  unfold k1_pay3
  refine congrArg (fun m => Ideal.div (num (ix2 r j)) m) ?_
  refine (bcastCol64_apply _ r j).trans ?_
  refine (castCol_apply _ r 0).trans ?_
  exact rowSum_apply e r

/-- One head at row `r`, lane `j`: the exponentials of the row's scores over their maximum, times the values, summed
    over the keys, over the exponentials' sum. -/
theorem headFn_apply (xm : FVec Ideal S256x2048 .f32) (q : FVec Ideal S1x1x256x64 .bf16) (k v : FVec Ideal S1x1x2048x64 .bf16)
    (r : Fin 256) (j : Fin 64) :
    headFn (F := Ideal) xm q k v (ix2 r j)
      = Ideal.div
          (∑ t : Fin 2048, expo (fun t' => (∑ d : Fin 64, q (ix4 (0 : Fin 1) (0 : Fin 1) r d) * k (ix4 (0 : Fin 1) (0 : Fin 1) t' d)) * scale + xm (ix2 r t')) t
              * v (ix4 (0 : Fin 1) (0 : Fin 1) t j))
          (denom (fun t' => (∑ d : Fin 64, q (ix4 (0 : Fin 1) (0 : Fin 1) r d) * k (ix4 (0 : Fin 1) (0 : Fin 1) t' d)) * scale + xm (ix2 r t'))) := by
  unfold headFn
  rw [divStage_apply, numStage_apply]
  have hs : (fun t' => k1_pay37 (F := Ideal) xm q k (ix2 r t'))
      = fun t' => (∑ d : Fin 64, q (ix4 (0 : Fin 1) (0 : Fin 1) r d) * k (ix4 (0 : Fin 1) (0 : Fin 1) t' d)) * scale + xm (ix2 r t') :=
    funext fun t' => scoreStage_apply xm q k r t'
  simp only [expStage_apply, valStage_apply, hs]
  rfl

/-! ## The heads' slices of the three blocks -/

section Slices
variable {F : FTy → Type} [FloatOps F]

theorem inbQ (h : Fin 16) : ∀ a, (![0, h.val, 0, 0] : Fin 4 → Nat) a + S1x1x256x64.size a ≤ S1x16x256x64.size a := fun a => by
  match a with
  | ⟨0, _⟩ => show 0 + 1 ≤ 1; omega
  | ⟨1, _⟩ => show h.val + 1 ≤ 16; omega
  | ⟨2, _⟩ => show 0 + 256 ≤ 256; omega
  | ⟨3, _⟩ => show 0 + 64 ≤ 64; omega

theorem inbK (h : Fin 16) : ∀ a, (![0, h.val, 0, 0] : Fin 4 → Nat) a + S1x1x2048x64.size a ≤ S1x16x2048x64.size a := fun a => by
  match a with
  | ⟨0, _⟩ => show 0 + 1 ≤ 1; omega
  | ⟨1, _⟩ => show h.val + 1 ≤ 16; omega
  | ⟨2, _⟩ => show 0 + 2048 ≤ 2048; omega
  | ⟨3, _⟩ => show 0 + 64 ≤ 64; omega

/-- Head `h`'s queries: the [1, 1, 256, 64] slice at (0, h, 0, 0) of the block. -/
def qSlice (x0 : Vec F S1x16x256x64 .bf16) (h : Fin 16) : Vec F S1x1x256x64 .bf16 :=
  View.ld x0 (Rect.unit (s := S1x16x256x64) ![0, h.val, 0, 0] S1x1x256x64.size (inbQ h))

/-- Head `h`'s keys or values: the [1, 1, 2048, 64] slice at (0, h, 0, 0). -/
def kSlice (x1 : Vec F S1x16x2048x64 .bf16) (h : Fin 16) : Vec F S1x1x2048x64 .bf16 :=
  View.ld x1 (Rect.unit (s := S1x16x2048x64) ![0, h.val, 0, 0] S1x1x2048x64.size (inbK h))

theorem qSlice_apply (x0 : Vec F S1x16x256x64 .bf16) (h : Fin 16) (r : Fin 256) (d : Fin 64) :
    qSlice x0 h (ix4 (0 : Fin 1) (0 : Fin 1) r d) = x0 (ix4 (0 : Fin 1) h r d) := by
  unfold qSlice
  refine congrArg x0 (funext fun a => Fin.ext ?_)
  match a with
  | ⟨0, _⟩ => rfl
  | ⟨1, _⟩ => show h.val + 1 * 0 = h.val; omega
  | ⟨2, _⟩ => show 0 + 1 * r.val = r.val; omega
  | ⟨3, _⟩ => show 0 + 1 * d.val = d.val; omega

theorem kSlice_apply (x1 : Vec F S1x16x2048x64 .bf16) (h : Fin 16) (t : Fin 2048) (d : Fin 64) :
    kSlice x1 h (ix4 (0 : Fin 1) (0 : Fin 1) t d) = x1 (ix4 (0 : Fin 1) h t d) := by
  unfold kSlice
  refine congrArg x1 (funext fun a => Fin.ext ?_)
  match a with
  | ⟨0, _⟩ => rfl
  | ⟨1, _⟩ => show h.val + 1 * 0 = h.val; omega
  | ⟨2, _⟩ => show 0 + 1 * t.val = t.val; omega
  | ⟨3, _⟩ => show 0 + 1 * d.val = d.val; omega

end Slices

/-- Head `h` of the block at row `r`, lane `j`, in the specification's words. -/
theorem head_eq_headBlk (x0 : Vec Ideal S1x16x256x64 .bf16) (x1 x2 : Vec Ideal S1x16x2048x64 .bf16) (x3 : Vec Ideal S256x2048 .f32)
    (h : Fin 16) (r : Fin 256) (j : Fin 64) :
    headFn (F := Ideal) x3 (qSlice x0 h) (kSlice x1 h) (kSlice x2 h) (ix2 r j) = headBlk x0 x1 x2 x3 h r j := by
  rw [headFn_apply]
  unfold headBlk scoreBlk
  simp only [qSlice_apply, kSlice_apply]

/-! ## The heads side by side, the output product and the bias -/

/-- Column `d` of sixteen [256, 64] pieces laid side by side is lane `d % 64` of piece `d / 64`. -/
theorem cat_apply {α : Type} (f : Fin 16 → (S256x64.Idx → α))
    (hc : Shape.Concatenates ((List.ofFn fun h : Fin 16 => (⟨S256x64, f h⟩ : (s : Shape) × (s.Idx → α))).map (·.1)) S256x1024 1)
    (r : Fin 256) (d : Fin 1024) :
    concatenate S256x1024 1 (List.ofFn fun h : Fin 16 => (⟨S256x64, f h⟩ : (s : Shape) × (s.Idx → α))) hc (ix2 r d)
      = f (headOf d) (ix2 r (laneOf d)) :=
  concatenate_ofFn_apply (1 : Fin S256x1024.rank) f hc rfl 64 rfl (ix2 r d) (headOf d) rfl (ix2 r (laneOf d)) rfl
    (fun b hb => by
      match b with
      | ⟨0, _⟩ => rfl
      | ⟨1, _⟩ => exact absurd rfl hb)

/-- The stored block at (0, r, n): Σ_d o[r, d] · w[n, d] + b[0, n] over the side-by-side heads `o`. -/
theorem outStage_apply (cat : FVec Ideal S256x1024 .f32) (w : FVec Ideal S1024x1024 .bf16) (b : FVec Ideal S1x1024 .f32)
    (u : Fin 1) (r : Fin 256) (n : Fin 1024) :
    k1_pay4 (F := Ideal) cat w b (ix3 u r n) = (∑ d : Fin 1024, cat (ix2 r d) * w (ix2 n d)) + b (ix2 (0 : Fin 1) n) := by
  unfold k1_pay4
  refine (shapeCast_ab_1ab_apply _ _ u r n).trans ?_
  refine congrArg₂ (· + ·) ?_ ?_
  · refine (matmulOW_apply _ _ r n).trans ?_
    exact Finset.sum_congr rfl fun d _ => congrArg (cat (ix2 r d) * ·) (congrFun (shapeCast_self w _) (ix2 n d))
  · refine (broadcastTo_1b_ab_apply _ _ r n).trans ?_
    exact congrFun (shapeCast_self b _) (ix2 (0 : Fin 1) n)

/-! ## The stored block

The body stores one rectangle, the whole output block; its payload is the output product of the sixteen heads' blocks
laid side by side. Each head is `headFn` of the head's slices; column `d` of the side-by-side array is lane `d % 64`
of head `d / 64`. -/

theorem zeros2 : (![0, 0] : Fin 2 → Nat) = fun _ => 0 := funext fun a => by
  match a with
  | ⟨0, _⟩ => rfl
  | ⟨1, _⟩ => rfl
theorem zeros3 : (![0, 0, 0] : Fin 3 → Nat) = fun _ => 0 := funext fun a => by
  match a with
  | ⟨0, _⟩ => rfl
  | ⟨1, _⟩ => rfl
  | ⟨2, _⟩ => rfl

end AttnBlock

open AttnBlock

theorem out1_6_eq (c : Dev nD) (i : grid1.Coords) (arg2 : Memref sig .tc .vmem S1x16x256x64 .bf16) (harg2 : arg2.IsWhole) (arg3 : Memref sig .tc .vmem S1x16x2048x64 .bf16) (harg3 : arg3.IsWhole) (arg4 : Memref sig .tc .vmem S1x16x2048x64 .bf16) (harg4 : arg4.IsWhole) (arg5 : Memref sig .tc .vmem S256x2048 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x256x1024 .f32) (harg8 : arg8.IsWhole)
    (x0 : Vec Ideal S1x16x256x64 .bf16) (x1 : Vec Ideal S1x16x2048x64 .bf16) (x2 : Vec Ideal S1x16x2048x64 .bf16) (x3 : Vec Ideal S256x2048 .f32) (x4 : Vec Ideal S1024x1024 .bf16) (x5 : Vec Ideal S1x1024 .f32) :
    out1_6 (F := Ideal) c i arg2 harg2 arg3 harg3 arg4 harg4 arg5 harg5 arg6 harg6 arg7 harg7 arg8 harg8 x0 x1 x2 x3 x4 x5 = attnBlk x0 x1 x2 x3 x4 x5 := by
  unfold out1_6
  rw [View.read_writes_eq_canon _ _ _ (cover1_6 c i arg2 harg2 arg3 harg3 arg4 harg4 arg5 harg5 arg6 harg6 arg7 harg7 arg8 harg8 x0 x1 x2 x3 x4 x5)]
  unfold kernelRun1; dsimp only; sl_unfold_words
  rw [View.canon_unit_zero zeros3]
  simp only [View.readAt_eq_ld]
  simp only [harg6.read_unread, harg7.read_unread, View.ld_unit_zero (S := S1024x1024) zeros2, View.ld_unit_zero (S := S1x1024) zeros2]
  rw [harg2.read_unread, harg3.read_unread, harg4.read_unread, harg5.read_unread, View.ld_unit_zero (S := S256x2048) zeros2]
  rw [head0_eq, head1_eq, head2_eq, head3_eq, head4_eq, head5_eq, head6_eq, head7_eq, head8_eq, head9_eq, head10_eq,
    head11_eq, head12_eq, head13_eq, head14_eq, head15_eq]
  funext y
  obtain ⟨u, r, n, rfl⟩ : ∃ (u : Fin 1) (r : Fin 256) (n : Fin 1024), y = ix3 u r n := ⟨y 0, y 1, y 2, eq_ix3 y⟩
  refine (outStage_apply _ _ _ u r n).trans ?_
  unfold attnBlk
  refine congrArg (· + x5 (ix2 (0 : Fin 1) n)) (Finset.sum_congr rfl fun d _ => congrArg (· * x4 (ix2 n d)) ?_)
  refine (cat_apply (fun h => headFn (F := Ideal) x3 (qSlice x0 h) (kSlice x1 h) (kSlice x2 h)) _ r d).trans ?_
  exact head_eq_headBlk x0 x1 x2 x3 (headOf d) r (laneOf d)

end Cert.Val

end
-- ==== Proof.AttnArray.lean ====
/-
  The array the second pallas_call leaves ([2, 2048, 1024]) as a whole-array function of the arrays it reads: grid
  point (b, s) writes rows 256·s … 256·s + 255 of batch entry b, and these blocks cover the array.
-/
import proofs.«400326_j61744449847642_3_alg».proof.Proof.AttnBlock
import Idealize.ShloMosaic.Lib.Pipeline.Value

set_option maxRecDepth 16384

noncomputable section

namespace Cert.Val

open Idealize.ShloMosaic Idealize.ShloMosaic.TcCoe Idealize.ShloMosaic.ValueIdx Idealize.SL.Sem
open Cert.Spec
open Idealize.ShloMosaic.Pipeline (Dat)
open Cert.KernelIdeal Cert.KernelIdeal.Gen Cert.KernelIdeal.Frm

/-! ## The index maps, decided over the sixteen grid points

Point `t` is (b, s) with the output's block at (b, s, 0): the queries' block sits at (b, 0, s, 0), the keys' and the
values' at (b, 0, 0, 0), the mask's at (s, 0), the weights' and the bias's at the origin. -/

theorem idx_facts1 : ∀ t : Fin cfg1.N,
    win1_0.index t (0 : Fin 4) = win1_6.index t (0 : Fin 3)
    ∧ win1_0.index t (1 : Fin 4) = 0
    ∧ win1_0.index t (2 : Fin 4) = win1_6.index t (1 : Fin 3)
    ∧ win1_0.index t (3 : Fin 4) = 0
    ∧ win1_1.index t (0 : Fin 4) = win1_6.index t (0 : Fin 3)
    ∧ win1_1.index t (1 : Fin 4) = 0
    ∧ win1_1.index t (2 : Fin 4) = 0
    ∧ win1_1.index t (3 : Fin 4) = 0
    ∧ win1_2.index t (0 : Fin 4) = win1_6.index t (0 : Fin 3)
    ∧ win1_2.index t (1 : Fin 4) = 0
    ∧ win1_2.index t (2 : Fin 4) = 0
    ∧ win1_2.index t (3 : Fin 4) = 0
    ∧ win1_3.index t (0 : Fin 2) = win1_6.index t (1 : Fin 3)
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 3) ≤ 1
    ∧ win1_6.index t (1 : Fin 3) ≤ 7
    ∧ win1_6.index t (2 : Fin 3) = 0 :=
  (by decide +kernel : ∀ t : Fin grid1.N, _)

/-- Every block (b, s) of the output is some point's. -/
theorem idx_onto1 : ∀ (q0 : Fin 2) (q1 : Fin 8), ∃ t : Fin cfg1.N,
    win1_6.index t (0 : Fin 3) = q0.val ∧ win1_6.index t (1 : Fin 3) = q1.val :=
  (by decide +kernel : ∀ (q0 : Fin 2) (q1 : Fin 8), ∃ t : Fin grid1.N,
    win1_6.index t (0 : Fin 3) = q0.val ∧ win1_6.index t (1 : Fin 3) = q1.val)

/-- The output is written back at every point. -/
theorem flush1_6 : ∀ t : Fin cfg1.N, (cfg1.win 6).flush t = true :=
  (by decide +kernel : ∀ t : Fin grid1.N, win1_6.flush t = true)

section Blocks

variable (V : (c : Dev nD) → (b : Ref sig .tc) → Buf (Elt Ideal) ((c : Thread nD τ).loc b)) (c : Dev nD)

/-! ## Each input block, read at an index, is its array at the block's place

A block's coordinate in its array is, per axis, the block index times the block's extent plus the coordinate inside
the block. -/

/-- The queries' block at point (b, s): head `h`, row `r`, lane `d` is row `256·s + r` of batch entry `b`. -/
theorem blk0_apply (t : Fin cfg1.N) (h : Fin 16) (r : Fin 256) (d : Fin 64) (b : Fin 2) (s : Fin 2048)
    (hb : b.val = win1_6.index t (0 : Fin 3)) (hs : s.val = win1_6.index t (1 : Fin 3) * 256 + r.val) :
    (iblk1 (F := Ideal) V c 0 t : A4 1 16 256 64) (ix4 0 h r d) = (V c main_v6_0 : A4 2 16 2048 64) (ix4 b h s d) := by
  obtain ⟨e0, e1, e2, e3, -⟩ := idx_facts1 t
  unfold iblk1
  rw [View.read_apply]
  show V c main_v6_0 _ = V c main_v6_0 _
  congr 1
  funext a
  apply Fin.ext
  match a with
  | ⟨0, _⟩ => show win1_0.index t (0 : Fin 4) * 1 + 1 * 0 = b.val; omega
  | ⟨1, _⟩ => show win1_0.index t (1 : Fin 4) * 16 + 1 * h.val = h.val; omega
  | ⟨2, _⟩ => show win1_0.index t (2 : Fin 4) * 256 + 1 * r.val = s.val; omega
  | ⟨3, _⟩ => show win1_0.index t (3 : Fin 4) * 64 + 1 * d.val = d.val; omega

/-- The keys' block at point (b, s) is all of batch entry `b`. -/
theorem blk1_apply (t : Fin cfg1.N) (h : Fin 16) (k : Fin 2048) (d : Fin 64) (b : Fin 2)
    (hb : b.val = win1_6.index t (0 : Fin 3)) :
    (iblk1 (F := Ideal) V c 1 t : A4 1 16 2048 64) (ix4 0 h k d) = (V c main_v6_1 : A4 2 16 2048 64) (ix4 b h k d) := by
  obtain ⟨-, -, -, -, e0, e1, e2, e3, -⟩ := idx_facts1 t
  unfold iblk1
  rw [View.read_apply]
  show V c main_v6_1 _ = V c main_v6_1 _
  congr 1
  funext a
  apply Fin.ext
  match a with
  | ⟨0, _⟩ => show win1_1.index t (0 : Fin 4) * 1 + 1 * 0 = b.val; omega
  | ⟨1, _⟩ => show win1_1.index t (1 : Fin 4) * 16 + 1 * h.val = h.val; omega
  | ⟨2, _⟩ => show win1_1.index t (2 : Fin 4) * 2048 + 1 * k.val = k.val; omega
  | ⟨3, _⟩ => show win1_1.index t (3 : Fin 4) * 64 + 1 * d.val = d.val; omega

/-- The values' block at point (b, s) is all of batch entry `b`. -/
theorem blk2_apply (t : Fin cfg1.N) (h : Fin 16) (k : Fin 2048) (d : Fin 64) (b : Fin 2)
    (hb : b.val = win1_6.index t (0 : Fin 3)) :
    (iblk1 (F := Ideal) V c 2 t : A4 1 16 2048 64) (ix4 0 h k d) = (V c main_v6_2 : A4 2 16 2048 64) (ix4 b h k d) := by
  obtain ⟨-, -, -, -, -, -, -, -, e0, e1, e2, e3, -⟩ := idx_facts1 t
  unfold iblk1
  rw [View.read_apply]
  show V c main_v6_2 _ = V c main_v6_2 _
  congr 1
  funext a
  apply Fin.ext
  match a with
  | ⟨0, _⟩ => show win1_2.index t (0 : Fin 4) * 1 + 1 * 0 = b.val; omega
  | ⟨1, _⟩ => show win1_2.index t (1 : Fin 4) * 16 + 1 * h.val = h.val; omega
  | ⟨2, _⟩ => show win1_2.index t (2 : Fin 4) * 2048 + 1 * k.val = k.val; omega
  | ⟨3, _⟩ => show win1_2.index t (3 : Fin 4) * 64 + 1 * d.val = d.val; omega

/-- The mask's block at point (b, s): row `r` is the mask's row `256·s + r`. -/
theorem blk3_apply (t : Fin cfg1.N) (r : Fin 256) (k : Fin 2048) (s : Fin 2048)
    (hs : s.val = win1_6.index t (1 : Fin 3) * 256 + r.val) :
    (iblk1 (F := Ideal) V c 3 t : A2 256 2048) (ix2 r k) = (V c main_arg3 : A2 2048 2048) (ix2 s k) := by
  obtain ⟨-, -, -, -, -, -, -, -, -, -, -, -, e0, e1, -⟩ := idx_facts1 t
  unfold iblk1
  rw [View.read_apply]
  show V c main_arg3 _ = V c main_arg3 _
  congr 1
  funext a
  apply Fin.ext
  match a with
  | ⟨0, _⟩ => show win1_3.index t (0 : Fin 2) * 256 + 1 * r.val = s.val; omega
  | ⟨1, _⟩ => show win1_3.index t (1 : Fin 2) * 2048 + 1 * k.val = k.val; omega

/-- The output weights' block is the whole matrix. -/
theorem blk4_apply (t : Fin cfg1.N) (n d : Fin 1024) :
    (iblk1 (F := Ideal) V c 4 t : A2 1024 1024) (ix2 n d) = (V c main_v4 : A2 1024 1024) (ix2 n d) := by
  obtain ⟨-, -, -, -, -, -, -, -, -, -, -, -, -, -, e0, e1, -⟩ := idx_facts1 t
  unfold iblk1
  rw [View.read_apply]
  show V c main_v4 _ = V c main_v4 _
  congr 1
  funext a
  apply Fin.ext
  match a with
  | ⟨0, _⟩ => show win1_4.index t (0 : Fin 2) * 1024 + 1 * n.val = n.val; omega
  | ⟨1, _⟩ => show win1_4.index t (1 : Fin 2) * 1024 + 1 * d.val = d.val; omega

/-- The bias's block is the whole row. -/
theorem blk5_apply (t : Fin cfg1.N) (n : Fin 1024) :
    (iblk1 (F := Ideal) V c 5 t : A2 1 1024) (ix2 0 n) = (V c main_v5 : A2 1 1024) (ix2 0 n) := by
  obtain ⟨-, -, -, -, -, -, -, -, -, -, -, -, -, -, -, -, e0, e1, -⟩ := idx_facts1 t
  unfold iblk1
  rw [View.read_apply]
  show V c main_v5 _ = V c main_v5 _
  congr 1
  funext a
  apply Fin.ext
  match a with
  | ⟨0, _⟩ => show win1_5.index t (0 : Fin 2) * 1 + 1 * 0 = 0; omega
  | ⟨1, _⟩ => show win1_5.index t (1 : Fin 2) * 1024 + 1 * n.val = n.val; omega

/-! ## The body's function of the point's blocks is the whole-array function at the block's place -/

/-- At point (b, s), row `r` of the block against key row `k` scores as row `256·s + r` of batch entry `b` does. -/
theorem scoreBlk_iblk (t : Fin cfg1.N) (h : Fin 16) (r : Fin 256) (b : Fin 2) (s : Fin 2048)
    (hb : b.val = win1_6.index t (0 : Fin 3)) (hs : s.val = win1_6.index t (1 : Fin 3) * 256 + r.val) :
    scoreBlk (iblk1 (F := Ideal) V c 0 t) (iblk1 (F := Ideal) V c 1 t) (iblk1 (F := Ideal) V c 3 t) h r
      = score (V c main_v6_0) (V c main_v6_1) (V c main_arg3) b h s := by
  funext k
  unfold scoreBlk score
  rw [blk3_apply V c t r k s hs]
  congr 2
  exact Finset.sum_congr rfl fun d _ => by rw [blk0_apply V c t h r d b s hb hs, blk1_apply V c t h k d b hb]

/-- So the head's output there is the whole arrays' head output at that row. -/
theorem headBlk_iblk (t : Fin cfg1.N) (h : Fin 16) (r : Fin 256) (j : Fin 64) (b : Fin 2) (s : Fin 2048)
    (hb : b.val = win1_6.index t (0 : Fin 3)) (hs : s.val = win1_6.index t (1 : Fin 3) * 256 + r.val) :
    headBlk (iblk1 (F := Ideal) V c 0 t) (iblk1 (F := Ideal) V c 1 t) (iblk1 (F := Ideal) V c 2 t) (iblk1 (F := Ideal) V c 3 t) h r j
      = headSumThenDiv (V c main_v6_0) (V c main_v6_1) (V c main_v6_2) (V c main_arg3) b h s j := by
  unfold headBlk headSumThenDiv
  rw [scoreBlk_iblk V c t h r b s hb hs]
  congr 1
  exact Finset.sum_congr rfl fun k _ => by rw [blk2_apply V c t h k j b hb]

/-- And the body's block at row `r`, column `n` is the whole-array function at row `256·s + r` of batch entry `b`. -/
theorem attnBlk_iblk (t : Fin cfg1.N) (r : Fin 256) (n : Fin 1024) (b : Fin 2) (s : Fin 2048)
    (hb : b.val = win1_6.index t (0 : Fin 3)) (hs : s.val = win1_6.index t (1 : Fin 3) * 256 + r.val) :
    attnBlk (iblk1 (F := Ideal) V c 0 t) (iblk1 (F := Ideal) V c 1 t) (iblk1 (F := Ideal) V c 2 t) (iblk1 (F := Ideal) V c 3 t)
        (iblk1 (F := Ideal) V c 4 t) (iblk1 (F := Ideal) V c 5 t) (ix3 0 r n)
      = attnArr (V c main_v6_0) (V c main_v6_1) (V c main_v6_2) (V c main_arg3) (V c main_v4) (V c main_v5) (ix3 b s n) := by
  show (∑ d : Fin 1024, headBlk (iblk1 (F := Ideal) V c 0 t) (iblk1 (F := Ideal) V c 1 t) (iblk1 (F := Ideal) V c 2 t) (iblk1 (F := Ideal) V c 3 t) (headOf d) r (laneOf d)
          * (iblk1 (F := Ideal) V c 4 t : A2 1024 1024) (ix2 n d)) + (iblk1 (F := Ideal) V c 5 t : A2 1 1024) (ix2 0 n)
      = (∑ d : Fin 1024, headSumThenDiv (V c main_v6_0) (V c main_v6_1) (V c main_v6_2) (V c main_arg3) b (headOf d) s (laneOf d)
          * (V c main_v4 : A2 1024 1024) (ix2 n d)) + (V c main_v5 : A2 1 1024) (ix2 0 n)
  rw [blk5_apply V c t n]
  refine congrArg (fun z : EReal => z + (V c main_v5 : A2 1 1024) (ix2 0 n)) ?_
  exact Finset.sum_congr rfl fun d _ => by rw [blk4_apply V c t n d, headBlk_iblk V c t (headOf d) r (laneOf d) b s hb hs]

/-! ## What a point writes back, the cover, the array -/

/-- What point `t` writes back is its block of the whole-array function of the arrays the region finds. -/
theorem flushed1_6_eq (t : Fin cfg1.N) :
    (dat1 (F := Ideal) V c).flushed 6 t
      = ((cfg1.win 6).blk t).view.read (Elt Ideal)
          (attnArr (V c main_v6_0) (V c main_v6_1) (V c main_v6_2) (V c main_arg3) (V c main_v4) (V c main_v5)) := by
  show (cfg1.win 6).cut (grid1.coords t) ((dat1 (F := Ideal) V c).after 6 t) = _
  rw [after1_6, out1_6_eq]
  obtain ⟨-, -, -, -, -, -, -, -, -, -, -, -, -, -, -, -, -, -, l0, l1, l2⟩ := idx_facts1 t
  refine funext fun (y : (⟨3, ![1, 256, 1024]⟩ : Shape).Idx) => ?_
  obtain ⟨a, r, n, rfl⟩ : ∃ a r n, y = ix3 a r n := ⟨_, _, _, eq_ix3 y⟩
  obtain rfl : a = 0 := Fin.ext (by have := a.isLt; omega)
  show attnBlk (iblk1 (F := Ideal) V c 0 t) (iblk1 (F := Ideal) V c 1 t) (iblk1 (F := Ideal) V c 2 t) (iblk1 (F := Ideal) V c 3 t)
        (iblk1 (F := Ideal) V c 4 t) (iblk1 (F := Ideal) V c 5 t) (ix3 0 r n)
      = attnArr (V c main_v6_0) (V c main_v6_1) (V c main_v6_2) (V c main_arg3) (V c main_v4) (V c main_v5)
          (((cfg1.win 6).blk t).view.emb (ix3 0 r n))
  have hr : r.val < 256 := r.isLt
  have hemb : ((cfg1.win 6).blk t).view.emb (ix3 (0 : Fin 1) r n)
      = ix3 (⟨win1_6.index t (0 : Fin 3), by omega⟩ : Fin 2) (⟨win1_6.index t (1 : Fin 3) * 256 + r.val, by omega⟩ : Fin 2048) n := by
    funext a
    apply Fin.ext
    match a with
    | ⟨0, _⟩ => show win1_6.index t (0 : Fin 3) * 1 + 1 * 0 = win1_6.index t (0 : Fin 3); omega
    | ⟨1, _⟩ => show win1_6.index t (1 : Fin 3) * 256 + 1 * r.val = win1_6.index t (1 : Fin 3) * 256 + r.val; omega
    | ⟨2, _⟩ => show win1_6.index t (2 : Fin 3) * 1024 + 1 * n.val = n.val; omega
  rw [hemb]
  exact attnBlk_iblk V c t r n _ _ rfl rfl

/-- An index of the output array is in point `t`'s block iff each coordinate is in the block's range on its axis. -/
theorem mem_blk1_6 (t : Fin cfg1.N) (i : S2x2048x1024.Idx) :
    i ∈ ((cfg1.win 6).blk t).view.set ↔ ∀ a : Fin 3, win1_6.index t a * S1x256x1024.size a ≤ (i a).val
      ∧ (i a).val < win1_6.index t a * S1x256x1024.size a + S1x256x1024.size a := by
  show i ∈ ((View.whole main_v7).slice (win1_6.rect t)).set ↔ _
  rw [View.set_slice_whole, Rect.mem_set_unit]
  exact Iff.rfl

/-- Row `s` of batch entry `b` lies in the block of the point whose output block is (b, s / 256): the blocks cover the array. -/
theorem cover1_6_arr (i : S2x2048x1024.Idx) :
    ∃ t : Fin cfg1.N, (cfg1.win 6).flush t = true ∧ i ∈ ((cfg1.win 6).blk t).view.set := by
  have hi0 : (i 0).val < 2 := (i 0).isLt
  have hi1 : (i 1).val < 2048 := (i 1).isLt
  have hi2 : (i 2).val < 1024 := (i 2).isLt
  obtain ⟨t, q0, q1⟩ := idx_onto1 ⟨(i 0).val, hi0⟩ ⟨(i 1).val / 256, by omega⟩
  obtain ⟨-, -, -, -, -, -, -, -, -, -, -, -, -, -, -, -, -, -, -, -, l2⟩ := idx_facts1 t
  have q0' : win1_6.index t (0 : Fin 3) = (i 0).val := q0
  have q1' : win1_6.index t (1 : Fin 3) = (i 1).val / 256 := q1
  refine ⟨t, flush1_6 t, ?_⟩
  rw [mem_blk1_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

end Blocks

/-- The array the second pallas_call leaves: the attention and output projection of the arrays it reads. -/
theorem attn_arr (V : (c : Dev nD) → (b : Ref sig .tc) → Buf (Elt Ideal) ((c : Thread nD τ).loc b)) (c : Dev nD) :
    (dat1 (F := Ideal) V c).arrAt 6 cfg1.N
      = attnArr (V c main_v6_0) (V c main_v6_1) (V c main_v6_2) (V c main_arg3) (V c main_v4) (V c main_v5) :=
  (dat1 (F := Ideal) V c).arrAt_eq_of_cover 6
    (attnArr (V c main_v6_0) (V c main_v6_1) (V c main_v6_2) (V c main_arg3) (V c main_v4) (V c main_v5))
    (fun t _ => flushed1_6_eq V c t) (cover1_6_arr)

end Cert.Val

end
-- ==== Proof.HostValue.lean ====
/-
  What the six host operations before the first pallas_call leave, at the ideal values: the three weight matrices
  stacked, the three biases stacked as one row, the output weights unchanged (a change of float format is the
  identity), the output bias as one row; and the arguments they do not write.
-/
import proofs.«400326_j61744449847642_3_alg».proof.Proof.IdealMainRun
import proofs.«400326_j61744449847642_3_alg».proof.Proof.Spec
import Idealize.ShloMosaic.Lib.StableHlo.Run
import Idealize.ShloMosaic.Lib.Pipeline.Value
import Idealize.ShloMosaic.Lib.ValueLayout

set_option maxRecDepth 16384

noncomputable section

namespace Cert.Val

open Idealize.ShloMosaic Idealize.ShloMosaic.TcCoe Idealize.ShloMosaic.ValueIdx Idealize.SL.Sem
open Cert.Spec
open Idealize.ShloMosaic.Pipeline (Dat)
open Cert.KernelIdeal Cert.KernelIdeal.Gen Cert.KernelIdeal.Frm

variable (m : (ℓ : Loc nD τ sig) → Buf (Elt Ideal) ℓ) (ρ : Dev nD → PrngReg)

/-! ## Three pieces laid end to end, read at an index -/

section Stack
variable {α : Type}

/-- Three [1024, 1024] pieces stacked along the rows, read at (n, d): the piece whose third of the 3072 rows holds
    n, at that row less the rows before the piece. -/
theorem host_concat3_rows_apply (a b c : S1024x1024.Idx → α)
    (h : Shape.Concatenates [S1024x1024, S1024x1024, S1024x1024] S3072x1024 0) (i : S3072x1024.Idx) :
    concatenate S3072x1024 0 [⟨S1024x1024, a⟩, ⟨S1024x1024, b⟩, ⟨S1024x1024, c⟩] h i
      = if h1 : (i 0).val < 1024 then a (ix2 ⟨(i 0).val, h1⟩ (i 1))
        else if h2 : (i 0).val < 2048 then b (ix2 ⟨(i 0).val - 1024, by omega⟩ (i 1))
        else c (ix2 ⟨(i 0).val - 2048, by have : (i 0).val < 3072 := (i 0).isLt; omega⟩ (i 1)) := by
  have hi3 : (i 0).val < 3072 := (i 0).isLt
  by_cases h1 : (i 0).val < 1024
  · rw [dif_pos h1]
    exact concatenate_apply_piece (t := S3072x1024) (0 : Fin 2) [⟨S1024x1024, a⟩, ⟨S1024x1024, b⟩, ⟨S1024x1024, c⟩] h i 0 (by show (0 : ℕ) < 3; omega) S1024x1024 a rfl rfl 0 rfl (ix2 ⟨(i 0).val, h1⟩ (i 1))
      (fun k hk => by
        match k with
        | ⟨0, _⟩ => exact absurd rfl hk
        | ⟨1, _⟩ => rfl)
      (by show 0 + (i 0).val = (i 0).val; omega)
  · rw [dif_neg h1]
    by_cases h2 : (i 0).val < 2048
    · rw [dif_pos h2]
      exact concatenate_apply_piece (t := S3072x1024) (0 : Fin 2) [⟨S1024x1024, a⟩, ⟨S1024x1024, b⟩, ⟨S1024x1024, c⟩] h i 1 (by show (1 : ℕ) < 3; omega) S1024x1024 b rfl rfl 1024 rfl (ix2 ⟨(i 0).val - 1024, by omega⟩ (i 1))
        (fun k hk => by
          match k with
          | ⟨0, _⟩ => exact absurd rfl hk
          | ⟨1, _⟩ => rfl)
        (by show 1024 + ((i 0).val - 1024) = (i 0).val; omega)
    · rw [dif_neg h2]
      exact concatenate_apply_piece (t := S3072x1024) (0 : Fin 2) [⟨S1024x1024, a⟩, ⟨S1024x1024, b⟩, ⟨S1024x1024, c⟩] h i 2 (by show (2 : ℕ) < 3; omega) S1024x1024 c rfl rfl 2048 rfl (ix2 ⟨(i 0).val - 2048, by omega⟩ (i 1))
        (fun k hk => by
          match k with
          | ⟨0, _⟩ => exact absurd rfl hk
          | ⟨1, _⟩ => rfl)
        (by show 2048 + ((i 0).val - 2048) = (i 0).val; omega)

/-- Three [1024] pieces laid end to end, read at n: the piece whose third of the 3072 entries holds n. -/
theorem host_concat3_vec_apply (a b c : S1024.Idx → α)
    (h : Shape.Concatenates [S1024, S1024, S1024] S3072 0) (n : Fin 3072) :
    concatenate S3072 0 [⟨S1024, a⟩, ⟨S1024, b⟩, ⟨S1024, c⟩] h (ix1 n)
      = if h1 : n.val < 1024 then a (ix1 ⟨n.val, h1⟩)
        else if h2 : n.val < 2048 then b (ix1 ⟨n.val - 1024, by omega⟩)
        else c (ix1 ⟨n.val - 2048, by have : n.val < 3072 := n.isLt; omega⟩) := by
  have hn3 : n.val < 3072 := n.isLt
  by_cases h1 : n.val < 1024
  · rw [dif_pos h1]
    exact concatenate_apply_piece (t := S3072) (0 : Fin 1) [⟨S1024, a⟩, ⟨S1024, b⟩, ⟨S1024, c⟩] h (ix1 n) 0 (by show (0 : ℕ) < 3; omega) S1024 a rfl rfl 0 rfl (ix1 ⟨n.val, h1⟩)
      (fun k hk => by
        match k with
        | ⟨0, _⟩ => exact absurd rfl hk)
      (by show 0 + n.val = n.val; omega)
  · rw [dif_neg h1]
    by_cases h2 : n.val < 2048
    · rw [dif_pos h2]
      exact concatenate_apply_piece (t := S3072) (0 : Fin 1) [⟨S1024, a⟩, ⟨S1024, b⟩, ⟨S1024, c⟩] h (ix1 n) 1 (by show (1 : ℕ) < 3; omega) S1024 b rfl rfl 1024 rfl (ix1 ⟨n.val - 1024, by omega⟩)
        (fun k hk => by
          match k with
          | ⟨0, _⟩ => exact absurd rfl hk)
        (by show 1024 + (n.val - 1024) = n.val; omega)
    · rw [dif_neg h2]
      exact concatenate_apply_piece (t := S3072) (0 : Fin 1) [⟨S1024, a⟩, ⟨S1024, b⟩, ⟨S1024, c⟩] h (ix1 n) 2 (by show (2 : ℕ) < 3; omega) S1024 c rfl rfl 2048 rfl (ix1 ⟨n.val - 2048, by omega⟩)
        (fun k hk => by
          match k with
          | ⟨0, _⟩ => exact absurd rfl hk)
        (by show 2048 + (n.val - 2048) = n.val; omega)

/-- An [a] array laid out as one row [1, a], read at (0, n): the array at n. -/
theorem host_row_apply {a : ℕ} (x : (⟨1, ![a]⟩ : Shape).Idx → α) (h : (⟨1, ![a]⟩ : Shape).ShapeCasts ⟨2, ![1, a]⟩)
    (i : (⟨2, ![1, a]⟩ : Shape).Idx) : shapeCast ⟨2, ![1, a]⟩ x h i = x (ix1 (i 1)) :=
  (congrArg (shapeCast ⟨2, ![1, a]⟩ x h) (eq_ix2 i)).trans (shapeCast_a_1a_apply x h (i 0) (i 1))

end Stack

/-! ## What each host operation leaves -/

theorem host_v1 (c : Dev nD) : V1 (F := Ideal) m ρ c main_v1 = stackW (m ((c.tc : Thread nD τ).loc main_arg4)) (m ((c.tc : Thread nD τ).loc main_arg6)) (m ((c.tc : Thread nD τ).loc main_arg8)) := by
  show StableHlo.after hostOps0 _ (Proc.devRef .tc main_v1) = _
  after_results
  funext i
  show concatenate S3072x1024 0 [⟨S1024x1024, m ((c.tc : Thread nD τ).loc main_arg4)⟩, ⟨S1024x1024, m ((c.tc : Thread nD τ).loc main_arg6)⟩,
      ⟨S1024x1024, m ((c.tc : Thread nD τ).loc main_arg8)⟩] concatenates_S1024x1024_S1024x1024_S1024x1024_S3072x1024_d0 i = _
  exact host_concat3_rows_apply _ _ _ _ i
theorem host_v3 (c : Dev nD) : V1 (F := Ideal) m ρ c main_v3 = stackB (m ((c.tc : Thread nD τ).loc main_arg5)) (m ((c.tc : Thread nD τ).loc main_arg7)) (m ((c.tc : Thread nD τ).loc main_arg9)) := by
  show StableHlo.after hostOps0 _ (Proc.devRef .tc main_v3) = _
  after_results
  beta_reduce
  after_results
  funext i
  show shapeCast S1x3072 (concatenate S3072 0 [⟨S1024, m ((c.tc : Thread nD τ).loc main_arg5)⟩, ⟨S1024, m ((c.tc : Thread nD τ).loc main_arg7)⟩,
      ⟨S1024, m ((c.tc : Thread nD τ).loc main_arg9)⟩] concatenates_S1024_S1024_S1024_S3072_d0) shapeCasts_S3072_S1x3072 i = _
  exact (host_row_apply _ _ i).trans (host_concat3_vec_apply _ _ _ _ (i 1))
theorem host_v4 (c : Dev nD) : (V1 (F := Ideal) m ρ c main_v4 : A2 1024 1024) = (m ((c.tc : Thread nD τ).loc main_arg10)) := by
  show StableHlo.after hostOps0 _ (Proc.devRef .tc main_v4) = _
  after_results
  rfl
theorem host_v5 (c : Dev nD) : V1 (F := Ideal) m ρ c main_v5 = rowOf (m ((c.tc : Thread nD τ).loc main_arg11)) := by
  show StableHlo.after hostOps0 _ (Proc.devRef .tc main_v5) = _
  after_results
  funext i
  show shapeCast S1x1024 (m ((c.tc : Thread nD τ).loc main_arg11)) shapeCasts_S1024_S1x1024 i = _
  exact host_row_apply _ _ i
theorem host_arg0 (c : Dev nD) : V1 (F := Ideal) m ρ c main_arg0 = (m ((c.tc : Thread nD τ).loc main_arg0)) := by
  show StableHlo.after hostOps0 (W0 m ρ c) (Proc.devRef .tc main_arg0) = _
  exact StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem host_arg1 (c : Dev nD) : V1 (F := Ideal) m ρ c main_arg1 = (m ((c.tc : Thread nD τ).loc main_arg1)) := by
  show StableHlo.after hostOps0 (W0 m ρ c) (Proc.devRef .tc main_arg1) = _
  exact StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem host_arg2 (c : Dev nD) : V1 (F := Ideal) m ρ c main_arg2 = (m ((c.tc : Thread nD τ).loc main_arg2)) := by
  show StableHlo.after hostOps0 (W0 m ρ c) (Proc.devRef .tc main_arg2) = _
  exact StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem host_arg3 (c : Dev nD) : V1 (F := Ideal) m ρ c main_arg3 = (m ((c.tc : Thread nD τ).loc main_arg3)) := by
  show StableHlo.after hostOps0 (W0 m ρ c) (Proc.devRef .tc main_arg3) = _
  exact StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

end Cert.Val

end
-- ==== Proof.SpecStack.lean ====
/-
  Projecting against the three weight matrices stacked and reading the queries', keys' and values' thirds of the
  columns is projecting against each matrix by itself: the attention over the stacked form is the result in the form
  the kernel computes.
-/
import proofs.«400326_j61744449847642_3_alg».proof.Proof.Spec

set_option maxRecDepth 16384

noncomputable section

namespace Cert.Val

open Idealize.ShloMosaic Idealize.ShloMosaic.TcCoe Idealize.ShloMosaic.ValueIdx Idealize.SL.Sem
open Cert.Spec

/-! ## The stacked weights and biases, third by third

Row `n` of the stacked matrix is row `n` of the queries' matrix for `n < 1024`, row `n - 1024` of the keys' matrix
for `1024 ≤ n < 2048`, and row `n - 2048` of the values' matrix from there on; the stacked bias likewise. -/

theorem stackW_lo (Wq Wk Wv : A2 1024 1024) (n : Fin 3072) (d : Fin 1024) (h : n.val < 1024) :
    stackW Wq Wk Wv (ix2 n d) = Wq (ix2 ⟨n.val, h⟩ d) := by
  unfold stackW
  exact dif_pos h

theorem stackW_mid (Wq Wk Wv : A2 1024 1024) (n : Fin 3072) (d : Fin 1024) (h1 : ¬ n.val < 1024) (h2 : n.val < 2048) :
    stackW Wq Wk Wv (ix2 n d) = Wk (ix2 ⟨n.val - 1024, by omega⟩ d) := by
  unfold stackW
  exact (dif_neg h1).trans (dif_pos h2)

theorem stackW_hi (Wq Wk Wv : A2 1024 1024) (n : Fin 3072) (d : Fin 1024) (h1 : ¬ n.val < 1024) (h2 : ¬ n.val < 2048) :
    stackW Wq Wk Wv (ix2 n d) = Wv (ix2 ⟨n.val - 2048, by have := n.isLt; omega⟩ d) := by
  unfold stackW
  exact (dif_neg h1).trans (dif_neg h2)

theorem stackB_lo (bq bk bv : A1 1024) (n : Fin 3072) (h : n.val < 1024) :
    stackB bq bk bv (ix2 0 n) = bq (ix1 ⟨n.val, h⟩) := by
  unfold stackB
  exact dif_pos h

theorem stackB_mid (bq bk bv : A1 1024) (n : Fin 3072) (h1 : ¬ n.val < 1024) (h2 : n.val < 2048) :
    stackB bq bk bv (ix2 0 n) = bk (ix1 ⟨n.val - 1024, by omega⟩) := by
  unfold stackB
  exact (dif_neg h1).trans (dif_pos h2)

theorem stackB_hi (bq bk bv : A1 1024) (n : Fin 3072) (h1 : ¬ n.val < 1024) (h2 : ¬ n.val < 2048) :
    stackB bq bk bv (ix2 0 n) = bv (ix1 ⟨n.val - 2048, by have := n.isLt; omega⟩) := by
  unfold stackB
  exact (dif_neg h1).trans (dif_neg h2)

/-! ## Where the three thirds' columns lie

Column `part · 1024 + h · 64 + j` with `h < 16` and `j < 64` lies in the third `part`, at offset `h · 64 + j`. -/

theorem col3_val (p : Fin 3) (h : Fin 16) (j : Fin 64) : (col3 p h j).val = p.val * 1024 + h.val * 64 + j.val := rfl
theorem col_val (h : Fin 16) (j : Fin 64) : (col h j).val = h.val * 64 + j.val := rfl

theorem col3_zero_lt (h : Fin 16) (j : Fin 64) : (col3 0 h j).val < 1024 := by
  have hh := h.isLt; have hj := j.isLt
  have e : ((0 : Fin 3) : Nat) = 0 := rfl
  rw [col3_val, e]; omega

theorem col3_zero_eq (h : Fin 16) (j : Fin 64) : (⟨(col3 0 h j).val, col3_zero_lt h j⟩ : Fin 1024) = col h j := by
  have e : ((0 : Fin 3) : Nat) = 0 := rfl
  apply Fin.ext
  show (col3 0 h j).val = (col h j).val
  rw [col3_val, col_val, e]; omega

theorem col3_one_ge (h : Fin 16) (j : Fin 64) : ¬ (col3 1 h j).val < 1024 := by
  have e : ((1 : Fin 3) : Nat) = 1 := rfl
  rw [col3_val, e]; omega

theorem col3_one_lt (h : Fin 16) (j : Fin 64) : (col3 1 h j).val < 2048 := by
  have hh := h.isLt; have hj := j.isLt
  have e : ((1 : Fin 3) : Nat) = 1 := rfl
  rw [col3_val, e]; omega

theorem col3_one_eq (h : Fin 16) (j : Fin 64) (hlt : (col3 1 h j).val - 1024 < 1024) :
    (⟨(col3 1 h j).val - 1024, hlt⟩ : Fin 1024) = col h j := by
  have e : ((1 : Fin 3) : Nat) = 1 := rfl
  apply Fin.ext
  show (col3 1 h j).val - 1024 = (col h j).val
  rw [col3_val, col_val, e]; omega

theorem col3_two_ge (h : Fin 16) (j : Fin 64) : ¬ (col3 2 h j).val < 1024 := by
  have e : ((2 : Fin 3) : Nat) = 2 := rfl
  rw [col3_val, e]; omega

theorem col3_two_ge' (h : Fin 16) (j : Fin 64) : ¬ (col3 2 h j).val < 2048 := by
  have e : ((2 : Fin 3) : Nat) = 2 := rfl
  rw [col3_val, e]; omega

theorem col3_two_eq (h : Fin 16) (j : Fin 64) (hlt : (col3 2 h j).val - 2048 < 1024) :
    (⟨(col3 2 h j).val - 2048, hlt⟩ : Fin 1024) = col h j := by
  have e : ((2 : Fin 3) : Nat) = 2 := rfl
  apply Fin.ext
  show (col3 2 h j).val - 2048 = (col h j).val
  rw [col3_val, col_val, e]; omega

/-! ## The stacked weights and biases at the three thirds' columns -/

theorem stackW_part0 (Wq Wk Wv : A2 1024 1024) (h : Fin 16) (j : Fin 64) (d : Fin 1024) :
    stackW Wq Wk Wv (ix2 (col3 0 h j) d) = Wq (ix2 (col h j) d) := by
  rw [stackW_lo Wq Wk Wv _ d (col3_zero_lt h j), col3_zero_eq]

theorem stackW_part1 (Wq Wk Wv : A2 1024 1024) (h : Fin 16) (j : Fin 64) (d : Fin 1024) :
    stackW Wq Wk Wv (ix2 (col3 1 h j) d) = Wk (ix2 (col h j) d) := by
  rw [stackW_mid Wq Wk Wv _ d (col3_one_ge h j) (col3_one_lt h j), col3_one_eq]

theorem stackW_part2 (Wq Wk Wv : A2 1024 1024) (h : Fin 16) (j : Fin 64) (d : Fin 1024) :
    stackW Wq Wk Wv (ix2 (col3 2 h j) d) = Wv (ix2 (col h j) d) := by
  rw [stackW_hi Wq Wk Wv _ d (col3_two_ge h j) (col3_two_ge' h j), col3_two_eq]

theorem stackB_part0 (bq bk bv : A1 1024) (h : Fin 16) (j : Fin 64) :
    stackB bq bk bv (ix2 0 (col3 0 h j)) = bq (ix1 (col h j)) := by
  rw [stackB_lo bq bk bv _ (col3_zero_lt h j), col3_zero_eq]

theorem stackB_part1 (bq bk bv : A1 1024) (h : Fin 16) (j : Fin 64) :
    stackB bq bk bv (ix2 0 (col3 1 h j)) = bk (ix1 (col h j)) := by
  rw [stackB_mid bq bk bv _ (col3_one_ge h j) (col3_one_lt h j), col3_one_eq]

theorem stackB_part2 (bq bk bv : A1 1024) (h : Fin 16) (j : Fin 64) :
    stackB bq bk bv (ix2 0 (col3 2 h j)) = bv (ix1 (col h j)) := by
  rw [stackB_hi bq bk bv _ (col3_two_ge h j) (col3_two_ge' h j), col3_two_eq]

/-! ## The projections against the stacked form, third by third -/

theorem proj3_part0 (x : A3 2 2048 1024) (Wq : A2 1024 1024) (bq : A1 1024) (Wk : A2 1024 1024) (bk : A1 1024)
    (Wv : A2 1024 1024) (bv : A1 1024) (b : Fin 2) (s : Fin 2048) (h : Fin 16) (j : Fin 64) :
    proj3 x (stackW Wq Wk Wv) (stackB bq bk bv) b s (col3 0 h j) = proj x Wq bq b s (col h j) := by
  unfold proj3 proj
  rw [stackB_part0]
  exact congrArg (· + bq (ix1 (col h j))) (Finset.sum_congr rfl fun d _ => by rw [stackW_part0])

theorem proj3_part1 (x : A3 2 2048 1024) (Wq : A2 1024 1024) (bq : A1 1024) (Wk : A2 1024 1024) (bk : A1 1024)
    (Wv : A2 1024 1024) (bv : A1 1024) (b : Fin 2) (s : Fin 2048) (h : Fin 16) (j : Fin 64) :
    proj3 x (stackW Wq Wk Wv) (stackB bq bk bv) b s (col3 1 h j) = proj x Wk bk b s (col h j) := by
  unfold proj3 proj
  rw [stackB_part1]
  exact congrArg (· + bk (ix1 (col h j))) (Finset.sum_congr rfl fun d _ => by rw [stackW_part1])

theorem proj3_part2 (x : A3 2 2048 1024) (Wq : A2 1024 1024) (bq : A1 1024) (Wk : A2 1024 1024) (bk : A1 1024)
    (Wv : A2 1024 1024) (bv : A1 1024) (b : Fin 2) (s : Fin 2048) (h : Fin 16) (j : Fin 64) :
    proj3 x (stackW Wq Wk Wv) (stackB bq bk bv) b s (col3 2 h j) = proj x Wv bv b s (col h j) := by
  unfold proj3 proj
  rw [stackB_part2]
  exact congrArg (· + bv (ix1 (col h j))) (Finset.sum_congr rfl fun d _ => by rw [stackW_part2])

/-! ## The rotated and plain projections, as whole arrays -/

theorem rotProj3_part0 (x : A3 2 2048 1024) (cos sin : A2 2048 32) (Wq : A2 1024 1024) (bq : A1 1024)
    (Wk : A2 1024 1024) (bk : A1 1024) (Wv : A2 1024 1024) (bv : A1 1024) :
    rotProj3 x cos sin (stackW Wq Wk Wv) (stackB bq bk bv) 0 = rotProj x cos sin Wq bq := by
  funext i
  exact congrArg (fun y => rot y (fun j => cos (ix2 (i 2) j)) (fun j => sin (ix2 (i 2) j)) (i 3))
    (funext fun j => proj3_part0 x Wq bq Wk bk Wv bv (i 0) (i 2) (i 1) j)

theorem rotProj3_part1 (x : A3 2 2048 1024) (cos sin : A2 2048 32) (Wq : A2 1024 1024) (bq : A1 1024)
    (Wk : A2 1024 1024) (bk : A1 1024) (Wv : A2 1024 1024) (bv : A1 1024) :
    rotProj3 x cos sin (stackW Wq Wk Wv) (stackB bq bk bv) 1 = rotProj x cos sin Wk bk := by
  funext i
  exact congrArg (fun y => rot y (fun j => cos (ix2 (i 2) j)) (fun j => sin (ix2 (i 2) j)) (i 3))
    (funext fun j => proj3_part1 x Wq bq Wk bk Wv bv (i 0) (i 2) (i 1) j)

theorem plainProj3_part2 (x : A3 2 2048 1024) (Wq : A2 1024 1024) (bq : A1 1024)
    (Wk : A2 1024 1024) (bk : A1 1024) (Wv : A2 1024 1024) (bv : A1 1024) :
    plainProj3 x (stackW Wq Wk Wv) (stackB bq bk bv) 2 = plainProj x Wv bv := by
  funext i
  exact proj3_part2 x Wq bq Wk bk Wv bv (i 0) (i 2) (i 1) (i 3)

/-! ## The attention over whole arrays is the output projection of the heads' outputs

The bias laid out as one row, read at `(0, n)`, is the bias at `n`. -/

theorem attnArr_rowOf (q k v : A4 2 16 2048 64) (mask : A2 2048 2048) (Wo : A2 1024 1024) (bo : A1 1024) :
    attnArr q k v mask Wo (rowOf bo) = outProj (headSumThenDiv q k v mask) Wo bo := by
  funext i
  rfl

theorem attnArr_stack (x : A3 2 2048 1024) (cos sin : A2 2048 32) (mask : A2 2048 2048)
    (Wq : A2 1024 1024) (bq : A1 1024) (Wk : A2 1024 1024) (bk : A1 1024) (Wv : A2 1024 1024) (bv : A1 1024)
    (Wo : A2 1024 1024) (bo : A1 1024) :
    attnArr (rotProj3 x cos sin (stackW Wq Wk Wv) (stackB bq bk bv) 0) (rotProj3 x cos sin (stackW Wq Wk Wv) (stackB bq bk bv) 1)
        (plainProj3 x (stackW Wq Wk Wv) (stackB bq bk bv) 2) mask Wo (rowOf bo)
      = resultSumThenDiv x cos sin mask Wq bq Wk bk Wv bv Wo bo := by
  rw [rotProj3_part0, rotProj3_part1, plainProj3_part2, attnArr_rowOf]
  rfl

end Cert.Val

end
-- ==== Proof.Assemble.lean ====
/-
  The kernel's result as one function of @main's arguments. The second pallas_call reads the queries, keys and values
  the first one left, the mask as launched, and the output weights and bias as the host operations laid them out; the
  first reads the input and the rows' cosines and sines as launched, and the stacked weights and biases. Substituting
  each array by its value gives the attention over the stacked projections, which is the result in the form the kernel
  computes.
-/
import proofs.«400326_j61744449847642_3_alg».proof.Proof.IdealMainRun
import proofs.«400326_j61744449847642_3_alg».proof.Proof.QkvArray
import proofs.«400326_j61744449847642_3_alg».proof.Proof.AttnArray
import proofs.«400326_j61744449847642_3_alg».proof.Proof.HostValue
import proofs.«400326_j61744449847642_3_alg».proof.Proof.SpecStack

set_option maxRecDepth 16384

noncomputable section

namespace Cert.Val

open Idealize.ShloMosaic Idealize.ShloMosaic.TcCoe Idealize.ShloMosaic.ValueIdx Idealize.SL.Sem
open Cert.Spec
open Idealize.ShloMosaic.Pipeline (Dat)
open Cert.KernelIdeal Cert.KernelIdeal.Gen Cert.KernelIdeal.Frm

variable (m : (ℓ : Loc nD τ sig) → Buf (Elt Ideal) ℓ) (ρ : Dev nD → PrngReg)

/-- The queries, keys and values the second pallas_call is entered with are what the first one's pipeline left. -/
theorem entry_q (c : Dev nD) : V2 (F := Ideal) m ρ c main_v6_0
    = rotProj3 (m ((c.tc : Thread nD τ).loc main_arg0)) (m ((c.tc : Thread nD τ).loc main_arg1)) (m ((c.tc : Thread nD τ).loc main_arg2)) (stackW (m ((c.tc : Thread nD τ).loc main_arg4)) (m ((c.tc : Thread nD τ).loc main_arg6)) (m ((c.tc : Thread nD τ).loc main_arg8))) (stackB (m ((c.tc : Thread nD τ).loc main_arg5)) (m ((c.tc : Thread nD τ).loc main_arg7)) (m ((c.tc : Thread nD τ).loc main_arg9))) 0 := by
  rw [← host_arg0 m ρ c, ← host_arg1 m ρ c, ← host_arg2 m ρ c, ← host_v1 m ρ c, ← host_v3 m ρ c, ← qkv_arr5 (V1 m ρ) c]
  exact (hF0 m ρ c 5).symm
theorem entry_k (c : Dev nD) : V2 (F := Ideal) m ρ c main_v6_1
    = rotProj3 (m ((c.tc : Thread nD τ).loc main_arg0)) (m ((c.tc : Thread nD τ).loc main_arg1)) (m ((c.tc : Thread nD τ).loc main_arg2)) (stackW (m ((c.tc : Thread nD τ).loc main_arg4)) (m ((c.tc : Thread nD τ).loc main_arg6)) (m ((c.tc : Thread nD τ).loc main_arg8))) (stackB (m ((c.tc : Thread nD τ).loc main_arg5)) (m ((c.tc : Thread nD τ).loc main_arg7)) (m ((c.tc : Thread nD τ).loc main_arg9))) 1 := by
  rw [← host_arg0 m ρ c, ← host_arg1 m ρ c, ← host_arg2 m ρ c, ← host_v1 m ρ c, ← host_v3 m ρ c, ← qkv_arr6 (V1 m ρ) c]
  exact (hF0 m ρ c 6).symm
theorem entry_v (c : Dev nD) : V2 (F := Ideal) m ρ c main_v6_2
    = plainProj3 (m ((c.tc : Thread nD τ).loc main_arg0)) (stackW (m ((c.tc : Thread nD τ).loc main_arg4)) (m ((c.tc : Thread nD τ).loc main_arg6)) (m ((c.tc : Thread nD τ).loc main_arg8))) (stackB (m ((c.tc : Thread nD τ).loc main_arg5)) (m ((c.tc : Thread nD τ).loc main_arg7)) (m ((c.tc : Thread nD τ).loc main_arg9))) 2 := by
  rw [← host_arg0 m ρ c, ← host_v1 m ρ c, ← host_v3 m ρ c, ← qkv_arr7 (V1 m ρ) c]
  exact (hF0 m ρ c 7).symm
/-- The first pallas_call writes neither the mask nor the output weights and bias. -/
theorem entry_mask (c : Dev nD) : V2 (F := Ideal) m ρ c main_arg3 = (m ((c.tc : Thread nD τ).loc main_arg3)) :=
  (W2_of_ne m ρ c main_arg3 (by decide)).trans (host_arg3 m ρ c)
theorem entry_wo (c : Dev nD) : (V2 (F := Ideal) m ρ c main_v4 : A2 1024 1024) = (m ((c.tc : Thread nD τ).loc main_arg10)) :=
  (W2_of_ne m ρ c main_v4 (by decide)).trans (host_v4 m ρ c)
theorem entry_bo (c : Dev nD) : V2 (F := Ideal) m ρ c main_v5 = rowOf (m ((c.tc : Thread nD τ).loc main_arg11)) :=
  (W2_of_ne m ρ c main_v5 (by decide)).trans (host_v5 m ρ c)

/-- What the second pipeline's write-backs leave in the result array, as a function of the twelve arguments. -/
theorem kernel_result (c : Dev nD) :
    (dat1 (F := Ideal) (V2 m ρ) c).arrAt 6 cfg1.N
      = resultSumThenDiv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [attn_arr (V2 m ρ) c, entry_q m ρ c, entry_k m ρ c, entry_v m ρ c, entry_mask m ρ c, entry_bo m ρ c]
  rw [show (V2 (F := Ideal) m ρ c main_v4 : A2 1024 1024) = (m ((c.tc : Thread nD τ).loc main_arg10)) from entry_wo m ρ c]
  exact attnArr_stack _ _ _ _ _ _ _ _ _ _ _ _

end Cert.Val

end
-- ==== Proof.RefValue.lean ====
/-
  The reference program's result term, operation by operation at the ideal values, is the result in the form the
  reference computes: each weight divided by the normaliser before the products with the values are summed.
-/
import proofs.«400326_j61744449847642_3_alg».proof.Proof.Gen.ReferenceIdeal.Read
import proofs.«400326_j61744449847642_3_alg».proof.Proof.Spec
import Idealize.ShloMosaic.PureOps.Ideal.Laws
import Idealize.ShloMosaic.Lib.Pipeline.Value
import Idealize.ShloMosaic.Lib.ValueIdx

set_option maxRecDepth 16384

noncomputable section

namespace Cert.Val

open Idealize.ShloMosaic Idealize.ShloMosaic.TcCoe Idealize.ShloMosaic.ValueIdx Idealize.SL.Sem
open Cert.Spec
open Cert.ReferenceIdeal

/-! ## Indices are equal when their coordinates are -/

theorem idx1_ext {n0 : Nat} (i j : (⟨1, ![n0]⟩ : Shape).Idx) (h0 : (i 0).val = (j 0).val) : i = j :=
  funext fun a => Fin.ext (by match a with | ⟨0, _⟩ => exact h0)
theorem idx2_ext {n0 n1 : Nat} (i j : (⟨2, ![n0, n1]⟩ : Shape).Idx) (h0 : (i 0).val = (j 0).val) (h1 : (i 1).val = (j 1).val) : i = j :=
  funext fun a => Fin.ext (by match a with | ⟨0, _⟩ => exact h0 | ⟨1, _⟩ => exact h1)
theorem idx3_ext {n0 n1 n2 : Nat} (i j : (⟨3, ![n0, n1, n2]⟩ : Shape).Idx) (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)
theorem idx4_ext {n0 n1 n2 n3 : Nat} (i j : (⟨4, ![n0, n1, n2, n3]⟩ : Shape).Idx) (h0 : (i 0).val = (j 0).val) (h1 : (i 1).val = (j 1).val)
    (h2 : (i 2).val = (j 2).val) (h3 : (i 3).val = (j 3).val) : i = j :=
  funext fun a => Fin.ext (by match a with | ⟨0, _⟩ => exact h0 | ⟨1, _⟩ => exact h1 | ⟨2, _⟩ => exact h2 | ⟨3, _⟩ => exact h3)

/-! ## The three projections: a contraction over the 1024 columns plus the bias -/

/-- The queries' projection before it is cut into heads. -/
theorem projQ_at (x0 : (⟨S2x2048x1024, .f32⟩ : BufTy).Contents (Elt Ideal)) (x4 : (⟨S1024x1024, .f32⟩ : BufTy).Contents (Elt Ideal))
    (x5 : (⟨S1024, .f32⟩ : BufTy).Contents (Elt Ideal)) (b : Fin 2) (s : Fin 2048) (n : Fin 1024) :
    Read.val_main_v3 (F := Ideal) x0 x4 x5 (ix3 b s n) = proj x0 x4 x5 b s n := by
  rw [Read.val_main_v3_apply, Read.val_main_v0_apply, Read.val_main_v2_apply, Read.val_main_v1_apply]
  have el : ∀ k : Fin 1024, Read.lidx_main_v0 (ix3 b s n) k = ix3 b s k := fun k => idx3_ext _ _ rfl rfl rfl
  have er : ∀ k : Fin 1024, Read.ridx_main_v0 (ix3 b s n) k = ix2 n k := fun k => idx2_ext _ _ rfl rfl
  have eb : Read.idx_main_v1 (Read.idx_main_v2 (ix3 b s n)) = ix1 n := idx1_ext _ _ rfl
  simp only [el, er, eb]
  rfl

/-- The keys' projection before it is cut into heads. -/
theorem projK_at (x0 : (⟨S2x2048x1024, .f32⟩ : BufTy).Contents (Elt Ideal)) (x6 : (⟨S1024x1024, .f32⟩ : BufTy).Contents (Elt Ideal))
    (x7 : (⟨S1024, .f32⟩ : BufTy).Contents (Elt Ideal)) (b : Fin 2) (s : Fin 2048) (n : Fin 1024) :
    Read.val_main_v24 (F := Ideal) x0 x6 x7 (ix3 b s n) = proj x0 x6 x7 b s n := by
  rw [Read.val_main_v24_apply, Read.val_main_v21_apply, Read.val_main_v23_apply, Read.val_main_v22_apply]
  have el : ∀ k : Fin 1024, Read.lidx_main_v21 (ix3 b s n) k = ix3 b s k := fun k => idx3_ext _ _ rfl rfl rfl
  have er : ∀ k : Fin 1024, Read.ridx_main_v21 (ix3 b s n) k = ix2 n k := fun k => idx2_ext _ _ rfl rfl
  have eb : Read.idx_main_v22 (Read.idx_main_v23 (ix3 b s n)) = ix1 n := idx1_ext _ _ rfl
  simp only [el, er, eb]
  rfl

/-- The values' projection before it is cut into heads. -/
theorem projV_at (x0 : (⟨S2x2048x1024, .f32⟩ : BufTy).Contents (Elt Ideal)) (x8 : (⟨S1024x1024, .f32⟩ : BufTy).Contents (Elt Ideal))
    (x9 : (⟨S1024, .f32⟩ : BufTy).Contents (Elt Ideal)) (b : Fin 2) (s : Fin 2048) (n : Fin 1024) :
    Read.val_main_v45 (F := Ideal) x0 x8 x9 (ix3 b s n) = proj x0 x8 x9 b s n := by
  rw [Read.val_main_v45_apply, Read.val_main_v42_apply, Read.val_main_v44_apply, Read.val_main_v43_apply]
  have el : ∀ k : Fin 1024, Read.lidx_main_v42 (ix3 b s n) k = ix3 b s k := fun k => idx3_ext _ _ rfl rfl rfl
  have er : ∀ k : Fin 1024, Read.ridx_main_v42 (ix3 b s n) k = ix2 n k := fun k => idx2_ext _ _ rfl rfl
  have eb : Read.idx_main_v43 (Read.idx_main_v44 (ix3 b s n)) = ix1 n := idx1_ext _ _ rfl
  simp only [el, er, eb]
  rfl

/-! ## Cutting the 1024 columns into sixteen heads of 64 lanes, heads before rows

Row-major, entry `(b, s, h, j)` of the [2, 2048, 16, 64] view is entry `(b, s, h · 64 + j)` of the [2, 2048, 1024] array. -/

/-- The position a head's lane has among the 1024 columns. -/
theorem unflatten_col (b : Fin 2) (s : Fin 2048) (h : Fin 16) (j : Fin 64) :
    Read.idx_main_v4 (Read.idx_main_v5 (ix4 b h s j)) = ix3 b s (col h j) := by
  have hb : b.val < 2 := b.isLt
  have hs : s.val < 2048 := s.isLt
  have hh : h.val < 16 := h.isLt
  have hj : j.val < 64 := j.isLt
  refine idx3_ext _ _ ?_ ?_ ?_
  · show (((b.val * 2048 + s.val) * 16 + h.val) * 64 + j.val) / 2097152 = b.val
    omega
  · show (((b.val * 2048 + s.val) * 16 + h.val) * 64 + j.val) / 1024 % 2048 = s.val
    omega
  · show (((b.val * 2048 + s.val) * 16 + h.val) * 64 + j.val) % 1024 = h.val * 64 + j.val
    omega

/-- The queries' projection, by heads. -/
theorem headsQ_at (x0 : (⟨S2x2048x1024, .f32⟩ : BufTy).Contents (Elt Ideal)) (x4 : (⟨S1024x1024, .f32⟩ : BufTy).Contents (Elt Ideal))
    (x5 : (⟨S1024, .f32⟩ : BufTy).Contents (Elt Ideal)) (b : Fin 2) (h : Fin 16) (s : Fin 2048) (j : Fin 64) :
    Read.val_main_v5 (F := Ideal) x0 x4 x5 (ix4 b h s j) = proj x0 x4 x5 b s (col h j) := by
  rw [Read.val_main_v5_apply, Read.val_main_v4_apply, unflatten_col, projQ_at]

/-- The keys' projection, by heads. -/
theorem headsK_at (x0 : (⟨S2x2048x1024, .f32⟩ : BufTy).Contents (Elt Ideal)) (x6 : (⟨S1024x1024, .f32⟩ : BufTy).Contents (Elt Ideal))
    (x7 : (⟨S1024, .f32⟩ : BufTy).Contents (Elt Ideal)) (b : Fin 2) (h : Fin 16) (s : Fin 2048) (j : Fin 64) :
    Read.val_main_v26 (F := Ideal) x0 x6 x7 (ix4 b h s j) = proj x0 x6 x7 b s (col h j) := by
  rw [Read.val_main_v26_apply, Read.val_main_v25_apply]
  rw [show Read.idx_main_v25 (Read.idx_main_v26 (ix4 b h s j)) = Read.idx_main_v4 (Read.idx_main_v5 (ix4 b h s j)) from rfl, unflatten_col, projK_at]

/-- The values' projection, by heads: the plain projection of the specification. -/
theorem headsV_at (x0 : (⟨S2x2048x1024, .f32⟩ : BufTy).Contents (Elt Ideal)) (x8 : (⟨S1024x1024, .f32⟩ : BufTy).Contents (Elt Ideal))
    (x9 : (⟨S1024, .f32⟩ : BufTy).Contents (Elt Ideal)) (b : Fin 2) (h : Fin 16) (s : Fin 2048) (j : Fin 64) :
    Read.val_main_v47 (F := Ideal) x0 x8 x9 (ix4 b h s j) = proj x0 x8 x9 b s (col h j) := by
  rw [Read.val_main_v47_apply, Read.val_main_v46_apply]
  rw [show Read.idx_main_v46 (Read.idx_main_v47 (ix4 b h s j)) = Read.idx_main_v4 (Read.idx_main_v5 (ix4 b h s j)) from rfl, unflatten_col, projV_at]

theorem valuesV_eq (x0 : (⟨S2x2048x1024, .f32⟩ : BufTy).Contents (Elt Ideal)) (x8 : (⟨S1024x1024, .f32⟩ : BufTy).Contents (Elt Ideal))
    (x9 : (⟨S1024, .f32⟩ : BufTy).Contents (Elt Ideal)) :
    Read.val_main_v47 (F := Ideal) x0 x8 x9 = plainProj x0 x8 x9 := by
  funext i
  obtain ⟨b, h, s, j, rfl⟩ : ∃ b h s j, i = ix4 b h s j := ⟨_, _, _, _, eq_ix4 i⟩
  exact headsV_at x0 x8 x9 b h s j

/-! ## The rotation: the two halves computed apart, then laid side by side -/

/-- Two arrays of 32 lanes laid side by side along the lanes: below lane 32 the first, from lane 32 on the second. -/
theorem halves_at (A B : S2x16x2048x32.Idx → EReal) (hc : Shape.Concatenates [S2x16x2048x32, S2x16x2048x32] S2x16x2048x64 3)
    (b : Fin 2) (h : Fin 16) (s : Fin 2048) (j : Fin 64) :
    concatenate S2x16x2048x64 3 [⟨S2x16x2048x32, A⟩, ⟨S2x16x2048x32, B⟩] hc (ix4 b h s j)
      = if hj : j.val < 32 then A (ix4 b h s ⟨j.val, hj⟩) else B (ix4 b h s ⟨j.val - 32, by have := j.isLt; omega⟩) := by
  by_cases hj : j.val < 32
  · rw [dif_pos hj]
    exact concatenate_pair_apply_left 3 A B hc (ix4 b h s j) rfl (ix4 b h s ⟨j.val, hj⟩)
      (fun c => by match c with | ⟨0, _⟩ => rfl | ⟨1, _⟩ => rfl | ⟨2, _⟩ => rfl | ⟨3, _⟩ => rfl)
  · rw [dif_neg hj]
    exact concatenate_pair_apply_right 3 A B hc (ix4 b h s j) rfl rfl (ix4 b h s ⟨j.val - 32, by have := j.isLt; omega⟩)
      (fun c hc' => by
        match c with
        | ⟨0, _⟩ => rfl
        | ⟨1, _⟩ => rfl
        | ⟨2, _⟩ => rfl
        | ⟨3, _⟩ => exact absurd rfl hc')
      (by show j.val - 32 + 32 = j.val; omega)

theorem rot_of_lt (y : Fin 64 → EReal) (cs sn : Fin 32 → EReal) (j : Fin 64) (hj : j.val < 32) :
    rot y cs sn j = y (lo ⟨j.val, hj⟩) * cs ⟨j.val, hj⟩ - y (hi ⟨j.val, hj⟩) * sn ⟨j.val, hj⟩ := by
  unfold rot; rw [dif_pos hj]
theorem rot_of_not_lt (y : Fin 64 → EReal) (cs sn : Fin 32 → EReal) (j : Fin 64) (hj : ¬ j.val < 32) :
    rot y cs sn j = y (lo ⟨j.val - 32, by have := j.isLt; omega⟩) * sn ⟨j.val - 32, by have := j.isLt; omega⟩
      + y (hi ⟨j.val - 32, by have := j.isLt; omega⟩) * cs ⟨j.val - 32, by have := j.isLt; omega⟩ := by
  unfold rot; rw [dif_neg hj]

/-- The queries' first half: y₁ · cos − y₂ · sin. -/
theorem rotLoQ_at (x0 : (⟨S2x2048x1024, .f32⟩ : BufTy).Contents (Elt Ideal)) (x1 x2 : (⟨S2048x32, .f32⟩ : BufTy).Contents (Elt Ideal))
    (x4 : (⟨S1024x1024, .f32⟩ : BufTy).Contents (Elt Ideal)) (x5 : (⟨S1024, .f32⟩ : BufTy).Contents (Elt Ideal))
    (b : Fin 2) (h : Fin 16) (s : Fin 2048) (j : Fin 32) :
    Read.val_main_v14 (F := Ideal) x0 x1 x2 x4 x5 (ix4 b h s j)
      = proj x0 x4 x5 b s (col h (lo j)) * x1 (ix2 s j) - proj x0 x4 x5 b s (col h (hi j)) * x2 (ix2 s j) := by
  rw [Read.val_main_v14_apply, Read.val_main_v11_apply, Read.val_main_v13_apply, Read.val_main_v6_apply, Read.val_main_v7_apply,
    Read.val_main_v10_apply, Read.val_main_v12_apply, Read.val_main_v8_apply, Read.val_main_v9_apply]
  have e6 : Read.idx_main_v6 (ix4 b h s j) = ix4 b h s (lo j) := idx4_ext _ _ rfl rfl rfl rfl
  have e7 : Read.idx_main_v7 (ix4 b h s j) = ix4 b h s (hi j) := idx4_ext _ _ rfl rfl rfl rfl
  have ec : Read.idx_main_v8 (Read.idx_main_v10 (ix4 b h s j)) = ix2 s j := idx2_ext _ _ rfl rfl
  have es : Read.idx_main_v9 (Read.idx_main_v12 (ix4 b h s j)) = ix2 s j := idx2_ext _ _ rfl rfl
  rw [e6, e7, ec, es, headsQ_at, headsQ_at]
  rfl

/-- The queries' second half: y₁ · sin + y₂ · cos. -/
theorem rotHiQ_at (x0 : (⟨S2x2048x1024, .f32⟩ : BufTy).Contents (Elt Ideal)) (x1 x2 : (⟨S2048x32, .f32⟩ : BufTy).Contents (Elt Ideal))
    (x4 : (⟨S1024x1024, .f32⟩ : BufTy).Contents (Elt Ideal)) (x5 : (⟨S1024, .f32⟩ : BufTy).Contents (Elt Ideal))
    (b : Fin 2) (h : Fin 16) (s : Fin 2048) (j : Fin 32) :
    Read.val_main_v19 (F := Ideal) x0 x1 x2 x4 x5 (ix4 b h s j)
      = proj x0 x4 x5 b s (col h (lo j)) * x2 (ix2 s j) + proj x0 x4 x5 b s (col h (hi j)) * x1 (ix2 s j) := by
  rw [Read.val_main_v19_apply, Read.val_main_v16_apply, Read.val_main_v18_apply, Read.val_main_v6_apply, Read.val_main_v7_apply,
    Read.val_main_v15_apply, Read.val_main_v17_apply, Read.val_main_v8_apply, Read.val_main_v9_apply]
  have e6 : Read.idx_main_v6 (ix4 b h s j) = ix4 b h s (lo j) := idx4_ext _ _ rfl rfl rfl rfl
  have e7 : Read.idx_main_v7 (ix4 b h s j) = ix4 b h s (hi j) := idx4_ext _ _ rfl rfl rfl rfl
  have es : Read.idx_main_v9 (Read.idx_main_v15 (ix4 b h s j)) = ix2 s j := idx2_ext _ _ rfl rfl
  have ec : Read.idx_main_v8 (Read.idx_main_v17 (ix4 b h s j)) = ix2 s j := idx2_ext _ _ rfl rfl
  rw [e6, e7, ec, es, headsQ_at, headsQ_at]
  rfl

/-- The queries: the rotated projection of the specification. -/
theorem queries_eq (x0 : (⟨S2x2048x1024, .f32⟩ : BufTy).Contents (Elt Ideal)) (x1 x2 : (⟨S2048x32, .f32⟩ : BufTy).Contents (Elt Ideal))
    (x4 : (⟨S1024x1024, .f32⟩ : BufTy).Contents (Elt Ideal)) (x5 : (⟨S1024, .f32⟩ : BufTy).Contents (Elt Ideal)) :
    Read.val_main_v20 (F := Ideal) x0 x1 x2 x4 x5 = rotProj x0 x1 x2 x4 x5 := by
  funext i
  obtain ⟨b, h, s, j, rfl⟩ : ∃ b h s j, i = ix4 b h s j := ⟨_, _, _, _, eq_ix4 i⟩
  unfold Read.val_main_v20
  rw [halves_at]
  show _ = rot (fun l => proj x0 x4 x5 b s (col h l)) (fun l => x1 (ix2 s l)) (fun l => x2 (ix2 s l)) j
  by_cases hj : j.val < 32
  · rw [dif_pos hj, rot_of_lt _ _ _ _ hj, rotLoQ_at]
  · rw [dif_neg hj, rot_of_not_lt _ _ _ _ hj, rotHiQ_at]

/-- The keys' first half. -/
theorem rotLoK_at (x0 : (⟨S2x2048x1024, .f32⟩ : BufTy).Contents (Elt Ideal)) (x1 x2 : (⟨S2048x32, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s : Fin 2048) (j : Fin 32) :
    Read.val_main_v35 (F := Ideal) x0 x1 x2 x6 x7 (ix4 b h s j)
      = proj x0 x6 x7 b s (col h (lo j)) * x1 (ix2 s j) - proj x0 x6 x7 b s (col h (hi j)) * x2 (ix2 s j) := by
  rw [Read.val_main_v35_apply, Read.val_main_v32_apply, Read.val_main_v34_apply, Read.val_main_v27_apply, Read.val_main_v28_apply,
    Read.val_main_v31_apply, Read.val_main_v33_apply, Read.val_main_v29_apply, Read.val_main_v30_apply]
  have e6 : Read.idx_main_v27 (ix4 b h s j) = ix4 b h s (lo j) := idx4_ext _ _ rfl rfl rfl rfl
  have e7 : Read.idx_main_v28 (ix4 b h s j) = ix4 b h s (hi j) := idx4_ext _ _ rfl rfl rfl rfl
  have ec : Read.idx_main_v29 (Read.idx_main_v31 (ix4 b h s j)) = ix2 s j := idx2_ext _ _ rfl rfl
  have es : Read.idx_main_v30 (Read.idx_main_v33 (ix4 b h s j)) = ix2 s j := idx2_ext _ _ rfl rfl
  rw [e6, e7, ec, es, headsK_at, headsK_at]
  rfl

/-- The keys' second half. -/
theorem rotHiK_at (x0 : (⟨S2x2048x1024, .f32⟩ : BufTy).Contents (Elt Ideal)) (x1 x2 : (⟨S2048x32, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s : Fin 2048) (j : Fin 32) :
    Read.val_main_v40 (F := Ideal) x0 x1 x2 x6 x7 (ix4 b h s j)
      = proj x0 x6 x7 b s (col h (lo j)) * x2 (ix2 s j) + proj x0 x6 x7 b s (col h (hi j)) * x1 (ix2 s j) := by
  rw [Read.val_main_v40_apply, Read.val_main_v37_apply, Read.val_main_v39_apply, Read.val_main_v27_apply, Read.val_main_v28_apply,
    Read.val_main_v36_apply, Read.val_main_v38_apply, Read.val_main_v29_apply, Read.val_main_v30_apply]
  have e6 : Read.idx_main_v27 (ix4 b h s j) = ix4 b h s (lo j) := idx4_ext _ _ rfl rfl rfl rfl
  have e7 : Read.idx_main_v28 (ix4 b h s j) = ix4 b h s (hi j) := idx4_ext _ _ rfl rfl rfl rfl
  have es : Read.idx_main_v30 (Read.idx_main_v36 (ix4 b h s j)) = ix2 s j := idx2_ext _ _ rfl rfl
  have ec : Read.idx_main_v29 (Read.idx_main_v38 (ix4 b h s j)) = ix2 s j := idx2_ext _ _ rfl rfl
  rw [e6, e7, ec, es, headsK_at, headsK_at]
  rfl

/-- The keys: the rotated projection of the specification. -/
theorem keys_eq (x0 : (⟨S2x2048x1024, .f32⟩ : BufTy).Contents (Elt Ideal)) (x1 x2 : (⟨S2048x32, .f32⟩ : BufTy).Contents (Elt Ideal))
    (x6 : (⟨S1024x1024, .f32⟩ : BufTy).Contents (Elt Ideal)) (x7 : (⟨S1024, .f32⟩ : BufTy).Contents (Elt Ideal)) :
    Read.val_main_v41 (F := Ideal) x0 x1 x2 x6 x7 = rotProj x0 x1 x2 x6 x7 := by
  funext i
  obtain ⟨b, h, s, j, rfl⟩ : ∃ b h s j, i = ix4 b h s j := ⟨_, _, _, _, eq_ix4 i⟩
  unfold Read.val_main_v41
  rw [halves_at]
  show _ = rot (fun l => proj x0 x6 x7 b s (col h l)) (fun l => x1 (ix2 s l)) (fun l => x2 (ix2 s l)) j
  by_cases hj : j.val < 32
  · rw [dif_pos hj, rot_of_lt _ _ _ _ hj, rotLoK_at]
  · rw [dif_neg hj, rot_of_not_lt _ _ _ _ hj, rotHiK_at]

/-! ## The scores, their row maximum, the exponentials and the normaliser -/

/-- The scaled products of a query row with a key row, plus the mask. -/
theorem scores_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s t : Fin 2048) :
    Read.val_main_v53 (F := Ideal) x0 x1 x2 x3 x4 x5 x6 x7 (ix4 b h s t)
      = score (rotProj x0 x1 x2 x4 x5) (rotProj x0 x1 x2 x6 x7) x3 b h s t := by
  rw [Read.val_main_v53_apply, Read.val_main_v50_apply, Read.val_main_v48_apply, Read.val_main_v49_apply, Read.val_main_cst_apply,
    Read.val_main_v52_apply, Read.val_main_v51_apply, queries_eq, keys_eq]
  have el : ∀ d : Fin 64, Read.lidx_main_v48 (ix4 b h s t) d = ix4 b h s d := fun d => idx4_ext _ _ rfl rfl rfl rfl
  have er : ∀ d : Fin 64, Read.ridx_main_v48 (ix4 b h s t) d = ix4 b h t d := fun d => idx4_ext _ _ rfl rfl rfl rfl
  have em : Read.idx_main_v51 (Read.idx_main_v52 (ix4 b h s t)) = ix2 s t := idx2_ext _ _ rfl rfl
  simp only [el, er, em]
  rfl

/-- The maximum over a row of scores, taken from −∞; taking the maximum with −∞ once more changes nothing. -/
theorem rowMax_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s : Fin 2048) :
    Read.val_main_v56 (F := Ideal) x0 x1 x2 x3 x4 x5 x6 x7 (ix3 b h s)
      = rowMax (score (rotProj x0 x1 x2 x4 x5) (rotProj x0 x1 x2 x6 x7) x3 b h s) := by
  have hR : S2x16x2048x2048.Reduces [3] S2x16x2048 := by decide
  rw [Read.val_main_v56_apply, Read.val_main_v55_apply, Read.val_main_cst_1_apply]
  unfold Read.val_main_v54
  rw [Host.reduce_eq_fold_single _ _ _ _ hR]
  have ef : (Read.val_main_v53 (F := Ideal) x0 x1 x2 x3 x4 x5 x6 x7 ∘ hR.lift (ix3 b h s))
      = score (rotProj x0 x1 x2 x4 x5) (rotProj x0 x1 x2 x6 x7) x3 b h s := by
    have key : ∀ t : Fin 2048, Read.val_main_v53 (F := Ideal) x0 x1 x2 x3 x4 x5 x6 x7 (hR.lift (ix3 b h s) t)
        = score (rotProj x0 x1 x2 x4 x5) (rotProj x0 x1 x2 x6 x7) x3 b h s t := fun t => by
      rw [show hR.lift (ix3 b h s) t = ix4 b h s t from idx4_ext _ _ rfl rfl rfl rfl, scores_at]
    exact funext key
  rw [ef]
  show max negInf (Finset.univ.fold max negInf (score (rotProj x0 x1 x2 x4 x5) (rotProj x0 x1 x2 x6 x7) x3 b h s)) = _
  exact max_eq_right ((Finset.le_fold_max _).mpr (Or.inl le_rfl))

/-- The exponential of a score less its row's maximum. -/
theorem expo_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s t : Fin 2048) :
    Read.val_main_v60 (F := Ideal) x0 x1 x2 x3 x4 x5 x6 x7 (ix4 b h s t)
      = expo (score (rotProj x0 x1 x2 x4 x5) (rotProj x0 x1 x2 x6 x7) x3 b h s) t := by
  rw [Read.val_main_v60_apply, Read.val_main_v59_apply, Read.val_main_v58_apply, Read.val_main_v57_apply,
    show Read.idx_main_v57 (Read.idx_main_v58 (ix4 b h s t)) = ix3 b h s from idx3_ext _ _ rfl rfl rfl, rowMax_at, scores_at]
  rfl

/-- The normaliser: the exponentials' sum, from zero. -/
theorem denom_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s : Fin 2048) :
    Read.val_main_v61 (F := Ideal) x0 x1 x2 x3 x4 x5 x6 x7 (ix3 b h s)
      = denom (score (rotProj x0 x1 x2 x4 x5) (rotProj x0 x1 x2 x6 x7) x3 b h s) := by
  rw [Read.val_main_v61_apply, Read.val_main_cst_2_apply]
  have e : ∀ t : Fin 2048, Read.idx_main_v61 (ix3 b h s) t = ix4 b h s t := fun t => idx4_ext _ _ rfl rfl rfl rfl
  simp only [e, expo_at]
  show Ideal.ofBits .f32 0x00000000#32 + _ = _
  rw [Ideal.ofBits_zero_f32, zero_add]
  rfl

/-- A weight: the exponential over the normaliser. -/
theorem weight_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (b : Fin 2) (h : Fin 16) (s t : Fin 2048) :
    Read.val_main_v64 (F := Ideal) x0 x1 x2 x3 x4 x5 x6 x7 (ix4 b h s t)
      = Ideal.div (expo (score (rotProj x0 x1 x2 x4 x5) (rotProj x0 x1 x2 x6 x7) x3 b h s) t) (denom (score (rotProj x0 x1 x2 x4 x5) (rotProj x0 x1 x2 x6 x7) x3 b h s)) := by
  rw [Read.val_main_v64_apply, Read.val_main_v63_apply, Read.val_main_v62_apply,
    show Read.idx_main_v62 (Read.idx_main_v63 (ix4 b h s t)) = ix3 b h s from idx3_ext _ _ rfl rfl rfl, denom_at, expo_at]
  rfl

/-! ## The heads' outputs, laid side by side, and the output projection -/

/-- A head's output: the weights' products with the values, summed over the key rows. -/
theorem head_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (b : Fin 2) (h : Fin 16) (s : Fin 2048) (j : Fin 64) :
    Read.val_main_v65 (F := Ideal) x0 x1 x2 x3 x4 x5 x6 x7 x8 x9 (ix4 b h s j)
      = headDivThenSum (rotProj x0 x1 x2 x4 x5) (rotProj x0 x1 x2 x6 x7) (plainProj x0 x8 x9) x3 b h s j := by
  rw [Read.val_main_v65_apply, valuesV_eq]
  have el : ∀ t : Fin 2048, Read.lidx_main_v65 (ix4 b h s j) t = ix4 b h s t := fun t => idx4_ext _ _ rfl rfl rfl rfl
  have er : ∀ t : Fin 2048, Read.ridx_main_v65 (ix4 b h s j) t = ix4 b h t j := fun t => idx4_ext _ _ rfl rfl rfl rfl
  simp only [el, er, weight_at]
  rfl

/-- Row-major, column `d` of the [2, 2048, 1024] array is entry `(d / 64, d mod 64)` of the [2, 2048, 16, 64] view. -/
theorem flatten_col (b : Fin 2) (s : Fin 2048) (d : Fin 1024) :
    Read.idx_main_v66 (Read.idx_main_v67 (ix3 b s d)) = ix4 b (headOf d) s (laneOf d) := by
  have hb : b.val < 2 := b.isLt
  have hs : s.val < 2048 := s.isLt
  have hd : d.val < 1024 := d.isLt
  refine idx4_ext _ _ ?_ ?_ ?_ ?_
  · show ((b.val * 2048 + s.val) * 1024 + d.val) / 2097152 = b.val
    omega
  · show ((b.val * 2048 + s.val) * 1024 + d.val) / 64 % 16 = d.val / 64
    omega
  · show ((b.val * 2048 + s.val) * 1024 + d.val) / 1024 % 2048 = s.val
    omega
  · show ((b.val * 2048 + s.val) * 1024 + d.val) % 64 = d.val % 64
    omega

/-- The heads' outputs side by side along the 1024 columns. -/
theorem merged_at (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (b : Fin 2) (s : Fin 2048) (d : Fin 1024) :
    Read.val_main_v67 (F := Ideal) x0 x1 x2 x3 x4 x5 x6 x7 x8 x9 (ix3 b s d)
      = headDivThenSum (rotProj x0 x1 x2 x4 x5) (rotProj x0 x1 x2 x6 x7) (plainProj x0 x8 x9) x3 b (headOf d) s (laneOf d) := by
  rw [Read.val_main_v67_apply, Read.val_main_v66_apply, flatten_col, head_at]

theorem ref_result (x0 : (⟨S2x2048x1024, .f32⟩ : BufTy).Contents (Elt Ideal)) (x1 x2 : (⟨S2048x32, .f32⟩ : BufTy).Contents (Elt Ideal))
    (x3 : (⟨S2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal)) :
    Cert.ReferenceIdeal.Read.val_main_v71 (F := Ideal) x0 x1 x2 x3 x4 x5 x6 x7 x8 x9 x10 x11
      = resultDivThenSum x0 x1 x2 x3 x4 x5 x6 x7 x8 x9 x10 x11 := by
  funext i
  obtain ⟨b, s, n, rfl⟩ : ∃ b s n, i = ix3 b s n := ⟨_, _, _, eq_ix3 i⟩
  rw [Read.val_main_v71_apply, Read.val_main_v68_apply, Read.val_main_v70_apply, Read.val_main_v69_apply]
  have el : ∀ d : Fin 1024, Read.lidx_main_v68 (ix3 b s n) d = ix3 b s d := fun d => idx3_ext _ _ rfl rfl rfl
  have er : ∀ d : Fin 1024, Read.ridx_main_v68 (ix3 b s n) d = ix2 n d := fun d => idx2_ext _ _ rfl rfl
  have eb : Read.idx_main_v69 (Read.idx_main_v70 (ix3 b s n)) = ix1 n := idx1_ext _ _ rfl
  simp only [el, er, eb, merged_at]
  rfl

end Cert.Val

end
-- ==== Proof.Bridge.lean ====
/-
  The two forms of the result agree when the inputs are real numbers. Then every score is real, so a row's maximum m
  is real, every e t = exp (score t − m) is a positive real, and l = Σ e t is a positive real; dividing by a positive
  real l is multiplying by 1/l, which distributes over a sum of extended reals and commutes past the other factor:
  (Σ_t e t · v t) / l = Σ_t (e t / l) · v t.
-/
import proofs.«400326_j61744449847642_3_alg».proof.Proof.Spec
import Mathlib.Data.EReal.Operations
import Mathlib.Analysis.SpecialFunctions.Exp

set_option maxRecDepth 16384

noncomputable section

namespace Cert.Val

open Idealize.ShloMosaic Idealize.ShloMosaic.TcCoe Idealize.ShloMosaic.ValueIdx Idealize.SL.Sem
open Cert.Spec

/-! ## Real numbers among the extended reals

An extended real is a real number exactly when it is neither infinity; the real numbers are closed under sums,
differences, products and finite sums. -/

theorem isFin_coe (r : ℝ) : IsFin (r : EReal) := ⟨EReal.coe_ne_bot r, EReal.coe_ne_top r⟩

theorem isFin_exists {a : EReal} (ha : IsFin a) : ∃ r : ℝ, a = (r : EReal) :=
  ⟨a.toReal, (EReal.coe_toReal ha.2 ha.1).symm⟩

theorem isFin_zero : IsFin (0 : EReal) := by
  rw [← EReal.coe_zero]; exact isFin_coe 0

theorem isFin_add {a b : EReal} (ha : IsFin a) (hb : IsFin b) : IsFin (a + b) := by
  obtain ⟨r, rfl⟩ := isFin_exists ha
  obtain ⟨s, rfl⟩ := isFin_exists hb
  rw [← EReal.coe_add]; exact isFin_coe _

theorem isFin_sub {a b : EReal} (ha : IsFin a) (hb : IsFin b) : IsFin (a - b) := by
  obtain ⟨r, rfl⟩ := isFin_exists ha
  obtain ⟨s, rfl⟩ := isFin_exists hb
  rw [← EReal.coe_sub]; exact isFin_coe _

theorem isFin_mul {a b : EReal} (ha : IsFin a) (hb : IsFin b) : IsFin (a * b) := by
  obtain ⟨r, rfl⟩ := isFin_exists ha
  obtain ⟨s, rfl⟩ := isFin_exists hb
  rw [← EReal.coe_mul]; exact isFin_coe _

theorem isFin_sum {ι : Type} (s : Finset ι) (f : ι → EReal) (hf : ∀ i ∈ s, IsFin (f i)) :
    IsFin (∑ i ∈ s, f i) :=
  Finset.sum_induction f IsFin (fun _ _ => isFin_add) isFin_zero hf

/-! ## The two printed constants

The word of the scale has exponent field 124 and no fraction: it is the real number 2⁻³. The word of the maximum's
starting value has the sign set, all exponent bits set and no fraction: it is −∞. -/

theorem negInf_eq_bot : negInf = ⊥ := by
  simp [negInf, Ideal.ofBits, Ideal.ieee]

/-- A word whose exponent field is not all ones denotes a real number. -/
theorem isFin_ieee (e m : Nat) {w : Nat} (b : BitVec w) (h : (b.extractLsb' m e).toNat ≠ 2 ^ e - 1) :
    IsFin (Ideal.ieee e m b) := by
  unfold Ideal.ieee
  dsimp only
  rw [if_neg h]
  split
  · exact isFin_coe _
  · exact isFin_coe _

theorem isFin_scale : IsFin scale := by
  show IsFin (Ideal.ieee 8 23 (0x3E000000#32 : BitVec 32))
  exact isFin_ieee 8 23 _ (by decide)

/-! ## Every score is a real number -/

theorem isFin_proj (x : A3 2 2048 1024) (W : A2 1024 1024) (bias : A1 1024)
    (hx : ∀ i, IsFin (x i)) (hW : ∀ i, IsFin (W i)) (hb : ∀ i, IsFin (bias i))
    (b : Fin 2) (s : Fin 2048) (n : Fin 1024) : IsFin (proj x W bias b s n) := by
  unfold proj
  exact isFin_add (isFin_sum _ _ fun d _ => isFin_mul (hx _) (hW _)) (hb _)

theorem isFin_rot (y : Fin 64 → EReal) (cs sn : Fin 32 → EReal)
    (hy : ∀ j, IsFin (y j)) (hcs : ∀ j, IsFin (cs j)) (hsn : ∀ j, IsFin (sn j)) (j : Fin 64) :
    IsFin (rot y cs sn j) := by
  unfold rot
  split
  · exact isFin_sub (isFin_mul (hy _) (hcs _)) (isFin_mul (hy _) (hsn _))
  · exact isFin_add (isFin_mul (hy _) (hsn _)) (isFin_mul (hy _) (hcs _))

theorem isFin_rotProj (x : A3 2 2048 1024) (cos sin : A2 2048 32) (W : A2 1024 1024) (bias : A1 1024)
    (hx : ∀ i, IsFin (x i)) (hcos : ∀ i, IsFin (cos i)) (hsin : ∀ i, IsFin (sin i))
    (hW : ∀ i, IsFin (W i)) (hb : ∀ i, IsFin (bias i)) (i : (⟨4, ![2, 16, 2048, 64]⟩ : Shape).Idx) :
    IsFin (rotProj x cos sin W bias i) := by
  unfold rotProj
  exact isFin_rot _ _ _ (fun j => isFin_proj x W bias hx hW hb _ _ _) (fun j => hcos _) (fun j => hsin _) _

theorem isFin_score (q k : A4 2 16 2048 64) (mask : A2 2048 2048)
    (hq : ∀ i, IsFin (q i)) (hk : ∀ i, IsFin (k i)) (hm : ∀ i, IsFin (mask i))
    (b : Fin 2) (h : Fin 16) (s t : Fin 2048) : IsFin (score q k mask b h s t) := by
  unfold score
  exact isFin_add (isFin_mul (isFin_sum _ _ fun d _ => isFin_mul (hq _) (hk _)) isFin_scale) (hm _)

/-! ## A row of real scores: its maximum, its exponentials and their sum -/

/-- The maximum, from −∞, of a row of real numbers is a real number: it is above −∞ because the row's first entry is,
    and below +∞ because −∞ and every entry are. -/
theorem isFin_rowMax (f : Fin 2048 → EReal) (hf : ∀ t, IsFin (f t)) : IsFin (rowMax f) := by
  unfold rowMax
  rw [negInf_eq_bot]
  constructor
  · apply ne_of_gt
    rw [Finset.lt_fold_max]
    exact Or.inr ⟨⟨0, by norm_num⟩, Finset.mem_univ _, bot_lt_iff_ne_bot.2 (hf _).1⟩
  · apply ne_of_lt
    rw [Finset.fold_max_lt]
    exact ⟨bot_lt_top, fun t _ => lt_top_iff_ne_top.2 (hf t).2⟩

/-- A positive real number, as an extended real. -/
def IsPos (a : EReal) : Prop := ∃ r : ℝ, 0 < r ∧ a = (r : EReal)

theorem isPos_add {a b : EReal} (ha : IsPos a) (hb : IsPos b) : IsPos (a + b) := by
  obtain ⟨r, hr, rfl⟩ := ha
  obtain ⟨s, hs, rfl⟩ := hb
  exact ⟨r + s, add_pos hr hs, (EReal.coe_add r s).symm⟩

/-- Each exponential over the maximum is the exponential of a real number, so a positive real. -/
theorem isPos_expo (f : Fin 2048 → EReal) (hf : ∀ t, IsFin (f t)) (t : Fin 2048) : IsPos (expo f t) := by
  obtain ⟨a, ha⟩ := isFin_exists (hf t)
  obtain ⟨m, hm⟩ := isFin_exists (isFin_rowMax f hf)
  refine ⟨Real.exp (a - m), Real.exp_pos _, ?_⟩
  unfold expo
  rw [ha, hm, ← EReal.coe_sub, Ideal.exp_coe]

/-- Their sum, over the 2048 entries of the row, is a positive real. -/
theorem isPos_denom (f : Fin 2048 → EReal) (hf : ∀ t, IsFin (f t)) : IsPos (denom f) := by
  unfold denom
  exact Finset.sum_induction_nonempty (expo f) IsPos (fun _ _ => isPos_add)
    ⟨⟨0, by norm_num⟩, Finset.mem_univ _⟩ (fun t _ => isPos_expo f hf t)

/-! ## Dividing by a positive real -/

/-- Multiplication by a nonnegative real distributes over a finite sum of arbitrary extended reals. -/
theorem sum_mul_coe {ι : Type} (s : Finset ι) (a : ι → EReal) (c : ℝ) (hc : 0 ≤ c) :
    (∑ i ∈ s, a i) * (c : EReal) = ∑ i ∈ s, a i * (c : EReal) := by
  classical
  induction s using Finset.induction_on with
  | empty => simp
  | insert i s hi ih =>
    rw [Finset.sum_insert hi, Finset.sum_insert hi,
      EReal.right_distrib_of_nonneg_of_ne_top (EReal.coe_nonneg.2 hc) (EReal.coe_ne_top c), ih]

/-- Dividing a weighted sum by a positive real is summing the weights divided by it: division by the positive real
    L is multiplication by 1/L, which goes inside the sum and then past the other factor. -/
theorem div_sum_eq (e w : Fin 2048 → EReal) (l : EReal) (hl : IsPos l) :
    Ideal.div (∑ t : Fin 2048, e t * w t) l = ∑ t : Fin 2048, Ideal.div (e t) l * w t := by
  obtain ⟨L, hL, rfl⟩ := hl
  have hL0 : L ≠ 0 := ne_of_gt hL
  have hc : (0 : ℝ) ≤ 1 / L := le_of_lt (one_div_pos.2 hL)
  rw [Ideal.div_coe hL0, sum_mul_coe _ _ _ hc]
  refine Finset.sum_congr rfl fun t _ => ?_
  rw [Ideal.div_coe hL0, mul_right_comm]

/-! ## The two forms of a head's output, and of the result -/

theorem head_forms_eq (q k v : A4 2 16 2048 64) (mask : A2 2048 2048)
    (hq : ∀ i, IsFin (q i)) (hk : ∀ i, IsFin (k i)) (hm : ∀ i, IsFin (mask i))
    (b : Fin 2) (h : Fin 16) (s : Fin 2048) (j : Fin 64) :
    headSumThenDiv q k v mask b h s j = headDivThenSum q k v mask b h s j := by
  unfold headSumThenDiv headDivThenSum
  exact div_sum_eq _ _ _ (isPos_denom _ fun t => isFin_score q k mask hq hk hm b h s t)

theorem result_forms_eq (x : A3 2 2048 1024) (cos sin : A2 2048 32) (mask : A2 2048 2048)
    (Wq : A2 1024 1024) (bq : A1 1024) (Wk : A2 1024 1024) (bk : A1 1024) (Wv : A2 1024 1024) (bv : A1 1024)
    (Wo : A2 1024 1024) (bo : A1 1024)
    (hx : ∀ i, IsFin (x i)) (hcos : ∀ i, IsFin (cos i)) (hsin : ∀ i, IsFin (sin i)) (hmask : ∀ i, IsFin (mask i))
    (hWq : ∀ i, IsFin (Wq i)) (hbq : ∀ i, IsFin (bq i)) (hWk : ∀ i, IsFin (Wk i)) (hbk : ∀ i, IsFin (bk i)) :
    resultSumThenDiv x cos sin mask Wq bq Wk bk Wv bv Wo bo = resultDivThenSum x cos sin mask Wq bq Wk bk Wv bv Wo bo := by
  unfold resultSumThenDiv resultDivThenSum
  have hheads : headSumThenDiv (rotProj x cos sin Wq bq) (rotProj x cos sin Wk bk) (plainProj x Wv bv) mask
      = headDivThenSum (rotProj x cos sin Wq bq) (rotProj x cos sin Wk bk) (plainProj x Wv bv) mask := by
    funext b h s j
    exact head_forms_eq _ _ _ mask
      (fun i => isFin_rotProj x cos sin Wq bq hx hcos hsin hWq hbq i)
      (fun i => isFin_rotProj x cos sin Wk bk hx hcos hsin hWk hbk i) hmask b h s j
  rw [hheads]

end Cert.Val

end
-- ==== Proof.Finite.lean ====
/-
  The precondition says every float input is finite: read at an entry, each of the twelve argument arrays holds a real
  number there.
-/
import proofs.«400326_j61744449847642_3_alg».proof.Defs
import proofs.«400326_j61744449847642_3_alg».proof.Proof.Gen.Pre_finite_inputs
import proofs.«400326_j61744449847642_3_alg».proof.Proof.Spec
import Idealize.ShloMosaic.Lib.ReduceAll

set_option maxRecDepth 16384

noncomputable section

namespace Cert.Val

open Idealize.ShloMosaic Idealize.ShloMosaic.TcCoe Idealize.ShloMosaic.ValueIdx Idealize.SL.Sem
open Cert.Spec
open Cert.KernelIdeal

/-- The word 0x7F800000, read as a float, is +∞. -/
private theorem inf_word : Ideal.ofBits .f32 0x7F800000#32 = (⊤ : EReal) := by
  simp [Ideal.ofBits, Ideal.ieee]

/-- |x| < +∞ over the extended reals, with |x| = max x (−x): x is neither −∞ nor +∞. -/
private theorem isFin_of_abs_lt (x : EReal)
    (h : Ideal.cmp .olt (max x (-x)) (Ideal.ofBits .f32 0x7F800000#32) = 1#1) : IsFin x := by
  rw [inf_word] at h
  induction x using EReal.rec with
  | bot => simp [Ideal.cmp] at h
  | top => simp [Ideal.cmp] at h
  | coe r => exact ⟨EReal.coe_ne_bot r, EReal.coe_ne_top r⟩

/-- One conjunct of the precondition: the conjunction over all entries of "|x i| < +∞" is true, so every entry of x
    is a real number. -/
private theorem all_fin {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) :
    ∀ i, IsFin (x i) := by
  intro i
  -- the rank-0 shape has exactly one index
  haveI : Subsingleton Cert.Pre_finite_inputs.S_.Idx := ⟨fun a b => funext fun d => d.elim0⟩
  have h := Host.reduce_andi_all _ _ hr hu ix0 e i
  exact isFin_of_abs_lt (x i) h

/- The precondition is a left-nested conjunction of twelve such conjuncts, one per argument in order; peeling it
   from the right leaves the first eight. -/
theorem finite_of_pre [hPre : Cert.Pre_finite_inputs.Facts] (m : (ℓ : Loc nD τ sig) → Buf (Elt Ideal) ℓ) (h : Cert.Pre_KernelIdeal m) (c : Dev nD) :
    (∀ i, IsFin ((m ((c.tc : Thread nD τ).loc main_arg0)) i)) ∧ (∀ i, IsFin ((m ((c.tc : Thread nD τ).loc main_arg1)) i)) ∧ (∀ i, IsFin ((m ((c.tc : Thread nD τ).loc main_arg2)) i))
    ∧ (∀ i, IsFin ((m ((c.tc : Thread nD τ).loc main_arg3)) i)) ∧ (∀ i, IsFin ((m ((c.tc : Thread nD τ).loc main_arg4)) i)) ∧ (∀ i, IsFin ((m ((c.tc : Thread nD τ).loc main_arg5)) i))
    ∧ (∀ i, IsFin ((m ((c.tc : Thread nD τ).loc main_arg6)) i)) ∧ (∀ i, IsFin ((m ((c.tc : Thread nD τ).loc main_arg7)) i)) := by
  have h0 := congrFun (h c) ix0
  dsimp only [Cert.Pre_finite_inputs.fn, Cert.Pre_finite_inputs.fn_part1, Cert.Pre_finite_inputs.fn_part2,
    Cert.Pre_finite_inputs.fn_part3, Idealize.ShloMosaic.andi] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_fin _ _ _ _ e0, all_fin _ _ _ _ e1, all_fin _ _ _ _ e2, all_fin _ _ _ _ e3, all_fin _ _ _ _ e4,
    all_fin _ _ _ _ e5, all_fin _ _ _ _ e6, all_fin _ _ _ _ e7⟩

end Cert.Val

end
-- ==== Proof.lean ====
/-
  Multi-head attention with rotary position embedding: a fused kernel against its plain reference.

  Both programs project the input against the query, key and value weights, split the 1024 columns into sixteen heads
  of 64 lanes, rotate the queries' and keys' two half-heads by the rows' cosines and sines, score every query row
  against every key row (the products summed, times 1/8, plus the additive mask), take exponentials over each row's
  maximum, weight the values by them, and project the heads, laid side by side, against the output weights. The kernel
  does this in two pipelined calls — the three projections against the weights stacked, then the attention with the
  output projection — over blocks of 512 and 256 rows; read at the ideal values neither the blocking, nor the stacking,
  nor a change of float format changes a value. The one difference is where the normalisation sits: the kernel divides
  the weighted sum by the exponentials' sum l, the reference divides each weight by l first. For finite inputs every
  score is a real number, so l is a positive real, and dividing by it distributes over the sum: the results agree.

  The frames: each program's run terminates without a fault and leaves its twelve arguments as launched — the kernel's
  at both readings through its two pipelines, the reference's by its straight-line run.
-/
import proofs.«400326_j61744449847642_3_alg».proof.Defs
import proofs.«400326_j61744449847642_3_alg».proof.Proof.Gen.Kernel
import proofs.«400326_j61744449847642_3_alg».proof.Proof.Gen.KernelIdeal
import proofs.«400326_j61744449847642_3_alg».proof.Proof.Gen.ReferenceIdeal
import proofs.«400326_j61744449847642_3_alg».proof.Proof.Gen.ReferenceIdeal.Run
import proofs.«400326_j61744449847642_3_alg».proof.Proof.Gen.ReferenceIdeal.Read
import proofs.«400326_j61744449847642_3_alg».proof.Proof.Gen.Pre_finite_inputs
import proofs.«400326_j61744449847642_3_alg».proof.Proof.BitsMainRun
import proofs.«400326_j61744449847642_3_alg».proof.Proof.IdealMainRun
import proofs.«400326_j61744449847642_3_alg».proof.Proof.Assemble
import proofs.«400326_j61744449847642_3_alg».proof.Proof.RefValue
import proofs.«400326_j61744449847642_3_alg».proof.Proof.Bridge
import proofs.«400326_j61744449847642_3_alg».proof.Proof.Finite
import Idealize.ShloMosaic.Adequacy
import Idealize.ShloMosaic.Init

noncomputable section

namespace Cert.Proof

open Idealize.ShloMosaic Idealize.SL.Sem

/-- The kernel as printed, at the word level: both pipelines run to the end and no argument is written. -/
theorem frame_kernel [hKernel : Cert.Kernel.Facts] [hPre : Cert.Pre_finite_inputs.Facts] :
    Cert.frame_Kernel := fun m ρ _ => Cert.Kernel.Frm.frame m ρ

/-- The same program read at the ideal values. -/
theorem frame_kernelIdeal [hKernelIdeal : Cert.KernelIdeal.Facts] [hPre : Cert.Pre_finite_inputs.Facts] :
    Cert.frame_KernelIdeal := fun m ρ _ => Cert.KernelIdeal.Frm.frame m ρ

/-- The reference's straight-line run, its result dropped. -/
theorem frame_referenceIdeal [hReferenceIdeal : Cert.ReferenceIdeal.Facts] [hPre : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array and the reference's hold one function of the
    arguments: the kernel's is the attention with the weighted sum divided by the normaliser, the reference's the same
    with each weight divided first, and for finite inputs the two forms agree. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' hpre hagree
  refine ⟨fun c => Cert.Spec.resultSumThenDiv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Val.kernel_result m ρ c), (h c).2⟩) (Cert.KernelIdeal.Frm.result_eq m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := Cert.Val.finite_of_pre m hpre c
    rw [Cert.ReferenceIdeal.Read.val_main_v71_eq, Cert.Val.ref_result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    exact (Cert.Val.result_forms_eq _ _ _ _ _ _ _ _ _ _ _ _ h0 h1 h2 h3 h4 h5 h6 h7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
